-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1000 : Shape := ⟨2, ![8192, 1000]⟩
abbrev S8192x256 : Shape := ⟨2, ![8192, 256]⟩
abbrev S8192 : Shape := ⟨1, ![8192]⟩
abbrev S_ : Shape := ⟨0, ![]⟩

class Facts : Prop where
  bcast_S_S8192x1000 : S_.BroadcastsInDim S8192x1000 (![] : Fin 0 → Fin S8192x1000.rank)
  reducesTo_S8192x1000_S_d0_1 : S8192x1000.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1000 .f32) (main_arg1 : FVec F S8192x256 .f32) (main_arg2 : IVec S8192 32) : IVec S_ 1 :=
  let main_v0 : FVec F S8192x1000 .f32 := Host.absf main_arg0
  let main_cst : FVec F S_ .f32 := constant S_ .f32 0x7F800000#32
  let main_v1 : FVec F S8192x1000 .f32 := broadcastInDim S8192x1000 ![] bcast_S_S8192x1000 main_cst
  let main_v2 : IVec S8192x1000 1 := cmpf .olt main_v0 main_v1
  let main_c : IVec S_ 1 := constantI S_ 1 1#1
  let main_v3 : IVec S_ 1 := (fun x v => Host.reduce IntOp.andi x v reducesTo_S8192x1000_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1000#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x1000 : Shape := ⟨2, ![8192, 1000]⟩
abbrev S8192x256 : Shape := ⟨2, ![8192, 256]⟩
abbrev S8192 : Shape := ⟨1, ![8192]⟩
abbrev S8192x1 : Shape := ⟨2, ![8192, 1]⟩
abbrev S1024x1000 : Shape := ⟨2, ![1024, 1000]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S1024x256 : Shape := ⟨2, ![1024, 256]⟩
abbrev S1x1024 : Shape := ⟨2, ![1, 1024]⟩
abbrev S256x1024 : Shape := ⟨2, ![256, 1024]⟩
abbrev S1024x1024 : Shape := ⟨2, ![1024, 1024]⟩

abbrev nBuf : Space → Nat
  | .hbm => 27
  | .vmem => 22
  | .smem => 0
  | _ => 0

abbrev bufTy : (tb : Table) → Fin (tcTables nBuf tb) → BufTy
  | .hbm, ⟨0, _⟩ => ⟨S8192x1000, .f32⟩
  | .hbm, ⟨1, _⟩ => ⟨S8192x256, .f32⟩
  | .hbm, ⟨2, _⟩ => ⟨S8192, .i32⟩
  | .hbm, ⟨3, _⟩ => ⟨S8192x1, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x256, .bf16⟩
  | .hbm, ⟨10, _⟩ => ⟨S8192x256, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x1, .i32⟩
  | .hbm, ⟨16, _⟩ => ⟨S1x8192, .i32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x1, .f32⟩
  | .local _ .vmem, ⟨11, _⟩ => ⟨S1024x1, .f32⟩
  | .local _ .vmem, ⟨12, _⟩ => ⟨S1x1024, .f32⟩
  | .local _ .vmem, ⟨13, _⟩ => ⟨S1x1024, .f32⟩
  | .local _ .vmem, ⟨14, _⟩ => ⟨S1024x1, .i32⟩
  | .local _ .vmem, ⟨15, _⟩ => ⟨S1024x1, .i32⟩
  | .local _ .vmem, ⟨16, _⟩ => ⟨S1x1024, .i32⟩
  | .local _ .vmem, ⟨17, _⟩ => ⟨S1x1024, .i32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S8192x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v60 : BitVec 1 := Scalar.cmpi .eq arg1 c7_i32
  let v61 : BitVec 32 := Scalar.extui v60
  let c0_i32_29 : BitVec 32 := 0#32
  let v62 : BitVec 1 := Scalar.cmpi .ne v61 c0_i32_29
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S8192_S8192x1 : S8192.ShapeCasts S8192x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  reducesTo_S8192x1_S_d0_1 : S8192x1.ReducesTo [0, 1] S_
  h_S_ : 0 < S_.numel
  bitsLt_bf16_f32 : FTy.bits .bf16 < FTy.bits .f32
  reducesTo_S8192x256_S8192_d1 : S8192x256.ReducesTo [1] S8192
  bcast_S8192_S8192x1_0 : S8192.BroadcastsInDim S8192x1 (![0] : Fin 1 → Fin S8192x1.rank)
  shapeCasts_S8192x1_S1x8192 : S8192x1.ShapeCasts S1x8192
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S8192x1000.size a
  hwx0_0 : ∀ i : grid0.Coords, EltTy.bits .f32 = 32 ∨ (Rect.block (s := S8192x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .i32 = 32 ∨ (Rect.block (s := S8192x1) S1024x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .i32 = 32 ∨ (Rect.block (s := S1x8192) S1x1024.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x1000 : Shape := ⟨2, ![8192, 1000]⟩
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 121
  | .vmem => 0
  | .smem => 0
  | _ => 0

abbrev bufTy : (tb : Table) → Fin (tcTables nBuf tb) → BufTy
  | .hbm, ⟨0, _⟩ => ⟨S8192x1000, .f32⟩
  | .hbm, ⟨1, _⟩ => ⟨S8192x256, .f32⟩
  | .hbm, ⟨2, _⟩ => ⟨S8192, .i32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x1000, .f32⟩
  | .hbm, ⟨10, _⟩ => ⟨S8192x1000, .f32⟩
  | .hbm, ⟨11, _⟩ => ⟨S8192x1000, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x1000, .f32⟩
  | .hbm, ⟨17, _⟩ => ⟨S8192x1000, .f32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192x256, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S1x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S256x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .i1⟩
  | .hbm, ⟨66, _⟩ => ⟨S_, .f32⟩
  | .hbm, ⟨67, _⟩ => ⟨S8192x8192, .f32⟩
  | .hbm, ⟨68, _⟩ => ⟨S8192x8192, .i1⟩
  | .hbm, ⟨69, _⟩ => ⟨S_, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x1, .i32⟩
  | .hbm, ⟨79, _⟩ => ⟨S1x8192, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S8192x8192, .i1⟩
  | .hbm, ⟨84, _⟩ => ⟨S_, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S8192x8192, .f32⟩
  | .hbm, ⟨93, _⟩ => ⟨S8192x8192, .f32⟩
  | .hbm, ⟨94, _⟩ => ⟨S_, .f32⟩
  | .hbm, ⟨95, _⟩ => ⟨S8192, .f32⟩
  | .hbm, ⟨96, _⟩ => ⟨S_, .i1⟩
  | .hbm, ⟨97, _⟩ => ⟨S8192, .i1⟩
  | .hbm, ⟨98, _⟩ => ⟨S_, .i1⟩
  | .hbm, ⟨99, _⟩ => ⟨S8192, .i1⟩
  | .hbm, ⟨100, _⟩ => ⟨S8192, .i1⟩
  | .hbm, ⟨101, _⟩ => ⟨S8192, .f32⟩
  | .hbm, ⟨102, _⟩ => ⟨S_, .f32⟩
  | .hbm, ⟨103, _⟩ => ⟨S8192, .f32⟩
  | .hbm, ⟨104, _⟩ => ⟨S8192, .f32⟩
  | .hbm, ⟨105, _⟩ => ⟨S_, .f32⟩
  | .hbm, ⟨106, _⟩ => ⟨S8192, .f32⟩
  | .hbm, ⟨107, _⟩ => ⟨S8192, .f32⟩
  | .hbm, ⟨108, _⟩ => ⟨S_, .f32⟩
  | .hbm, ⟨109, _⟩ => ⟨S_, .f32⟩
  | .hbm, ⟨110, _⟩ => ⟨S8192, .f32⟩
  | .hbm, ⟨111, _⟩ => ⟨S8192, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S8192x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_3 : Ref sig .tc := ⟨.hbm, 60, rfl⟩
abbrev main_v18 : Ref sig .tc := ⟨.hbm, 61, rfl⟩
abbrev main_v19 : Ref sig .tc := ⟨.hbm, 62, rfl⟩
abbrev main_cst_4 : Ref sig .tc := ⟨.hbm, 63, rfl⟩
abbrev main_v20 : Ref sig .tc := ⟨.hbm, 64, rfl⟩
abbrev main_v21 : Ref sig .tc := ⟨.hbm, 65, rfl⟩
abbrev main_cst_5 : Ref sig .tc := ⟨.hbm, 66, rfl⟩
abbrev main_v22 : Ref sig .tc := ⟨.hbm, 67, rfl⟩
abbrev main_v23 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_v24 : Ref sig .tc := ⟨.hbm, 72, rfl⟩
abbrev main_v25 : Ref sig .tc := ⟨.hbm, 73, rfl⟩
abbrev main_cst_7 : Ref sig .tc := ⟨.hbm, 74, rfl⟩
abbrev main_call3_v0 : Ref sig .tc := ⟨.hbm, 75, rfl⟩
abbrev main_call3_v1 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_8 : Ref sig .tc := ⟨.hbm, 84, rfl⟩
abbrev main_call4_v0 : Ref sig .tc := ⟨.hbm, 85, rfl⟩
abbrev main_call4_v1 : Ref sig .tc := ⟨.hbm, 86, rfl⟩
abbrev main_v33 : Ref sig .tc := ⟨.hbm, 87, rfl⟩
abbrev main_cst_9 : Ref sig .tc := ⟨.hbm, 88, rfl⟩
abbrev main_v34 : Ref sig .tc := ⟨.hbm, 89, rfl⟩
abbrev main_cst_10 : Ref sig .tc := ⟨.hbm, 90, rfl⟩
abbrev main_call5_v0 : Ref sig .tc := ⟨.hbm, 91, rfl⟩
abbrev main_call5_v1 : Ref sig .tc := ⟨.hbm, 92, rfl⟩
abbrev main_v35 : Ref sig .tc := ⟨.hbm, 93, rfl⟩
abbrev main_cst_11 : Ref sig .tc := ⟨.hbm, 94, rfl⟩
abbrev main_v36 : Ref sig .tc := ⟨.hbm, 95, rfl⟩
abbrev main_c : Ref sig .tc := ⟨.hbm, 96, rfl⟩
abbrev main_v37 : Ref sig .tc := ⟨.hbm, 97, rfl⟩
abbrev main_c_12 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_13 : Ref sig .tc := ⟨.hbm, 102, rfl⟩
abbrev main_v41 : Ref sig .tc := ⟨.hbm, 103, rfl⟩
abbrev main_v42 : Ref sig .tc := ⟨.hbm, 104, rfl⟩
abbrev main_call6_cst : Ref sig .tc := ⟨.hbm, 105, rfl⟩
abbrev main_call6_v0 : Ref sig .tc := ⟨.hbm, 106, rfl⟩
abbrev main_v43 : Ref sig .tc := ⟨.hbm, 107, rfl⟩
abbrev main_cst_14 : Ref sig .tc := ⟨.hbm, 108, rfl⟩
abbrev main_call7_v0 : Ref sig .tc := ⟨.hbm, 109, rfl⟩
abbrev main_call7_v1 : Ref sig .tc := ⟨.hbm, 110, rfl⟩
abbrev main_v44 : Ref sig .tc := ⟨.hbm, 111, rfl⟩
abbrev main_cst_15 : Ref sig .tc := ⟨.hbm, 112, rfl⟩
abbrev main_v45 : Ref sig .tc := ⟨.hbm, 113, rfl⟩
abbrev main_cst_16 : Ref sig .tc := ⟨.hbm, 114, rfl⟩
abbrev main_v46 : Ref sig .tc := ⟨.hbm, 115, rfl⟩
abbrev main_cst_17 : Ref sig .tc := ⟨.hbm, 116, rfl⟩
abbrev main_v47 : Ref sig .tc := ⟨.hbm, 117, rfl⟩
abbrev main_cst_18 : Ref sig .tc := ⟨.hbm, 118, rfl⟩
abbrev main_v48 : Ref sig .tc := ⟨.hbm, 119, rfl⟩
abbrev main_v49 : Ref sig .tc := ⟨.hbm, 120, rfl⟩

abbrev nD : Nat := 1
abbrev τ : Topo := Topo.v7x

variable {F : FTy → Type} [FloatOps F]

class Facts₀ : Prop where
  reducesTo_S8192x1000_S8192_d1 : S8192x1000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  reducesTo_S8192x256_S8192_d1 : S8192x256.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  gather_S8192x1000_S8192x1x1_S8192x1_n_1_0_0_1_2_11_wf : GatherDims.WF S8192x1000 S8192x1x1 S8192x1 [] [1] [0] [1] [0] 2 ![1, 1]
  dot_S8192x256_S256x8192_S8192x8192_1_0_0_1_n_n_wf : DotDims.WF S8192x256 S256x8192 S8192x8192 [1] [0] [0] [1] [] []

variable [Facts₀]

def gather_S8192x1000_S8192x1x1_S8192x1_n_1_0_0_1_2_11 : GatherDims S8192x1000 S8192x1x1 S8192x1 where
  offsetDims := []
  collapsedSliceDims := [1]
  operandBatchingDims := [0]
  startIndicesBatchingDims := [0]
  startIndexMap := [1]
  indexVectorDim := 2
  sliceSizes := ![1, 1]
  wf := gather_S8192x1000_S8192x1x1_S8192x1_n_1_0_0_1_2_11_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The two programs as functions of the argument arrays, entry by entry, on the extended reals.

  Cross-entropy. For a row r of the logits x, M r is the row's maximum, S r = Σ_k exp (x r k − M r), and g r the
  logit at the row's label. One program ends the row at (log S + M) − g, the other at (g − M) − log S, negated after
  the mean; for finite logits these are the same real number.

  Batch-hard triplet term. With q r = Σ_k f r k², the squared distance of rows r and c is
  max (q r + q c − 2·Σ_k f r k · f c k, 0). One program takes, over the columns with the row's label, the largest
  SQUARED distance (the diagonal set to zero), over the other columns the smallest, and applies the square root to the
  two extremes; the other takes the extremes of the distances themselves. The square root is monotone, so the two agree.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 1000]⟩
abbrev SF : Shape := ⟨2, ![8192, 256]⟩
abbrev ST : Shape := ⟨1, ![8192]⟩

/-- The float literals both programs carry, as the extended reals their patterns denote. -/
abbrev c0 : EReal := Ideal.ofBits .f32 0x00000000#32
abbrev c1 : EReal := Ideal.ofBits .f32 0x3F800000#32
abbrev c2 : EReal := Ideal.ofBits .f32 0x40000000#32
abbrev cN : EReal := Ideal.ofBits .f32 0x46000000#32
abbrev cMargin : EReal := Ideal.ofBits .f32 0x3E99999A#32

variable (x : SX.Idx → EReal) (f : SF.Idx → EReal) (t : ST.Idx → BitVec 32)

/-! ## Cross-entropy -/

/-- The largest logit of row r. -/
def rowMax (r : Fin 8192) : EReal := Finset.univ.sup fun k : Fin 1000 => x (ix2 r k)

/-- Σ_k exp (x r k − M r). -/
def sumExp (r : Fin 8192) : EReal := ∑ k : Fin 1000, Ideal.exp (x (ix2 r k) - rowMax x r)

/-- Row r's entry at column n, zero past the last column. -/
def entryAt (r : Fin 8192) (n : ℕ) : EReal := if h : n < 1000 then x (ix2 r ⟨n, h⟩) else 0

/-- The logit at row r's label. -/
def atLabel (r : Fin 8192) : EReal := entryAt x r (t (ix1 r)).toNat

/-- (log S + M) − g: the row's negative log-likelihood as the kernel computes it. -/
def nllK (r : Fin 8192) : EReal := (Ideal.log (sumExp x r) + rowMax x r) - atLabel x t r

/-- (g − M) − log S: the row's log-probability as the reference computes it. -/
def lpR (r : Fin 8192) : EReal := (atLabel x t r - rowMax x r) - Ideal.log (sumExp x r)

def ceK : EReal := Ideal.div (∑ r : Fin 8192, nllK x t r) cN
def ceR : EReal := -(Ideal.div (∑ r : Fin 8192, lpR x t r) cN)

/-! ## The triplet term -/

def sq (r : Fin 8192) : EReal := ∑ k : Fin 256, f (ix2 r k) * f (ix2 r k)
def gram (r c : Fin 8192) : EReal := ∑ k : Fin 256, f (ix2 r k) * f (ix2 c k)
/-- The clamped squared distance of rows r and c. -/
def d2 (r c : Fin 8192) : EReal := max (sq f r + sq f c - c2 * gram f r c) c0
/-- Rows r and c carry the same label. -/
def same (r c : Fin 8192) : Prop := t (ix1 r) = t (ix1 c)
instance (r c : Fin 8192) : Decidable (same t r c) := by unfold same; infer_instance

/-- The kernel's squared distance: the diagonal an exact zero. -/
def d2K (r c : Fin 8192) : EReal := if r = c then c0 else d2 f r c
def posK (r : Fin 8192) : EReal := Finset.univ.sup fun c : Fin 8192 => if same t r c then d2K f r c else ⊥
def negK (r : Fin 8192) : EReal := Finset.univ.inf fun c : Fin 8192 => if same t r c then ⊤ else d2K f r c
def perRowK (r : Fin 8192) : EReal :=
  if negK f t r < ⊤ ∧ ⊥ < posK f t r then
    max (Ideal.sqrt (max (posK f t r) c0) - Ideal.sqrt (max (negK f t r) c0) + cMargin) c0
  else c0
def triK : EReal := Ideal.div (∑ r : Fin 8192, perRowK f t r) cN

/-- The reference's distance: the square root where the squared distance is positive, zero elsewhere. -/
def distR (r c : Fin 8192) : EReal := if c0 < d2 f r c then Ideal.sqrt (if c0 < d2 f r c then d2 f r c else c1) else c0
def posR (r : Fin 8192) : EReal := Finset.univ.sup fun c : Fin 8192 => if same t r c then distR f r c else ⊥
def negR (r : Fin 8192) : EReal := Finset.univ.inf fun c : Fin 8192 => if same t r c then ⊤ else distR f r c
def validR (r : Fin 8192) : Prop := (∃ c, same t r c) ∧ (∃ c, ¬ same t r c)
open Classical in
def perRowR (r : Fin 8192) : EReal :=
  if validR t r then max (posR f t r - negR f t r + cMargin) c0 else c0
def triR : EReal := Ideal.div (∑ r : Fin 8192, perRowR f t r) cN

/-! ## The total -/

def totK : EReal := c1 * ceK x t + c1 * triK f t
def totR : EReal := c1 * ceR x t + c1 * triR f t

/-! ## The domain -/

/-- Every logit and every feature a real number; every label a class index. -/
structure Dom : Prop where
  x_fin : ∀ i, x i ≠ ⊥ ∧ x i ≠ ⊤
  f_fin : ∀ i, f i ≠ ⊥ ∧ f i ≠ ⊤
  t_rng : ∀ i, 0 ≤ (t i).toInt ∧ (t i).toInt < 1000

end Cert.Spec

end
-- ==== Proof.PreDom.lean ====
/-
  The printed precondition, read entry by entry, gives the domain of the specification.

  The precondition is the conjunction of three statements, each a conjunction over every entry of an argument
  array: |x i| < +∞ for the logits, |f i| < +∞ for the features, and 0 ≤ t i < 1000 (as signed words) for the
  labels. On the extended reals |v| = max v (−v), and max v (−v) < +∞ says v ≠ +∞ and −v ≠ +∞, that is v ≠ −∞.
-/
import proofs.«427963_j9938554323333_3_alg».proof.Defs
import proofs.«427963_j9938554323333_3_alg».proof.Proof.Gen.Pre_finite_inputs
import proofs.«427963_j9938554323333_3_alg».proof.Proof.Spec
import Idealize.ShloMosaic.Lib.ReduceAll
import Idealize.ShloMosaic.Lib.StableHlo.Predicate
import Idealize.ShloMosaic.Lib.Affine

noncomputable section

namespace Cert.Proof.PreDom

open Idealize.ShloMosaic

/-- The shape of rank zero has one index. -/
instance subsingleton_scalarIdx : Subsingleton Cert.Pre_finite_inputs.S_.Idx :=
  ⟨fun a b => funext fun d => d.elim0⟩

/-- The pattern 0x7F800000 denotes +∞. -/
theorem ofBits_inf : Ideal.ofBits .f32 0x7F800000#32 = (⊤ : EReal) := by
  simp [Ideal.ofBits, Ideal.ieee]

/-- max v (−v) < +∞ says v is neither infinity. -/
theorem fin_of_abs_lt_inf (v : EReal)
    (h : Ideal.cmp .olt (max v (-v)) (Ideal.ofBits .f32 0x7F800000#32) = 1#1) : v ≠ ⊥ ∧ v ≠ ⊤ := by
  rw [ofBits_inf] at h
  simp only [Ideal.cmp, StableHlo.Predicate.ofBool_eq_one_iff, decide_eq_true_eq, max_lt_iff] at h
  refine ⟨fun hv => ?_, fun hv => ?_⟩
  · rw [hv] at h; exact absurd h.2 (by simp)
  · rw [hv] at h; exact absurd h.1 (by simp)

theorem dom_of_pre [hF : Cert.Pre_finite_inputs.Facts] (x : Cert.Spec.SX.Idx → EReal)
    (f : Cert.Spec.SF.Idx → EReal) (t : Cert.Spec.ST.Idx → BitVec 32)
    (h : Cert.Pre_finite_inputs.fn (F := Ideal) x f t = fun _ => 1#1) : Cert.Spec.Dom x f t := by
  have h0 := congrFun h ValueIdx.ix0
  dsimp only [Cert.Pre_finite_inputs.fn] at h0
  simp only [andi, IntOp.andi_eq_one] at h0
  obtain ⟨⟨hx, hf⟩, ht⟩ := h0
  refine ⟨fun i => ?_, fun i => ?_, fun i => ?_⟩
  · have e := Host.reduce_andi_all _ _ _ _ _ hx i
    exact fin_of_abs_lt_inf (x i) e
  · have e := Host.reduce_andi_all _ _ _ _ _ hf i
    exact fin_of_abs_lt_inf (f i) e
  · have e := Host.reduce_andi_all _ _ _ _ _ ht i
    simp only [andi, cmpi, broadcastInDim, constantI, IntOp.andi_eq_one, IntOp.cmpi_sge, IntOp.cmpi_slt] at e
    have e0 : (0#32 : BitVec 32).toInt = 0 := by decide
    have e1 : (1000#32 : BitVec 32).toInt = 1000 := by decide
    rw [e0, e1] at e
    exact e

end Cert.Proof.PreDom

end
-- ==== Proof.K.Reg0.lean ====
/-
  The first launch: each of its eight grid points takes a block of 1024 rows of the logits and the rows' labels and
  stores the rows' negative log-likelihoods. Nothing is carried from one point to the next, so what the output's
  staging buffer holds after a point is one function of the two input blocks at that point.
-/
import proofs.«427963_j9938554323333_3_alg».proof.Proof.Gen.Kernel.Launch
import proofs.«427963_j9938554323333_3_alg».proof.Proof.Gen.Kernel.Skeleton
import proofs.«427963_j9938554323333_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- core `c`'s buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1000 block and the whole 1024 × 1 column, as rectangles. -/
abbrev rX0 : Rect S1024x1000 := Rect.unit (s := S1024x1000) ![0, 0] S1024x1000.size inb_S1024x1000_S1024x1000_0_0
abbrev rC0 : Rect S1024x1 := Rect.unit (s := S1024x1) ![0, 0] S1024x1.size inb_S1024x1_S1024x1_0_0

/-- What a point leaves in the output's staging buffer: the one store of the rows' values, a function of the logits
    block and the label block. -/
def out0_2 (x0 : Vec F S1024x1000 .f32) (x1 : Vec F S1024x1 .i32) : Vec F S1024x1 .f32 :=
  View.canon [⟨rC0, k0_pay1 (View.ld x0 rX0) (View.ld x1 rC0)⟩]

/-- The one store covers the column. -/
theorem cover0_2 (p0 : Vec F S1024x1 .f32) (y : S1024x1.Idx) :
    ∃ pc ∈ ([⟨rC0, p0⟩] : List (View.Piece (Elt F) S1024x1 .f32)), y ∈ pc.1.set :=
  View.cover_of_tiled [⟨rC0, p0⟩] S1024x1.size (by rfl) y

set_option maxHeartbeats 1000000 in
/-- The body on whole staging memrefs: the inputs kept, the output at `out0_2` of the inputs. -/
theorem sound_kernel0 (c : Dev nD) (E : Set ℕ) (i : grid0.Coords) (arg1 : Memref sig .tc .vmem S1024x1000 .f32) (harg1 : arg1.IsWhole)
    (arg2 : Memref sig .tc .vmem S1024x1 .i32) (harg2 : arg2.IsWhole) (arg3 : Memref sig .tc .vmem S1024x1 .f32) (harg3 : arg3.IsWhole)
    (x0 : Vec F S1024x1000 .f32) (x1 : Vec F S1024x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__ce_kernel i arg1 harg1 arg2 harg2 arg3 harg3) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as the launch finds them; after a point each input's buffer at its
    block and the output's at `out0_2` of the two input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.KI

end
-- ==== Proof.K.Reg1.lean ====
/-
  The second launch: a grid of 8 × 8 points, point (i, j) at position 8·i + j. A point takes row block i and column
  block j of the embeddings, of their squared norms and of the labels; it keeps, in two buffers carried from point to
  point, the running maximum over same-label columns and the running minimum over other-label columns of the squared
  distances of its rows; at j = 0 the two are first reset, at j = 7 the rows' losses are stored into the output block.
  So a point is in one of three cases — j = 0, 0 < j < 7, j = 7 — and what the carried buffers and the output's
  staging buffer hold after a point is a function of the point's input blocks and of what the point before left.
-/
import proofs.«427963_j9938554323333_3_alg».proof.Proof.Gen.Kernel.Launch
import proofs.«427963_j9938554323333_3_alg».proof.Proof.Gen.Kernel.Skeleton
import proofs.«427963_j9938554323333_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- core `c`'s buffer contents when the launch is entered
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs: each window's staging buffer holds its block at every point, fetched there or not (a row-side block
    is fetched at j = 0 only, and its index does not move along a row of the grid). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- j = 0, as the body computes it from the grid coordinates. -/
abbrev cond1_0 (i : grid1.Coords) : Prop := (Scalar.cmpi .ne (Scalar.extui (Scalar.cmpi .eq (BitVec.ofNat 32 (i 1).val) 0#32)) 0#32) = 1#1
/-- It holds at the positions ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- j = 7, as the body computes it. -/
abbrev cond1_1 (i : grid1.Coords) : Prop := k1_cond2 i = 1#1
/-- It holds at the positions ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where j ≠ 7 the output window is idle and its block is not written back; where j = 7 it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The two carried buffers: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
/-- Views through which the contents of the output's staging buffer and of the carried buffers are stated. -/
abbrev VO1_6 : View sig .tc .vmem S1024x1 .f32 := (Memref.whole cc1_stg6_0 : Memref sig .tc .vmem S1024x1 .f32).view
abbrev VS1_0 : View sig .tc .vmem S1024x1 .f32 := scM1_0.view
abbrev VS1_1 : View sig .tc .vmem S1024x1 .f32 := scM1_1.view

/-- A scoped buffer of the core, whole, at some contents. -/
abbrev anyAt (c : Dev nD) (b : Ref sig .tc) : sProp 𝕄 :=
  iprop(∃ f : Buf (Elt F) ((c : Thread nD τ).loc b), ((c : Thread nD τ).loc b) ↦{fullShare} f)

/-- What the launch hands the body besides the windows: the first launch's six staging buffers and the two carried
    buffers, at some contents each, and the generator register at some state. -/
theorem PhiA1_eq (c : Dev nD) :
    (Pipeline.ΦA spec1 c : sProp 𝕄)
      = iprop((anyAt c cc0_stg0_0 ∗ anyAt c cc0_stg0_1 ∗ anyAt c cc0_stg1_0 ∗ anyAt c cc0_stg1_1 ∗ anyAt c cc0_stg2_0 ∗ anyAt c cc0_stg2_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body on any whole memrefs, case by case -/

set_option maxHeartbeats 4000000 in
/-- The body at a point with j = 0. On whole memrefs — the six inputs at their contents, the output's buffer at contents
    handed back untouched, the two carried buffers at anything — it runs to the continuation holding the inputs as they
    were and each carried buffer with its pieces written: the reset, then this point's accumulation. The pieces are
    the witness the run finds. -/
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

set_option maxHeartbeats 4000000 in
/-- The body at a point with 0 < j < 7: as at j = 0, but the carried buffers are taken at the contents `xs0`, `xs1`
    the point before left, and there is no reset. -/
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

set_option maxHeartbeats 4000000 in
/-- The body at a point with j = 7: the carried buffers at what the point before left, the output's buffer at
    anything; after the accumulation the rows' losses are stored into the output's buffer, whose pieces are found too. -/
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

/-! ## What each case leaves -/

/-- Nothing is stored into the output's buffer here: a placeholder nothing consults, the window being idle and not written back. -/
def out1_A_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)

/-- The pieces stored into the first carried buffer cover it, -/
theorem scover1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S1024x1.size (by sl_kernel_rfl) y

/-- so what the point leaves in it is its pieces read back. -/
def sout1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5).2.1)

/-- The same for the second carried buffer. -/
theorem scover1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.2.1 S1024x1.size (by sl_kernel_rfl) y

def sout1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4 x5).2.2.1)

/-- Nothing is stored into the output's buffer here: a placeholder nothing consults, the window being idle and not written back. -/
def out1_B_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs0 xs1).1)

/-- The pieces stored into the first carried buffer cover it, -/
theorem scover1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y

/-- so what the point leaves in it is its pieces read back. -/
def sout1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 xs0 xs1).2.1)

/-- The same for the second carried buffer. -/
theorem scover1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

def sout1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 x5 xs0 xs1).2.2.1)

/-- At j = 7 the pieces stored into the output's buffer cover it. -/
theorem cover1_C_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y

/-- What the point leaves in the output's staging buffer: its pieces read back. -/
def out1_C_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs0 xs1).1)

/-- The pieces stored into the first carried buffer cover it, -/
theorem scover1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y

/-- so what the point leaves in it is its pieces read back. -/
def sout1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 xs0 xs1).2.1)

/-- The same for the second carried buffer. -/
theorem scover1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

def sout1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 x5 xs0 xs1).2.2.1)

/-- The three buffers after a point of case A. -/
def pt1_A (c : Dev nD) (t : Fin cfg1.N) (h0 : t.val % 8 = 0) (h1 : ¬t.val % 8 = 7) : Vec F S1024x1 .f32 × Vec F S1024x1 .f32 × Vec F S1024x1 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

/-- The three buffers after a point of case B, over what the point before left in the carried buffers. -/
def pt1_B (c : Dev nD) (t : Fin cfg1.N) (h0 : ¬t.val % 8 = 0) (h1 : ¬t.val % 8 = 7) (xs0 : Vec F S1024x1 .f32) (xs1 : Vec F S1024x1 .f32) : Vec F S1024x1 .f32 × Vec F S1024x1 .f32 × Vec F S1024x1 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1)

/-- The three buffers after a point of case C, over what the point before left in the carried buffers. -/
def pt1_C (c : Dev nD) (t : Fin cfg1.N) (h0 : ¬t.val % 8 = 0) (h1 : t.val % 8 = 7) (xs0 : Vec F S1024x1 .f32) (xs1 : Vec F S1024x1 .f32) : Vec F S1024x1 .f32 × Vec F S1024x1 .f32 × Vec F S1024x1 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1)

/-! ## What the three buffers hold after each point -/

/-- The output's staging buffer and the two carried buffers after the body at position `n`: by the position's case,
    a case that accumulates over what position `n - 1` left in the carried buffers. -/
def outsAt1 (c : Dev nD) : (n : ℕ) → n < cfg1.N → Vec F S1024x1 .f32 × Vec F S1024x1 .f32 × Vec F S1024x1 .f32
  | 0, hn => pt1_A V c ⟨0, hn⟩ (Nat.zero_mod _) (fun h => by have h' : 0 % 8 = 7 := h; omega)
  | n + 1, hn =>
    if h0 : (n + 1) % 8 = 0 then
      if h1 : (n + 1) % 8 = 7 then False.elim (by omega)
      else pt1_A V c ⟨n + 1, hn⟩ h0 h1
    else
      if h1 : (n + 1) % 8 = 7 then
        pt1_C V c ⟨n + 1, hn⟩ h0 h1 (outsAt1 c n (Nat.lt_of_succ_lt hn)).2.1 (outsAt1 c n (Nat.lt_of_succ_lt hn)).2.2
      else
        pt1_B V c ⟨n + 1, hn⟩ h0 h1 (outsAt1 c n (Nat.lt_of_succ_lt hn)).2.1 (outsAt1 c n (Nat.lt_of_succ_lt hn)).2.2

/-- At a point with j = 0. -/
theorem outsAt1_A (c : Dev nD) (t : Fin cfg1.N) (h0 : t.val % 8 = 0) (h1 : ¬t.val % 8 = 7) :
    outsAt1 V c t.val t.isLt = pt1_A V c t h0 h1 := by
  obtain ⟨n, hn⟩ := t
  cases n with
  | zero => exact rfl
  | succ n => exact (dif_pos h0).trans ((dif_neg h1).trans rfl)

/-- At a point with 0 < j < 7, over what the point before left. -/
theorem outsAt1_B (c : Dev nD) (t : Fin cfg1.N) (h0 : ¬t.val % 8 = 0) (h1 : ¬t.val % 8 = 7) :
    outsAt1 V c t.val t.isLt = pt1_B V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- At a point with j = 7, over what the point before left. -/
theorem outsAt1_C (c : Dev nD) (t : Fin cfg1.N) (h0 : ¬t.val % 8 = 0) (h1 : t.val % 8 = 7) :
    outsAt1 V c t.val t.isLt = pt1_C V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point what the launch hands over; afterwards the first launch's staging
    buffers at some contents, the two carried buffers at what the point before left, the generator register at some
    state. -/
def PhiS1 (c : Dev nD) : (n : ℕ) → n ≤ cfg1.N → sProp 𝕄
  | 0, _ => Pipeline.ΦA spec1 c
  | n + 1, hn => iprop((anyAt c cc0_stg0_0 ∗ anyAt c cc0_stg0_1 ∗ anyAt c cc0_stg1_0 ∗ anyAt c cc0_stg1_1 ∗ anyAt c cc0_stg2_0 ∗ anyAt c cc0_stg2_1
      ∗ owns (c : Thread nD τ) scM1_0 fullShare (outsAt1 V c n hn).2.1 ∗ owns (c : Thread nD τ) scM1_1 fullShare (outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((anyAt c cc0_stg0_0 ∗ anyAt c cc0_stg0_1 ∗ anyAt c cc0_stg1_0 ∗ anyAt c cc0_stg1_1 ∗ anyAt c cc0_stg2_0 ∗ anyAt c cc0_stg2_1
      ∗ owns (c : Thread nD τ) scM1_0 fullShare (outsAt1 V c n hn).2.1 ∗ owns (c : Thread nD τ) scM1_1 fullShare (outsAt1 V c n hn).2.2) ∗ (∃ r, prngReg c r)) := rfl

theorem PhiS1_pos (c : Dev nD) (n : ℕ) (h : n ≤ cfg1.N) (hz : n ≠ 0) :
    PhiS1 V c n h = iprop((anyAt c cc0_stg0_0 ∗ anyAt c cc0_stg0_1 ∗ anyAt c cc0_stg1_0 ∗ anyAt c cc0_stg1_1 ∗ anyAt c cc0_stg2_0 ∗ anyAt c cc0_stg2_1
      ∗ owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

/-! ## The launch's proof data -/

/-- On core `c`: the arrays as the launch finds them; after a point each input's buffer at its block and the output's
    at `outsAt1`'s first component; the invariant `PhiS1`; the embeddings' array, which two windows stage, held at half
    the share by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the position's residue mod 8 says which case the point
    is in; the invariant hands the body the carried buffers at what the point before left (at anything before the
    first point, where the case resets them) and takes them back at this point's contents, the pieces covering them;
    where j ≠ 7 the output's buffer goes back as it came, where j = 7 at its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold pt1_A sout1_A_0 sout1_A_1; (try dsimp only)
    by_cases hz : t.val = 0
    · rw [PhiS1_castSucc V c t, PhiS1_zero V c _ _ hz, PhiA1_eq]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold pt1_C out1_C_6 sout1_C_0 sout1_C_1; (try dsimp only)
      rw [PhiS1_castSucc V c t, PhiS1_pos V c _ _ hz]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold pt1_B sout1_B_0 sout1_B_1; (try dsimp only)
      rw [PhiS1_castSucc V c t, PhiS1_pos V c _ _ hz]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: what the carried buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, HS0, HS1⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.KI

end
-- ==== Proof.K.Run.lean ====
/-
  The run of the whole program: a stretch of host operations, the first launch, a second stretch, the second launch, a
  last stretch. The buffer contents at each of the six boundaries are a fold from the launch memory; each launch is
  entered from every unscoped buffer held at its boundary's contents and left at the next boundary's. Two windows of the
  second launch read one array, which is held there as two halves of one share.
-/
import proofs.«427963_j9938554323333_3_alg».proof.Proof.K.Reg0
import proofs.«427963_j9938554323333_3_alg».proof.Proof.K.Reg1

set_option maxRecDepth 16384

noncomputable section

namespace Cert.Kernel.KI

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second launch's arrays among the unscoped buffers

Its seven windows stand on six buffers: the first two read one array. -/

section Arrays1

variable (V : (c : Dev nD) → (b : Ref sig .tc) → Buf (Elt F) ((c : Thread nD τ).loc b))

/-- The six buffers behind the second launch's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v4) ↦{fullShare} X main_v4) ∗ (((c : Thread nD τ).loc main_v7) ↦{fullShare} X main_v7)
          ∗ (((c : Thread nD τ).loc main_v8) ↦{fullShare} X main_v8) ∗ (((c : Thread nD τ).loc main_v9) ↦{fullShare} X main_v9)
          ∗ (((c : Thread nD τ).loc main_v10) ↦{fullShare} X main_v10) ∗ (((c : Thread nD τ).loc main_v11) ↦{fullShare} X main_v11)) := by
  unfold Pipeline.arrBufs
  exact bigSep_eq_bigSepL_of_eq [main_v4, main_v7, main_v8, main_v9, main_v10, main_v11] (by decide) (by decide) _

/-- The launch's arrays at the contents `X` has at them: the shared array as the two halves of its share. -/
theorem arrays1_eq (c : Dev nD) (X : (b : Ref sig .tc) → Buf (Elt F) ((c : Thread nD τ).loc b)) :
    (dat1 V c).arrays (fun w => X (Pipeline.arrRef spec1 w))
      = iprop((((c : Thread nD τ).loc main_v4) ↦{fullShare.left} X main_v4) ∗ (((c : Thread nD τ).loc main_v4) ↦{fullShare.right} X main_v4)
          ∗ (((c : Thread nD τ).loc main_v7) ↦{fullShare} X main_v7)
          ∗ (((c : Thread nD τ).loc main_v8) ↦{fullShare} X main_v8) ∗ (((c : Thread nD τ).loc main_v9) ↦{fullShare} X main_v9)
          ∗ (((c : Thread nD τ).loc main_v10) ↦{fullShare} X main_v10) ∗ (((c : Thread nD τ).loc main_v11) ↦{fullShare} X main_v11)) := by
  unfold Dat.arrays
  rw [bigSep_W1]
  simp only [Memref.view_whole, View.set_whole]
  rfl

/-- The six buffers whole are the launch's arrays. -/
theorem arrays1_of_arrBufs (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      ⊢ (dat1 V c).arrays (fun w => X (Pipeline.arrRef spec1 w)) := by
  rw [arrBufs1_eq, arrays1_eq]
  iintro ⟨H4, H7, H8, H9, H10, H11⟩
  ihave H4 := (pointsTo_share (PosShare.mem_left_op_right fullShare)).1 $$ H4
  icases H4 with ⟨H4l, H4r⟩
  isplitl [H4l]; · iexact H4l
  isplitl [H4r]; · iexact H4r
  isplitl [H7]; · iexact H7
  isplitl [H8]; · iexact H8
  isplitl [H9]; · iexact H9
  isplitl [H10]; · iexact H10
  iexact H11

/-- The launch's arrays are the six buffers whole. -/
theorem arrBufs_of_arrays1 (c : Dev nD) (X : (b : Ref sig .tc) → Buf (Elt F) ((c : Thread nD τ).loc b)) :
    (dat1 V c).arrays (fun w => X (Pipeline.arrRef spec1 w))
      ⊢ (Pipeline.arrBufs (Ix := Unit) (Name := ℕ) (U := UR sig nD τ) (Lvl := ℕ) spec1 c X : sProp 𝕄) := by
  rw [arrBufs1_eq, arrays1_eq]
  iintro ⟨H4l, H4r, H7, H8, H9, H10, H11⟩
  isplitl [H4l H4r]
  · iapply (pointsTo_share (PosShare.mem_left_op_right fullShare)).2
    isplitl [H4l]; · iexact H4l
    iexact H4r
  isplitl [H7]; · iexact H7
  isplitl [H8]; · iexact H8
  isplitl [H9]; · iexact H9
  isplitl [H10]; · iexact H10
  iexact H11

end Arrays1

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what the first launch is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When the first launch is left: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second launch is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the second launch is left: only its output's array has changed, to what its write-backs leave. -/
def W4 (c : Dev nD) : Valuation τ sig (Elt F) :=
  Function.update (W3 m ρ c) (Proc.devRef .tc main_v11) ((dat1 (V3 m ρ) c).arrAt 6 cfg1.N)
theorem W4_arr (c : Dev nD) (w : Fin cfg1.W) :
    W4 m ρ c (Proc.devRef .tc (Pipeline.arrRef spec1 w)) = (dat1 (V3 m ρ) c).arrAt w cfg1.N := by
  unfold W4
  by_cases hw : w = 6
  · subst hw; exact Function.update_self _ _ _
  · have hne : Pipeline.arrRef spec1 w ≠ main_v11 := (by decide : ∀ w : Fin 7, w ≠ 6 → Pipeline.arrRef spec1 w ≠ main_v11) w hw
    have hin : (cfg1.win w).isOut = false := (by decide : ∀ w : Fin 7, w ≠ 6 → (cfg1.win w).isOut = false) w hw
    exact (Function.update_of_ne (StableHlo.devRef_ne_of_ne hne) _ _).trans
      (((dat1 (V3 m ρ) c).arrAt_in w hin _).trans (A_eq1 (V3 m ρ) c w)).symm
theorem W4_of_ne (c : Dev nD) (b : Ref sig .tc) (hb : ∀ w, Pipeline.arrRef spec1 w ≠ b) :
    W4 m ρ c (Proc.devRef .tc b) = W3 m ρ c (Proc.devRef .tc b) := by
  unfold W4
  exact Function.update_of_ne (fun e => hb 6 (Proc.devRef_injective _ e).symm) _ _
abbrev V4 : (c : Dev nD) → (b : Ref sig .tc) → Buf (Elt F) ((c : Thread nD τ).loc b) := fun c b => W4 m ρ c b
/-- After the last host stretch: what the program returns with. -/
abbrev W5 : Dev nD → Valuation τ sig (Elt F) := fun c => StableHlo.after hostOps2 (W4 m ρ c)

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first launch: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hub : (StableHlo.held (c : Thread nD τ) (Pipeline.ucRefs τ sig) (W3 m ρ c) : sProp 𝕄)
        = iprop(Pipeline.arrBufs spec1 c (V3 m ρ c) ∗ Pipeline.unscopedRest spec1 c (V3 m ρ c)) :=
      (Pipeline.unscopedBufs_held c (W3 m ρ c)).symm.trans
        (Pipeline.unscopedBufs_split₀ (Pipeline.pin (pcfgs (F := F)) adm) 1 winFacts₀1.arr_unscoped c (V3 m ρ c))
    have harr : (Pipeline.arrBufs (Ix := Unit) (Name := ℕ) (U := UR sig nD τ) (Lvl := ℕ) spec1 c (V3 m ρ c) : sProp 𝕄)
        ⊢ (pdats m ρ 1 c).arrays ((pdats m ρ 1 c).arrAt · 0) :=
      (arrays1_of_arrBufs (V3 m ρ) c (V3 m ρ c)).trans
        (Entails.of_eq (congrArg (dat1 (V3 m ρ) c).arrays (funext fun w => (A_eq1 (V3 m ρ) c w).symm)))
    rw [hub]
    iintro ⟨⟨⟨Hab, Hrest⟩, Hp, HO⟩, -, -⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hub : (StableHlo.held (c : Thread nD τ) (Pipeline.ucRefs τ sig) (W4 m ρ c) : sProp 𝕄)
        = iprop(Pipeline.arrBufs spec1 c (V4 m ρ c) ∗ Pipeline.unscopedRest spec1 c (V4 m ρ c)) :=
      (Pipeline.unscopedBufs_held c (W4 m ρ c)).symm.trans
        (Pipeline.unscopedBufs_split₀ (Pipeline.pin (pcfgs (F := F)) adm) 1 winFacts₀1.arr_unscoped c (V4 m ρ c))
    have hrest : (Pipeline.unscopedRest (Ix := Unit) (Name := ℕ) (U := UR sig nD τ) (Lvl := ℕ) spec1 c (V4 m ρ c) : sProp 𝕄)
        = Pipeline.unscopedRest spec1 c (V3 m ρ c) := by
      unfold Pipeline.unscopedRest
      exact bigSep_congr fun b hb => by
        rw [show V4 m ρ c b = V3 m ρ c b from W4_of_ne m ρ c b fun w e =>
          (Finset.mem_sdiff.mp hb).2 (Finset.mem_image.mpr ⟨w, Finset.mem_univ _, e⟩)]
    have harr : (pdats m ρ 1 c).arrays ((pdats m ρ 1 c).arrAt · cfg1.N)
        ⊢ (Pipeline.arrBufs (Ix := Unit) (Name := ℕ) (U := UR sig nD τ) (Lvl := ℕ) spec1 c (V4 m ρ c) : sProp 𝕄) :=
      (Entails.of_eq (congrArg (dat1 (V3 m ρ) c).arrays (funext fun w => (W4_arr m ρ c w).symm))).trans
        (arrBufs_of_arrays1 (V3 m ρ) c (V4 m ρ c))
    rw [hub, hrest]
    iintro ⟨Ha, HO, HY, Hrest⟩
    ihave Hab := harr $$ Ha
    imodintro
    isplitl [Hab Hrest]
    · isplitl [Hab]; · iexact Hab
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The frame: every execution terminates, nothing faulting, the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.KI

end
-- ==== Proof.KI.Reg0.lean ====
/-
  The first launch: each of its eight grid points takes a block of 1024 rows of the logits and the rows' labels and
  stores the rows' negative log-likelihoods. Nothing is carried from one point to the next, so what the output's
  staging buffer holds after a point is one function of the two input blocks at that point.
-/
import proofs.«427963_j9938554323333_3_alg».proof.Proof.Gen.KernelIdeal.Launch
import proofs.«427963_j9938554323333_3_alg».proof.Proof.Gen.KernelIdeal.Skeleton
import proofs.«427963_j9938554323333_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- core `c`'s buffer contents when the launch is entered
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1000 block and the whole 1024 × 1 column, as rectangles. -/
abbrev rX0 : Rect S1024x1000 := Rect.unit (s := S1024x1000) ![0, 0] S1024x1000.size inb_S1024x1000_S1024x1000_0_0
abbrev rC0 : Rect S1024x1 := Rect.unit (s := S1024x1) ![0, 0] S1024x1.size inb_S1024x1_S1024x1_0_0

/-- What a point leaves in the output's staging buffer: the one store of the rows' values, a function of the logits
    block and the label block. -/
def out0_2 (x0 : Vec F S1024x1000 .f32) (x1 : Vec F S1024x1 .i32) : Vec F S1024x1 .f32 :=
  View.canon [⟨rC0, k0_pay1 (View.ld x0 rX0) (View.ld x1 rC0)⟩]

/-- The one store covers the column. -/
theorem cover0_2 (p0 : Vec F S1024x1 .f32) (y : S1024x1.Idx) :
    ∃ pc ∈ ([⟨rC0, p0⟩] : List (View.Piece (Elt F) S1024x1 .f32)), y ∈ pc.1.set :=
  View.cover_of_tiled [⟨rC0, p0⟩] S1024x1.size (by rfl) y

set_option maxHeartbeats 1000000 in
/-- The body on whole staging memrefs: the inputs kept, the output at `out0_2` of the inputs. -/
theorem sound_kernel0 (c : Dev nD) (E : Set ℕ) (i : grid0.Coords) (arg1 : Memref sig .tc .vmem S1024x1000 .f32) (harg1 : arg1.IsWhole)
    (arg2 : Memref sig .tc .vmem S1024x1 .i32) (harg2 : arg2.IsWhole) (arg3 : Memref sig .tc .vmem S1024x1 .f32) (harg3 : arg3.IsWhole)
    (x0 : Vec F S1024x1000 .f32) (x1 : Vec F S1024x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__ce_kernel i arg1 harg1 arg2 harg2 arg3 harg3) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as the launch finds them; after a point each input's buffer at its
    block and the output's at `out0_2` of the two input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.KI

end
-- ==== Proof.KI.Reg1.lean ====
/-
  The second launch: a grid of 8 × 8 points, point (i, j) at position 8·i + j. A point takes row block i and column
  block j of the embeddings, of their squared norms and of the labels; it keeps, in two buffers carried from point to
  point, the running maximum over same-label columns and the running minimum over other-label columns of the squared
  distances of its rows; at j = 0 the two are first reset, at j = 7 the rows' losses are stored into the output block.
  So a point is in one of three cases — j = 0, 0 < j < 7, j = 7 — and what the carried buffers and the output's
  staging buffer hold after a point is a function of the point's input blocks and of what the point before left.
-/
import proofs.«427963_j9938554323333_3_alg».proof.Proof.Gen.KernelIdeal.Launch
import proofs.«427963_j9938554323333_3_alg».proof.Proof.Gen.KernelIdeal.Skeleton
import proofs.«427963_j9938554323333_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- core `c`'s buffer contents when the launch is entered
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs: each window's staging buffer holds its block at every point, fetched there or not (a row-side block
    is fetched at j = 0 only, and its index does not move along a row of the grid). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- j = 0, as the body computes it from the grid coordinates. -/
abbrev cond1_0 (i : grid1.Coords) : Prop := (Scalar.cmpi .ne (Scalar.extui (Scalar.cmpi .eq (BitVec.ofNat 32 (i 1).val) 0#32)) 0#32) = 1#1
/-- It holds at the positions ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- j = 7, as the body computes it. -/
abbrev cond1_1 (i : grid1.Coords) : Prop := k1_cond2 i = 1#1
/-- It holds at the positions ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where j ≠ 7 the output window is idle and its block is not written back; where j = 7 it is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The two carried buffers: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
/-- Views through which the contents of the output's staging buffer and of the carried buffers are stated. -/
abbrev VO1_6 : View sig .tc .vmem S1024x1 .f32 := (Memref.whole cc1_stg6_0 : Memref sig .tc .vmem S1024x1 .f32).view
abbrev VS1_0 : View sig .tc .vmem S1024x1 .f32 := scM1_0.view
abbrev VS1_1 : View sig .tc .vmem S1024x1 .f32 := scM1_1.view

/-- A scoped buffer of the core, whole, at some contents. -/
abbrev anyAt (c : Dev nD) (b : Ref sig .tc) : sProp 𝕄 :=
  iprop(∃ f : Buf (Elt F) ((c : Thread nD τ).loc b), ((c : Thread nD τ).loc b) ↦{fullShare} f)

/-- What the launch hands the body besides the windows: the first launch's six staging buffers and the two carried
    buffers, at some contents each, and the generator register at some state. -/
theorem PhiA1_eq (c : Dev nD) :
    (Pipeline.ΦA spec1 c : sProp 𝕄)
      = iprop((anyAt c cc0_stg0_0 ∗ anyAt c cc0_stg0_1 ∗ anyAt c cc0_stg1_0 ∗ anyAt c cc0_stg1_1 ∗ anyAt c cc0_stg2_0 ∗ anyAt c cc0_stg2_1
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body on any whole memrefs, case by case -/

set_option maxHeartbeats 4000000 in
/-- The body at a point with j = 0. On whole memrefs — the six inputs at their contents, the output's buffer at contents
    handed back untouched, the two carried buffers at anything — it runs to the continuation holding the inputs as they
    were and each carried buffer with its pieces written: the reset, then this point's accumulation. The pieces are
    the witness the run finds. -/
noncomputable def kernelRun1_A (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

set_option maxHeartbeats 4000000 in
/-- The body at a point with 0 < j < 7: as at j = 0, but the carried buffers are taken at the contents `xs0`, `xs1`
    the point before left, and there is no reset. -/
noncomputable def kernelRun1_B (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

set_option maxHeartbeats 4000000 in
/-- The body at a point with j = 7: the carried buffers at what the point before left, the output's buffer at
    anything; after the accumulation the rows' losses are stored into the output's buffer, whose pieces are found too. -/
noncomputable def kernelRun1_C (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__pairwise_kernel_eq_skeleton]; unfold cc1__pairwise_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

/-! ## What each case leaves -/

/-- Nothing is stored into the output's buffer here: a placeholder nothing consults, the window being idle and not written back. -/
def out1_A_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)

/-- The pieces stored into the first carried buffer cover it, -/
theorem scover1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S1024x1.size (by sl_kernel_rfl) y

/-- so what the point leaves in it is its pieces read back. -/
def sout1_A_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5).2.1)

/-- The same for the second carried buffer. -/
theorem scover1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.2.1 S1024x1.size (by sl_kernel_rfl) y

def sout1_A_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4 x5).2.2.1)

/-- Nothing is stored into the output's buffer here: a placeholder nothing consults, the window being idle and not written back. -/
def out1_B_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs0 xs1).1)

/-- The pieces stored into the first carried buffer cover it, -/
theorem scover1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y

/-- so what the point leaves in it is its pieces read back. -/
def sout1_B_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 xs0 xs1).2.1)

/-- The same for the second carried buffer. -/
theorem scover1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

def sout1_B_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 x5 xs0 xs1).2.2.1)

/-- At j = 7 the pieces stored into the output's buffer cover it. -/
theorem cover1_C_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).1 S1024x1.size (by sl_kernel_rfl) y

/-- What the point leaves in the output's staging buffer: its pieces read back. -/
def out1_C_6 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs0 xs1).1)

/-- The pieces stored into the first carried buffer cover it, -/
theorem scover1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.1 S1024x1.size (by sl_kernel_rfl) y

/-- so what the point leaves in it is its pieces read back. -/
def sout1_C_0 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 xs0 xs1).2.1)

/-- The same for the second carried buffer. -/
theorem scover1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs0 xs1).2.2.1 S1024x1.size (by sl_kernel_rfl) y

def sout1_C_1 (c : Dev nD) (i : grid1.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S1024x256 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 x5 xs0 xs1).2.2.1)

/-- The three buffers after a point of case A. -/
def pt1_A (c : Dev nD) (t : Fin cfg1.N) (h0 : t.val % 8 = 0) (h1 : ¬t.val % 8 = 7) : Vec F S1024x1 .f32 × Vec F S1024x1 .f32 × Vec F S1024x1 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

/-- The three buffers after a point of case B, over what the point before left in the carried buffers. -/
def pt1_B (c : Dev nD) (t : Fin cfg1.N) (h0 : ¬t.val % 8 = 0) (h1 : ¬t.val % 8 = 7) (xs0 : Vec F S1024x1 .f32) (xs1 : Vec F S1024x1 .f32) : Vec F S1024x1 .f32 × Vec F S1024x1 .f32 × Vec F S1024x1 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0 xs1)

/-- The three buffers after a point of case C, over what the point before left in the carried buffers. -/
def pt1_C (c : Dev nD) (t : Fin cfg1.N) (h0 : ¬t.val % 8 = 0) (h1 : t.val % 8 = 7) (xs0 : Vec F S1024x1 .f32) (xs1 : Vec F S1024x1 .f32) : Vec F S1024x1 .f32 × Vec F S1024x1 .f32 × Vec F S1024x1 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0 xs1)

/-! ## What the three buffers hold after each point -/

/-- The output's staging buffer and the two carried buffers after the body at position `n`: by the position's case,
    a case that accumulates over what position `n - 1` left in the carried buffers. -/
def outsAt1 (c : Dev nD) : (n : ℕ) → n < cfg1.N → Vec F S1024x1 .f32 × Vec F S1024x1 .f32 × Vec F S1024x1 .f32
  | 0, hn => pt1_A V c ⟨0, hn⟩ (Nat.zero_mod _) (fun h => by have h' : 0 % 8 = 7 := h; omega)
  | n + 1, hn =>
    if h0 : (n + 1) % 8 = 0 then
      if h1 : (n + 1) % 8 = 7 then False.elim (by omega)
      else pt1_A V c ⟨n + 1, hn⟩ h0 h1
    else
      if h1 : (n + 1) % 8 = 7 then
        pt1_C V c ⟨n + 1, hn⟩ h0 h1 (outsAt1 c n (Nat.lt_of_succ_lt hn)).2.1 (outsAt1 c n (Nat.lt_of_succ_lt hn)).2.2
      else
        pt1_B V c ⟨n + 1, hn⟩ h0 h1 (outsAt1 c n (Nat.lt_of_succ_lt hn)).2.1 (outsAt1 c n (Nat.lt_of_succ_lt hn)).2.2

/-- At a point with j = 0. -/
theorem outsAt1_A (c : Dev nD) (t : Fin cfg1.N) (h0 : t.val % 8 = 0) (h1 : ¬t.val % 8 = 7) :
    outsAt1 V c t.val t.isLt = pt1_A V c t h0 h1 := by
  obtain ⟨n, hn⟩ := t
  cases n with
  | zero => exact rfl
  | succ n => exact (dif_pos h0).trans ((dif_neg h1).trans rfl)

/-- At a point with 0 < j < 7, over what the point before left. -/
theorem outsAt1_B (c : Dev nD) (t : Fin cfg1.N) (h0 : ¬t.val % 8 = 0) (h1 : ¬t.val % 8 = 7) :
    outsAt1 V c t.val t.isLt = pt1_B V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- At a point with j = 7, over what the point before left. -/
theorem outsAt1_C (c : Dev nD) (t : Fin cfg1.N) (h0 : ¬t.val % 8 = 0) (h1 : t.val % 8 = 7) :
    outsAt1 V c t.val t.isLt = pt1_C V c t h0 h1 (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point what the launch hands over; afterwards the first launch's staging
    buffers at some contents, the two carried buffers at what the point before left, the generator register at some
    state. -/
def PhiS1 (c : Dev nD) : (n : ℕ) → n ≤ cfg1.N → sProp 𝕄
  | 0, _ => Pipeline.ΦA spec1 c
  | n + 1, hn => iprop((anyAt c cc0_stg0_0 ∗ anyAt c cc0_stg0_1 ∗ anyAt c cc0_stg1_0 ∗ anyAt c cc0_stg1_1 ∗ anyAt c cc0_stg2_0 ∗ anyAt c cc0_stg2_1
      ∗ owns (c : Thread nD τ) scM1_0 fullShare (outsAt1 V c n hn).2.1 ∗ owns (c : Thread nD τ) scM1_1 fullShare (outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((anyAt c cc0_stg0_0 ∗ anyAt c cc0_stg0_1 ∗ anyAt c cc0_stg1_0 ∗ anyAt c cc0_stg1_1 ∗ anyAt c cc0_stg2_0 ∗ anyAt c cc0_stg2_1
      ∗ owns (c : Thread nD τ) scM1_0 fullShare (outsAt1 V c n hn).2.1 ∗ owns (c : Thread nD τ) scM1_1 fullShare (outsAt1 V c n hn).2.2) ∗ (∃ r, prngReg c r)) := rfl

theorem PhiS1_pos (c : Dev nD) (n : ℕ) (h : n ≤ cfg1.N) (hz : n ≠ 0) :
    PhiS1 V c n h = iprop((anyAt c cc0_stg0_0 ∗ anyAt c cc0_stg0_1 ∗ anyAt c cc0_stg1_0 ∗ anyAt c cc0_stg1_1 ∗ anyAt c cc0_stg2_0 ∗ anyAt c cc0_stg2_1
      ∗ owns (c : Thread nD τ) scM1_0 fullShare (outsAt1 V c (n - 1) (by omega)).2.1 ∗ owns (c : Thread nD τ) scM1_1 fullShare (outsAt1 V c (n - 1) (by omega)).2.2) ∗ (∃ r, prngReg c r)) := by
  cases n with
  | zero => exact absurd rfl hz
  | succ n => rfl

/-! ## The launch's proof data -/

/-- On core `c`: the arrays as the launch finds them; after a point each input's buffer at its block and the output's
    at `outsAt1`'s first component; the invariant `PhiS1`; the embeddings' array, which two windows stage, held at half
    the share by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' buffers hold their blocks; the position's residue mod 8 says which case the point
    is in; the invariant hands the body the carried buffers at what the point before left (at anything before the
    first point, where the case resets them) and takes them back at this point's contents, the pieces covering them;
    where j ≠ 7 the output's buffer goes back as it came, where j = 7 at its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold pt1_A sout1_A_0 sout1_A_1; (try dsimp only)
    by_cases hz : t.val = 0
    · rw [PhiS1_castSucc V c t, PhiS1_zero V c _ _ hz, PhiA1_eq]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold pt1_C out1_C_6 sout1_C_0 sout1_C_1; (try dsimp only)
      rw [PhiS1_castSucc V c t, PhiS1_pos V c _ _ hz]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold pt1_B sout1_B_0 sout1_B_1; (try dsimp only)
      rw [PhiS1_castSucc V c t, PhiS1_pos V c _ _ hz]
      iintro ⟨⟨⟨R0, R1, R2, R3, R4, R5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [R0 R1 R2 R3 R4 R5 HS0 HS1 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back: what the carried buffers hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, HS0, HS1⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.KI

end
-- ==== Proof.KI.Run.lean ====
/-
  The run of the whole program: a stretch of host operations, the first launch, a second stretch, the second launch, a
  last stretch. The buffer contents at each of the six boundaries are a fold from the launch memory; each launch is
  entered from every unscoped buffer held at its boundary's contents and left at the next boundary's. Two windows of the
  second launch read one array, which is held there as two halves of one share.
-/
import proofs.«427963_j9938554323333_3_alg».proof.Proof.KI.Reg0
import proofs.«427963_j9938554323333_3_alg».proof.Proof.KI.Reg1

set_option maxRecDepth 16384

noncomputable section

namespace Cert.KernelIdeal.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second launch's arrays among the unscoped buffers

Its seven windows stand on six buffers: the first two read one array. -/

section Arrays1

variable (V : (c : Dev nD) → (b : Ref sig .tc) → Buf (Elt F) ((c : Thread nD τ).loc b))

/-- The six buffers behind the second launch's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v4) ↦{fullShare} X main_v4) ∗ (((c : Thread nD τ).loc main_v7) ↦{fullShare} X main_v7)
          ∗ (((c : Thread nD τ).loc main_v8) ↦{fullShare} X main_v8) ∗ (((c : Thread nD τ).loc main_v9) ↦{fullShare} X main_v9)
          ∗ (((c : Thread nD τ).loc main_v10) ↦{fullShare} X main_v10) ∗ (((c : Thread nD τ).loc main_v11) ↦{fullShare} X main_v11)) := by
  unfold Pipeline.arrBufs
  exact bigSep_eq_bigSepL_of_eq [main_v4, main_v7, main_v8, main_v9, main_v10, main_v11] (by decide) (by decide) _

/-- The launch's arrays at the contents `X` has at them: the shared array as the two halves of its share. -/
theorem arrays1_eq (c : Dev nD) (X : (b : Ref sig .tc) → Buf (Elt F) ((c : Thread nD τ).loc b)) :
    (dat1 V c).arrays (fun w => X (Pipeline.arrRef spec1 w))
      = iprop((((c : Thread nD τ).loc main_v4) ↦{fullShare.left} X main_v4) ∗ (((c : Thread nD τ).loc main_v4) ↦{fullShare.right} X main_v4)
          ∗ (((c : Thread nD τ).loc main_v7) ↦{fullShare} X main_v7)
          ∗ (((c : Thread nD τ).loc main_v8) ↦{fullShare} X main_v8) ∗ (((c : Thread nD τ).loc main_v9) ↦{fullShare} X main_v9)
          ∗ (((c : Thread nD τ).loc main_v10) ↦{fullShare} X main_v10) ∗ (((c : Thread nD τ).loc main_v11) ↦{fullShare} X main_v11)) := by
  unfold Dat.arrays
  rw [bigSep_W1]
  simp only [Memref.view_whole, View.set_whole]
  rfl

/-- The six buffers whole are the launch's arrays. -/
theorem arrays1_of_arrBufs (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      ⊢ (dat1 V c).arrays (fun w => X (Pipeline.arrRef spec1 w)) := by
  rw [arrBufs1_eq, arrays1_eq]
  iintro ⟨H4, H7, H8, H9, H10, H11⟩
  ihave H4 := (pointsTo_share (PosShare.mem_left_op_right fullShare)).1 $$ H4
  icases H4 with ⟨H4l, H4r⟩
  isplitl [H4l]; · iexact H4l
  isplitl [H4r]; · iexact H4r
  isplitl [H7]; · iexact H7
  isplitl [H8]; · iexact H8
  isplitl [H9]; · iexact H9
  isplitl [H10]; · iexact H10
  iexact H11

/-- The launch's arrays are the six buffers whole. -/
theorem arrBufs_of_arrays1 (c : Dev nD) (X : (b : Ref sig .tc) → Buf (Elt F) ((c : Thread nD τ).loc b)) :
    (dat1 V c).arrays (fun w => X (Pipeline.arrRef spec1 w))
      ⊢ (Pipeline.arrBufs (Ix := Unit) (Name := ℕ) (U := UR sig nD τ) (Lvl := ℕ) spec1 c X : sProp 𝕄) := by
  rw [arrBufs1_eq, arrays1_eq]
  iintro ⟨H4l, H4r, H7, H8, H9, H10, H11⟩
  isplitl [H4l H4r]
  · iapply (pointsTo_share (PosShare.mem_left_op_right fullShare)).2
    isplitl [H4l]; · iexact H4l
    iexact H4r
  isplitl [H7]; · iexact H7
  isplitl [H8]; · iexact H8
  isplitl [H9]; · iexact H9
  isplitl [H10]; · iexact H10
  iexact H11

end Arrays1

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what the first launch is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When the first launch is left: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the second launch is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the second launch is left: only its output's array has changed, to what its write-backs leave. -/
def W4 (c : Dev nD) : Valuation τ sig (Elt F) :=
  Function.update (W3 m ρ c) (Proc.devRef .tc main_v11) ((dat1 (V3 m ρ) c).arrAt 6 cfg1.N)
theorem W4_arr (c : Dev nD) (w : Fin cfg1.W) :
    W4 m ρ c (Proc.devRef .tc (Pipeline.arrRef spec1 w)) = (dat1 (V3 m ρ) c).arrAt w cfg1.N := by
  unfold W4
  by_cases hw : w = 6
  · subst hw; exact Function.update_self _ _ _
  · have hne : Pipeline.arrRef spec1 w ≠ main_v11 := (by decide : ∀ w : Fin 7, w ≠ 6 → Pipeline.arrRef spec1 w ≠ main_v11) w hw
    have hin : (cfg1.win w).isOut = false := (by decide : ∀ w : Fin 7, w ≠ 6 → (cfg1.win w).isOut = false) w hw
    exact (Function.update_of_ne (StableHlo.devRef_ne_of_ne hne) _ _).trans
      (((dat1 (V3 m ρ) c).arrAt_in w hin _).trans (A_eq1 (V3 m ρ) c w)).symm
theorem W4_of_ne (c : Dev nD) (b : Ref sig .tc) (hb : ∀ w, Pipeline.arrRef spec1 w ≠ b) :
    W4 m ρ c (Proc.devRef .tc b) = W3 m ρ c (Proc.devRef .tc b) := by
  unfold W4
  exact Function.update_of_ne (fun e => hb 6 (Proc.devRef_injective _ e).symm) _ _
abbrev V4 : (c : Dev nD) → (b : Ref sig .tc) → Buf (Elt F) ((c : Thread nD τ).loc b) := fun c b => W4 m ρ c b
/-- After the last host stretch: what the program returns with. -/
abbrev W5 : Dev nD → Valuation τ sig (Elt F) := fun c => StableHlo.after hostOps2 (W4 m ρ c)

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first launch: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hub : (StableHlo.held (c : Thread nD τ) (Pipeline.ucRefs τ sig) (W3 m ρ c) : sProp 𝕄)
        = iprop(Pipeline.arrBufs spec1 c (V3 m ρ c) ∗ Pipeline.unscopedRest spec1 c (V3 m ρ c)) :=
      (Pipeline.unscopedBufs_held c (W3 m ρ c)).symm.trans
        (Pipeline.unscopedBufs_split₀ (Pipeline.pin (pcfgs (F := F)) adm) 1 winFacts₀1.arr_unscoped c (V3 m ρ c))
    have harr : (Pipeline.arrBufs (Ix := Unit) (Name := ℕ) (U := UR sig nD τ) (Lvl := ℕ) spec1 c (V3 m ρ c) : sProp 𝕄)
        ⊢ (pdats m ρ 1 c).arrays ((pdats m ρ 1 c).arrAt · 0) :=
      (arrays1_of_arrBufs (V3 m ρ) c (V3 m ρ c)).trans
        (Entails.of_eq (congrArg (dat1 (V3 m ρ) c).arrays (funext fun w => (A_eq1 (V3 m ρ) c w).symm)))
    rw [hub]
    iintro ⟨⟨⟨Hab, Hrest⟩, Hp, HO⟩, -, -⟩
    ihave Ha := harr $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hub : (StableHlo.held (c : Thread nD τ) (Pipeline.ucRefs τ sig) (W4 m ρ c) : sProp 𝕄)
        = iprop(Pipeline.arrBufs spec1 c (V4 m ρ c) ∗ Pipeline.unscopedRest spec1 c (V4 m ρ c)) :=
      (Pipeline.unscopedBufs_held c (W4 m ρ c)).symm.trans
        (Pipeline.unscopedBufs_split₀ (Pipeline.pin (pcfgs (F := F)) adm) 1 winFacts₀1.arr_unscoped c (V4 m ρ c))
    have hrest : (Pipeline.unscopedRest (Ix := Unit) (Name := ℕ) (U := UR sig nD τ) (Lvl := ℕ) spec1 c (V4 m ρ c) : sProp 𝕄)
        = Pipeline.unscopedRest spec1 c (V3 m ρ c) := by
      unfold Pipeline.unscopedRest
      exact bigSep_congr fun b hb => by
        rw [show V4 m ρ c b = V3 m ρ c b from W4_of_ne m ρ c b fun w e =>
          (Finset.mem_sdiff.mp hb).2 (Finset.mem_image.mpr ⟨w, Finset.mem_univ _, e⟩)]
    have harr : (pdats m ρ 1 c).arrays ((pdats m ρ 1 c).arrAt · cfg1.N)
        ⊢ (Pipeline.arrBufs (Ix := Unit) (Name := ℕ) (U := UR sig nD τ) (Lvl := ℕ) spec1 c (V4 m ρ c) : sProp 𝕄) :=
      (Entails.of_eq (congrArg (dat1 (V3 m ρ) c).arrays (funext fun w => (W4_arr m ρ c w).symm))).trans
        (arrBufs_of_arrays1 (V3 m ρ) c (V4 m ρ c))
    rw [hub, hrest]
    iintro ⟨Ha, HO, HY, Hrest⟩
    ihave Hab := harr $$ Ha
    imodintro
    isplitl [Hab Hrest]
    · isplitl [Hab]; · iexact Hab
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The frame: every execution terminates, nothing faulting, the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.KI

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KI.Val0.lean ====
/-
  What the first launch leaves in its output array, on the extended reals.

  At a grid point the body stores, for each of the block's 1024 rows, (log Σ_k exp (x_k − M) + M) − Σ_k [k = label]·x_k,
  with M the row's maximum: the maximum over the lanes starts from −∞, so it is the supremum of the row; the one-hot sum
  keeps the logit at the label when the label is a column and is zero otherwise. Row p of the block at point n is row
  1024·n + p of the array, for the logits, the labels and the output alike, and the eight blocks tile the 8192 rows; so
  after the launch entry r of the output is the negative log-likelihood of row r.
-/
import proofs.«427963_j9938554323333_3_alg».proof.Proof.KI.Reg0
import proofs.«427963_j9938554323333_3_alg».proof.Proof.Spec
import proofs.«427963_j9938554323333_3_alg».proof.Proof.LibRowsCols
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KIV

open Cert.KernelIdeal Cert.KernelIdeal.Gen Cert.KernelIdeal.KI
open Idealize.ShloMosaic Idealize.ShloMosaic.TcCoe Idealize.ShloMosaic.ValueIdx
open Idealize.SL.Sem
open Idealize.ShloMosaic.Pipeline (Dat Cfg Window)

/-! ## The payload at a row -/

/-- The f32 pattern 0xFF800000 is −∞. -/
theorem ofBits_neg_inf : Ideal.ofBits .f32 0xFF800000#32 = ⊥ := by
  simp [Ideal.ofBits, Ideal.ieee]

/-- The largest entry of row p of a block. -/
def rowM (y : FVec Ideal S1024x1000 .f32) (p : Fin 1024) : EReal :=
  Finset.univ.sup fun k : Fin 1000 => (y (ix2 p k) : EReal)

/-- The row maxima of a block, as a column. -/
abbrev mxCol (y : FVec Ideal S1024x1000 .f32) : FVec Ideal S1024x1 .f32 :=
  shapeCast S1024x1 (multiReduction (F := Ideal) .maximumf [1] S1024 y 0xFF800000#32 reduces_S1024x1000_S1024 (.inl rfl) rfl)
    shapeCasts_S1024_S1024x1

/-- The row sums of a block, as a column. -/
abbrev sumCol (y : FVec Ideal S1024x1000 .f32) : FVec Ideal S1024x1 .f32 :=
  shapeCast S1024x1 (multiReduction (F := Ideal) .add [1] S1024 y 0x00000000#32 reduces_S1024x1000_S1024 (.inl rfl) rfl)
    shapeCasts_S1024_S1024x1

/-- Where the lane number is the row's label. -/
abbrev hotMask (l : IVec S1024x1 32) : IVec S1024x1000 1 :=
  cmpi .eq (iota .tc S1024x1000 32 [1] iota_S1024x1000_d1_w32)
    (broadcastTo S1024x1000 (shapeCast S1024x1 l shapeCasts_S1024x1_S1024x1) broadcasts_S1024x1_S1024x1000)

/-- The payload as one expression of the two blocks. -/
theorem pay1_eq (x0 : Vec Ideal S1024x1000 .f32) (x1 : Vec Ideal S1024x1 .i32) :
    k0_pay1 (F := Ideal) x0 x1
      = subf (addf (log (sumCol (exp (subf x0 (broadcastTo S1024x1000 (mxCol x0) broadcasts_S1024x1_S1024x1000))))) (mxCol x0))
          (sumCol (select (hotMask x1) x0 (broadcast S1024x1000 (Scalar.ofBits .f32 0x00000000#32)))) := rfl

theorem mxCol_apply (y : FVec Ideal S1024x1000 .f32) (p : Fin 1024) : (mxCol y (ix2 p (0 : Fin 1)) : EReal) = rowM y p := by
  refine (RowsCols.shapeCast_a_a1_apply _ _ p 0).trans ?_
  refine (RowsCols.laneMax_apply y _ _ _ _ p).trans ?_
  rw [ofBits_neg_inf]
  rfl

theorem sumCol_apply (y : FVec Ideal S1024x1000 .f32) (p : Fin 1024) :
    (sumCol y (ix2 p (0 : Fin 1)) : EReal) = ∑ k : Fin 1000, (y (ix2 p k) : EReal) := by
  refine (RowsCols.shapeCast_a_a1_apply _ _ p 0).trans ?_
  exact RowsCols.laneSum_apply y _ _ _ _ p

theorem expTerm_apply (x0 : FVec Ideal S1024x1000 .f32) (p : Fin 1024) (k : Fin 1000) :
    (exp (subf x0 (broadcastTo S1024x1000 (mxCol x0) broadcasts_S1024x1_S1024x1000)) (ix2 p k) : EReal)
      = Ideal.exp ((x0 (ix2 p k) : EReal) - rowM x0 p) := by
  show Ideal.exp ((x0 (ix2 p k) : EReal) - broadcastTo S1024x1000 (mxCol x0) broadcasts_S1024x1_S1024x1000 (ix2 p k)) = _
  rw [RowsCols.broadcastTo_a1_ab_apply (mxCol x0) broadcasts_S1024x1_S1024x1000 p k, mxCol_apply]

/-- A select on the equality test of two words is the conditional on their equality. -/
theorem select_cmpi_eq {α : Type} (a b : BitVec 32) (u v : α) :
    Scalar.select (IntOp.cmpi .eq a b) u v = if a = b then u else v := by
  unfold Scalar.select IntOp.cmpi
  by_cases h : a = b
  · simp [h]
  · have hb : (a == b) = false := beq_eq_false_iff_ne.mpr h
    simp [h, hb]

theorem hotTerm_apply (x0 : FVec Ideal S1024x1000 .f32) (x1 : IVec S1024x1 32) (p : Fin 1024) (k : Fin 1000) :
    (select (hotMask x1) x0 (broadcast S1024x1000 (Scalar.ofBits (F := Ideal) .f32 0x00000000#32)) (ix2 p k) : EReal)
      = if BitVec.ofNat 32 k.val = x1 (ix2 p (0 : Fin 1)) then (x0 (ix2 p k) : EReal) else 0 := by
  show Scalar.select (IntOp.cmpi .eq (iota .tc S1024x1000 32 [1] iota_S1024x1000_d1_w32 (ix2 p k))
      (broadcastTo S1024x1000 (shapeCast S1024x1 x1 shapeCasts_S1024x1_S1024x1) broadcasts_S1024x1_S1024x1000 (ix2 p k)))
    (x0 (ix2 p k) : EReal) (Ideal.ofBits .f32 0x00000000#32) = _
  rw [iota_single_apply .tc S1024x1000 32 1 iota_S1024x1000_d1_w32 (ix2 p k),
    RowsCols.broadcastTo_a1_ab_apply _ broadcasts_S1024x1_S1024x1000 p k, shapeCast_self, Ideal.ofBits_zero_f32, select_cmpi_eq]

/-- The payload at row p: (log Σ exp (x − M) + M) − Σ [lane = label]·x. -/
theorem pay0_1_apply (x0 : Vec Ideal S1024x1000 .f32) (x1 : Vec Ideal S1024x1 .i32) (p : Fin 1024) :
    (k0_pay1 (F := Ideal) x0 x1 (ix2 p (0 : Fin 1)) : EReal)
      = (Ideal.log (∑ k : Fin 1000, Ideal.exp ((x0 (ix2 p k) : EReal) - rowM x0 p)) + rowM x0 p)
        - ∑ k : Fin 1000, (if BitVec.ofNat 32 k.val = (x1 (ix2 p (0 : Fin 1)) : BitVec 32) then (x0 (ix2 p k) : EReal) else 0) := by
  rw [pay1_eq]
  show (Ideal.log (sumCol (exp (subf x0 (broadcastTo S1024x1000 (mxCol x0) broadcasts_S1024x1_S1024x1000))) (ix2 p (0 : Fin 1)))
      + mxCol x0 (ix2 p (0 : Fin 1)))
    - sumCol (select (hotMask x1) x0 (broadcast S1024x1000 (Scalar.ofBits (F := Ideal) .f32 0x00000000#32))) (ix2 p (0 : Fin 1)) = _
  rw [sumCol_apply, sumCol_apply, mxCol_apply]
  rw [Finset.sum_congr rfl fun k _ => expTerm_apply x0 p k, Finset.sum_congr rfl fun k _ => hotTerm_apply x0 x1 p k]

/-! ## The one-hot sum -/

/-- Σ_k [k = b]·a_k over 1000 lanes: a at b when b is a lane, zero otherwise. -/
theorem sum_onehot (a : Fin 1000 → EReal) (b : BitVec 32) :
    (∑ k : Fin 1000, if BitVec.ofNat 32 k.val = b then a k else 0) = if h : b.toNat < 1000 then a ⟨b.toNat, h⟩ else 0 := by
  have key : ∀ k : Fin 1000, BitVec.ofNat 32 k.val = b ↔ k.val = b.toNat := fun k => by
    constructor
    · intro h
      rw [← h, BitVec.toNat_ofNat]
      exact (Nat.mod_eq_of_lt (by have := k.isLt; omega)).symm
    · intro h
      apply BitVec.eq_of_toNat_eq
      rw [BitVec.toNat_ofNat, h]
      exact Nat.mod_eq_of_lt b.isLt
  by_cases h : b.toNat < 1000
  · rw [dif_pos h, Finset.sum_eq_single (⟨b.toNat, h⟩ : Fin 1000)]
    · rw [if_pos ((key _).mpr rfl)]
    · intro k _ hk
      rw [if_neg]
      intro hkb
      exact hk (Fin.ext ((key k).mp hkb))
    · intro hn
      exact absurd (Finset.mem_univ _) hn
  · rw [dif_neg h]
    refine Finset.sum_eq_zero fun k _ => ?_
    rw [if_neg]
    intro hkb
    exact h (by rw [← (key k).mp hkb]; exact k.isLt)

/-- The payload at row p of blocks that hold row r of the logits and row r's label: row r's negative log-likelihood. -/
theorem pay1_nll (x0 : Vec Ideal S1024x1000 .f32) (x1 : Vec Ideal S1024x1 .i32) (p : Fin 1024)
    (x : Cert.Spec.SX.Idx → EReal) (t : Cert.Spec.ST.Idx → BitVec 32) (r : Fin 8192)
    (h0 : ∀ k : Fin 1000, (x0 (ix2 p k) : EReal) = x (ix2 r k)) (h1 : (x1 (ix2 p (0 : Fin 1)) : BitVec 32) = t (ix1 r)) :
    (k0_pay1 (F := Ideal) x0 x1 (ix2 p (0 : Fin 1)) : EReal) = Cert.Spec.nllK x t r := by
  have hM : rowM x0 p = Cert.Spec.rowMax x r := by
    unfold rowM Cert.Spec.rowMax
    simp only [h0]
  rw [pay0_1_apply, hM, h1]
  simp only [h0]
  rw [sum_onehot (fun k => x (ix2 r k))]
  rfl

/-! ## From blocks to the array -/

theorem hz2 : (![0, 0] : Fin 2 → Nat) = fun _ => 0 := funext fun a => by fin_cases a <;> rfl

/-- The index maps over the grid: at point n every window's block index is (n, 0). -/
theorem idx_facts0 : ∀ n : Fin cfg0.N, win0_0.index n (0 : Fin 2) = n.val ∧ win0_0.index n (1 : Fin 2) = 0
    ∧ win0_1.index n (0 : Fin 2) = n.val ∧ win0_1.index n (1 : Fin 2) = 0
    ∧ win0_2.index n (0 : Fin 2) = n.val ∧ win0_2.index n (1 : Fin 2) = 0 :=
  (by decide +kernel : ∀ n : Fin grid0.N, _)

/-- The array the launch ends at: entry r the negative log-likelihood of row r. -/
def G0 (x : Cert.Spec.SX.Idx → EReal) (t : Cert.Spec.ST.Idx → BitVec 32) : S8192x1.Idx → EReal :=
  fun i => Cert.Spec.nllK x t ⟨(i 0).val, (i 0).isLt⟩

section Blocks

variable (V : (c : Dev nD) → (b : Ref sig .tc) → Buf (Elt Ideal) ((c : Thread nD τ).loc b)) (c : Dev nD)
  (x : Cert.Spec.SX.Idx → EReal) (t : Cert.Spec.ST.Idx → BitVec 32)

/-- What point n writes back is block n of that array. -/
theorem flushed0_2_eq (hx : (V c main_arg0 : S8192x1000.Idx → EReal) = x)
    (ht : ∀ r : Fin 8192, (V c main_v0 : S8192x1.Idx → BitVec 32) (ix2 r (0 : Fin 1)) = t (ix1 r)) (n : Fin cfg0.N) :
    (dat0 (F := Ideal) V c).flushed 2 n = ((cfg0.win 2).blk n).view.read (Elt Ideal) (G0 x t) := by
  show (cfg0.win 2).cut (grid0.coords n) ((dat0 (F := Ideal) V c).after 2 n) = _
  rw [after0_2]
  unfold out0_2
  rw [View.canon_unit_zero hz2]
  simp only [View.ld_unit_zero (S := S1024x1000) hz2, View.ld_unit_zero (S := S1024x1) hz2]
  obtain ⟨e00, e01, e10, e11, e20, e21⟩ := idx_facts0 n
  have hn : n.val < 8 := lt_of_lt_of_eq n.isLt N_0
  refine funext fun (j : S1024x1.Idx) => ?_
  obtain ⟨p, rfl⟩ : ∃ p : Fin 1024, j = ix2 p (0 : Fin 1) :=
    ⟨j 0, funext fun a => Fin.ext (by
      match a with
      | ⟨0, _⟩ => rfl
      | ⟨1, _⟩ => show (j 1).val = 0; have := idx2_lt1 j; omega)⟩
  obtain ⟨r, hr⟩ : ∃ r : Fin 8192, r.val = n.val * 1024 + p.val := ⟨⟨n.val * 1024 + p.val, by have := p.isLt; omega⟩, rfl⟩
  have hG : G0 x t (((cfg0.win 2).blk n).view.emb (ix2 p (0 : Fin 1))) = Cert.Spec.nllK x t r := by
    refine congrArg (Cert.Spec.nllK x t) (Fin.ext ?_)
    show win0_2.index n (0 : Fin 2) * 1024 + 1 * p.val = r.val
    rw [e20, hr]; omega
  show (k0_pay1 (F := Ideal) (iblk0 V c 0 n) (iblk0 V c 1 n) (ix2 p (0 : Fin 1)) : EReal)
    = G0 x t (((cfg0.win 2).blk n).view.emb (ix2 p (0 : Fin 1)))
  rw [hG]
  refine pay1_nll _ _ p x t r (fun k => ?_) ?_
  · show (V c main_arg0 : S8192x1000.Idx → EReal) (((cfg0.win 0).blk n).view.emb (ix2 p k)) = x (ix2 r k)
    rw [hx]
    refine congrArg x (funext fun a => Fin.ext ?_)
    match a with
    | ⟨0, _⟩ => show win0_0.index n (0 : Fin 2) * 1024 + 1 * p.val = r.val; rw [e00, hr]; omega
    | ⟨1, _⟩ => show win0_0.index n (1 : Fin 2) * 1000 + 1 * k.val = k.val; rw [e01]; omega
  · show (V c main_v0 : S8192x1.Idx → BitVec 32) (((cfg0.win 1).blk n).view.emb (ix2 p (0 : Fin 1))) = t (ix1 r)
    rw [← ht r]
    refine congrArg (V c main_v0 : S8192x1.Idx → BitVec 32) (funext fun a => Fin.ext ?_)
    match a with
    | ⟨0, _⟩ => show win0_1.index n (0 : Fin 2) * 1024 + 1 * p.val = r.val; rw [e10, hr]; omega
    | ⟨1, _⟩ => show win0_1.index n (1 : Fin 2) * 1 + 1 * 0 = 0; rw [e11]

/-- An index of the output array is in point n's block iff each coordinate is in the block's range on its axis. -/
theorem mem_blk0_2 (n : Fin cfg0.N) (i : S8192x1.Idx) :
    i ∈ ((cfg0.win 2).blk n).view.set ↔ ∀ a : Fin 2, win0_2.index n a * S1024x1.size a ≤ (i a).val
      ∧ (i a).val < win0_2.index n a * S1024x1.size a + S1024x1.size a := by
  show i ∈ ((View.whole main_v1).slice (win0_2.rect n)).set ↔ _
  rw [View.set_slice_whole, Rect.mem_set_unit]
  exact Iff.rfl

/-- The eight blocks tile the array: row r is in the block of point r / 1024. -/
theorem covered0_2 (i : S8192x1.Idx) :
    ∃ n : Fin cfg0.N, (cfg0.win 2).flush n = true ∧ i ∈ ((cfg0.win 2).blk n).view.set := by
  have hi0 : (i 0).val < 8192 := idx2_lt0 i
  have hi1 : (i 1).val < 1 := idx2_lt1 i
  obtain ⟨n, hn⟩ : ∃ n : Fin cfg0.N, n.val = (i 0).val / 1024 :=
    ⟨⟨(i 0).val / 1024, lt_of_lt_of_eq (by omega : (i 0).val / 1024 < 8) N_0.symm⟩, rfl⟩
  obtain ⟨-, -, -, -, e20, e21⟩ := idx_facts0 n
  refine ⟨n, flush0_2 n, (mem_blk0_2 n i).mpr fun a => ?_⟩
  match a with
  | ⟨0, _⟩ =>
    show win0_2.index n (0 : Fin 2) * 1024 ≤ (i 0).val ∧ (i 0).val < win0_2.index n (0 : Fin 2) * 1024 + 1024
    rw [e20, hn]; omega
  | ⟨1, _⟩ =>
    show win0_2.index n (1 : Fin 2) * 1 ≤ (i 1).val ∧ (i 1).val < win0_2.index n (1 : Fin 2) * 1 + 1
    rw [e21]; omega

/-- After the launch the output array holds, at row r, the negative log-likelihood of row r. -/
theorem arr0_2 (hx : (V c main_arg0 : S8192x1000.Idx → EReal) = x)
    (ht : ∀ r : Fin 8192, (V c main_v0 : S8192x1.Idx → BitVec 32) (ix2 r (0 : Fin 1)) = t (ix1 r)) :
    ((dat0 (F := Ideal) V c).arrAt 2 cfg0.N : S8192x1.Idx → EReal) = fun i => Cert.Spec.nllK x t ⟨(i 0).val, (i 0).isLt⟩ :=
  (dat0 (F := Ideal) V c).arrAt_eq_of_cover 2 (G0 x t) (fun n _ => flushed0_2_eq V c x t hx ht n) covered0_2

end Blocks

end Cert.KernelIdeal.KIV

end
-- ==== Proof.KI.Pieces1.lean ====
/-
  What a grid point of the second launch leaves in the two carried buffers and in the output's buffer, as the body's
  arithmetic applied to the point's input blocks: the running maximum and minimum are updated from what the point
  before left (from −∞ and +∞ at a row tile's first point), and the last point of a row tile stores the row values
  computed from the two updated extremes.
-/
import proofs.«427963_j9938554323333_3_alg».proof.Proof.Gen.KernelIdeal.Launch
import proofs.«427963_j9938554323333_3_alg».proof.Proof.Gen.KernelIdeal.Skeleton
import proofs.«427963_j9938554323333_3_alg».proof.Proof.Gen.KernelIdeal.Points
import proofs.«427963_j9938554323333_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces1

variable (V : (c : Dev nD) → (b : Ref sig .tc) → Buf (Elt F) ((c : Thread nD τ).loc b))

/-- The tile of masked squared distances at point `t`, from the point's input blocks. -/
abbrev tile1 (c : Dev nD) (t : Fin cfg1.N) : FVec F S1024x1024 .f32 :=
  k1_pay7 (grid1.coords t) (iblk1 V c 0 t) (iblk1 V c 1 t) (iblk1 V c 2 t) (iblk1 V c 3 t)

/-- The running maximum after point `t`, over `prev`. -/
abbrev posStep (c : Dev nD) (t : Fin cfg1.N) (prev : Vec F S1024x1 .f32) : Vec F S1024x1 .f32 :=
  k1_pay2 (tile1 V c t) (k1_pay8 (iblk1 V c 4 t)) (iblk1 V c 5 t) prev

/-- The running minimum after point `t`, over `prev`. -/
abbrev negStep (c : Dev nD) (t : Fin cfg1.N) (prev : Vec F S1024x1 .f32) : Vec F S1024x1 .f32 :=
  k1_pay3 (tile1 V c t) (k1_pay8 (iblk1 V c 4 t)) (iblk1 V c 5 t) prev

/-- The zero offsets of a whole block, as a constant function. -/
theorem hz2 : (![0, 0] : Fin 2 → Nat) = fun _ => 0 := funext fun a => by fin_cases a <;> rfl

/-- A carried buffer read back whole. -/
theorem read_unread_sc0 (h : (scM1_0 : Memref sig .tc .vmem S1024x1 .f32).IsWhole) (X : Vec F S1024x1 .f32) :
    View.read (Elt F) (View.whole cc1_scratch0) (h.unread X) = X := h.read_unread X
theorem read_unread_sc1 (h : (scM1_1 : Memref sig .tc .vmem S1024x1 .f32).IsWhole) (X : Vec F S1024x1 .f32) :
    View.read (Elt F) (View.whole cc1_scratch1) (h.unread X) = X := h.read_unread X

theorem pt1_A_pos (c : Dev nD) (t : Fin cfg1.N) (h0 : t.val % 8 = 0) (h1 : ¬t.val % 8 = 7) :
    (pt1_A V c t h0 h1).2.1 = posStep V c t (k1_pay5 (F := F)) := by
  unfold pt1_A
  dsimp only
  unfold sout1_A_0
  rw [View.read_writes_eq_canon _ _ _ (scover1_A_0 c _ _ _ _ _ _ _ _ _ _ _ _ _ _ _ _ _ _ _ _ _ _ _ _ _ _ _)]
  unfold kernelRun1_A
  dsimp only
  sl_unfold_words
  rw [View.canon_cons_unit_zero (S := S1024x1) hz2, View.readCov_unit_zero (S := S1024x1) _ hz2]
  simp only [View.readAt_eq_ld, Memref.IsWhole.read_unread, View.ld_unit_zero (S := S1024x256) hz2,
    View.ld_unit_zero (S := S1024x1) hz2, View.ld_unit_zero (S := S1x1024) hz2]

theorem pt1_A_neg (c : Dev nD) (t : Fin cfg1.N) (h0 : t.val % 8 = 0) (h1 : ¬t.val % 8 = 7) :
    (pt1_A V c t h0 h1).2.2 = negStep V c t (k1_pay6 (F := F)) := by
  unfold pt1_A
  dsimp only
  unfold sout1_A_1
  rw [View.read_writes_eq_canon _ _ _ (scover1_A_1 c _ _ _ _ _ _ _ _ _ _ _ _ _ _ _ _ _ _ _ _ _ _ _ _ _ _ _)]
  unfold kernelRun1_A
  dsimp only
  sl_unfold_words
  rw [View.canon_cons_unit_zero (S := S1024x1) hz2, View.readCov_unit_zero (S := S1024x1) _ hz2]
  simp only [View.readAt_eq_ld, Memref.IsWhole.read_unread, View.ld_unit_zero (S := S1024x256) hz2,
    View.ld_unit_zero (S := S1024x1) hz2, View.ld_unit_zero (S := S1x1024) hz2]

theorem pt1_B_pos (c : Dev nD) (t : Fin cfg1.N) (h0 : ¬t.val % 8 = 0) (h1 : ¬t.val % 8 = 7) (xs0 xs1 : Vec F S1024x1 .f32) :
    (pt1_B V c t h0 h1 xs0 xs1).2.1 = posStep V c t xs0 := by
  unfold pt1_B
  dsimp only
  unfold sout1_B_0
  rw [View.read_writes_eq_canon _ _ _ (scover1_B_0 c _ _ _ _ _ _ _ _ _ _ _ _ _ _ _ _ _ _ _ _ _ _ _ _ _ _ _ _ _)]
  unfold kernelRun1_B
  dsimp only
  sl_unfold_words
  rw [View.canon_unit_zero hz2]
  simp only [View.readAt_eq_ld, Memref.IsWhole.read_unread, View.ld_unit_zero (S := S1024x256) hz2,
    View.ld_unit_zero (S := S1024x1) hz2, View.ld_unit_zero (S := S1x1024) hz2]
  exact congrArg (k1_pay2 _ _ _) (Memref.IsWhole.read_unread _ xs0)

theorem pt1_B_neg (c : Dev nD) (t : Fin cfg1.N) (h0 : ¬t.val % 8 = 0) (h1 : ¬t.val % 8 = 7) (xs0 xs1 : Vec F S1024x1 .f32) :
    (pt1_B V c t h0 h1 xs0 xs1).2.2 = negStep V c t xs1 := by
  unfold pt1_B
  dsimp only
  unfold sout1_B_1
  rw [View.read_writes_eq_canon _ _ _ (scover1_B_1 c _ _ _ _ _ _ _ _ _ _ _ _ _ _ _ _ _ _ _ _ _ _ _ _ _ _ _ _ _)]
  unfold kernelRun1_B
  dsimp only
  sl_unfold_words
  rw [View.canon_unit_zero hz2]
  simp only [View.readAt_eq_ld, Memref.IsWhole.read_unread, View.ld_unit_zero (S := S1024x256) hz2,
    View.ld_unit_zero (S := S1024x1) hz2, View.ld_unit_zero (S := S1x1024) hz2]
  exact congrArg (k1_pay3 _ _ _) (Memref.IsWhole.read_unread _ xs1)

theorem pt1_C_pos (c : Dev nD) (t : Fin cfg1.N) (h0 : ¬t.val % 8 = 0) (h1 : t.val % 8 = 7) (xs0 xs1 : Vec F S1024x1 .f32) :
    (pt1_C V c t h0 h1 xs0 xs1).2.1 = posStep V c t xs0 := by
  unfold pt1_C
  dsimp only
  unfold sout1_C_0
  rw [View.read_writes_eq_canon _ _ _ (scover1_C_0 c _ _ _ _ _ _ _ _ _ _ _ _ _ _ _ _ _ _ _ _ _ _ _ _ _ _ _ _ _)]
  unfold kernelRun1_C
  dsimp only
  sl_unfold_words
  rw [View.canon_unit_zero hz2]
  simp only [View.readAt_eq_ld, Memref.IsWhole.read_unread, read_unread_sc0, read_unread_sc1,
    View.readCov_unit_zero (S := S1024x1) _ hz2, View.ld_unit_zero (S := S1024x256) hz2,
    View.ld_unit_zero (S := S1024x1) hz2, View.ld_unit_zero (S := S1x1024) hz2]

theorem pt1_C_neg (c : Dev nD) (t : Fin cfg1.N) (h0 : ¬t.val % 8 = 0) (h1 : t.val % 8 = 7) (xs0 xs1 : Vec F S1024x1 .f32) :
    (pt1_C V c t h0 h1 xs0 xs1).2.2 = negStep V c t xs1 := by
  unfold pt1_C
  dsimp only
  unfold sout1_C_1
  rw [View.read_writes_eq_canon _ _ _ (scover1_C_1 c _ _ _ _ _ _ _ _ _ _ _ _ _ _ _ _ _ _ _ _ _ _ _ _ _ _ _ _ _)]
  unfold kernelRun1_C
  dsimp only
  sl_unfold_words
  rw [View.canon_unit_zero hz2]
  simp only [View.readAt_eq_ld, Memref.IsWhole.read_unread, read_unread_sc0, read_unread_sc1,
    View.readCov_unit_zero (S := S1024x1) _ hz2, View.ld_unit_zero (S := S1024x256) hz2,
    View.ld_unit_zero (S := S1024x1) hz2, View.ld_unit_zero (S := S1x1024) hz2]

theorem pt1_C_out (c : Dev nD) (t : Fin cfg1.N) (h0 : ¬t.val % 8 = 0) (h1 : t.val % 8 = 7) (xs0 xs1 : Vec F S1024x1 .f32) :
    (pt1_C V c t h0 h1 xs0 xs1).1
      = k1_pay4 (negStep V c t xs1) (posStep V c t xs0) (posStep V c t xs0) (negStep V c t xs1) := by
  unfold pt1_C
  dsimp only
  unfold out1_C_6
  rw [View.read_writes_eq_canon _ _ _ (cover1_C_6 c _ _ _ _ _ _ _ _ _ _ _ _ _ _ _ _ _ _ _ _ _ _ _ _ _ _ _ _ _)]
  unfold kernelRun1_C
  dsimp only
  sl_unfold_words
  rw [View.canon_unit_zero hz2]
  simp only [View.readAt_eq_ld, Memref.IsWhole.read_unread, read_unread_sc0, read_unread_sc1,
    View.readCov_unit_zero (S := S1024x1) _ hz2, View.ld_unit_zero (S := S1024x256) hz2,
    View.ld_unit_zero (S := S1024x1) hz2, View.ld_unit_zero (S := S1x1024) hz2]

end Pieces1

end Cert.KernelIdeal.KI

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.KI.Pay1.lean ====
/-
  The pairwise kernel's payloads read at an index, on the extended reals.

  Each payload is a function of the vectors read before it. At a position (p, q) of a 1024 × 1024 block the distance
  payload is the clamped squared distance of row p of one block of features and row q of the other, an exact zero where
  the two rows are the same row of the array; the label payload says whether the two rows carry the same label; the two
  running extremes fold a row of distances into the largest over the columns with the row's label and the smallest over
  the others; the last payload turns the two extremes of a row into the row's hinge term.
-/
import proofs.«427963_j9938554323333_3_alg».proof.Proof.Gen.KernelIdeal.Skeleton
import proofs.«427963_j9938554323333_3_alg».proof.Proof.Spec
import proofs.«427963_j9938554323333_3_alg».proof.Proof.LibRowsCols
import proofs.«427963_j9938554323333_3_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KIV

open Cert.KernelIdeal Cert.KernelIdeal.Gen Idealize.ShloMosaic Idealize.ShloMosaic.ValueIdx

/-! ## The constants and the casts -/

/-- The pattern of negative infinity denotes the bottom element. -/
theorem ofBits_negInf : Ideal.ofBits .f32 0xFF800000#32 = ⊥ := by
  simp [Ideal.ofBits, Ideal.ieee]

/-- The pattern of positive infinity denotes the top element. -/
theorem ofBits_posInf : Ideal.ofBits .f32 0x7F800000#32 = ⊤ := by
  simp [Ideal.ofBits, Ideal.ieee]

theorem pay5_apply (j : S1024x1.Idx) : k1_pay5 (F := Ideal) j = ⊥ := by
  unfold k1_pay5
  rw [shapeCast_self]
  exact ofBits_negInf

theorem pay6_apply (j : S1024x1.Idx) : k1_pay6 (F := Ideal) j = ⊤ := by
  unfold k1_pay6
  rw [shapeCast_self]
  exact ofBits_posInf

theorem pay8_apply (v34 : Vec Ideal S1024x1 .i32) (j : S1024x1.Idx) : k1_pay8 (F := Ideal) v34 j = v34 j := by
  unfold k1_pay8
  rw [shapeCast_self]

/-! ## Rows spread down the sublanes -/

/-- A `[1, b]` row spread down `a` sublanes reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The comparison of two words for equality, as a one-bit word. -/
theorem cmpi_eq_ite {w : ℕ} (a b : BitVec w) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

theorem pay1_apply (v35 : IVec S1024x1 32) (v36 : Vec Ideal S1x1024 .i32) (p q : Fin 1024) :
    k1_pay1 (F := Ideal) v35 v36 (ix2 p q) = if v35 (ix2 p 0) = v36 (ix2 0 q) then 1#1 else 0#1 := by
  unfold k1_pay1
  rw [shapeCast_self]
  show IntOp.cmpi .eq (broadcastTo S1024x1024 v35 broadcasts_S1024x1_S1024x1024 (ix2 p q))
    (broadcastTo S1024x1024 v36 broadcasts_S1x1024_S1024x1024 (ix2 p q)) = _
  rw [RowsCols.broadcastTo_a1_ab_apply, broadcastTo_1b_ab_apply]
  exact cmpi_eq_ite _ _

/-! ## The running extremes of a row -/

/-- The minimum over the lanes of an `[a, b]` vector, at row `i`: the minimum of the row, from the accumulator's value. -/
theorem laneMin_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  show (Finset.univ : Finset (Fin b)).fold min (Ideal.ofBits φ acc) (src ∘ h.lift (ix1 i)) = _
  refine congrArg (fun g => (Finset.univ : Finset (Fin b)).fold min (Ideal.ofBits φ acc) g)
    (funext fun k => congrArg src (funext fun c => Fin.ext ?_))
  match c with
  | ⟨0, _⟩ => rfl
  | ⟨1, _⟩ => rfl

theorem pay2_apply (v33 : FVec Ideal S1024x1024 .f32) (v35 : IVec S1024x1 32) (v36 : Vec Ideal S1x1024 .i32)
    (v50 : Vec Ideal S1024x1 .f32) (p : Fin 1024) :
    k1_pay2 (F := Ideal) v33 v35 v36 v50 (ix2 p 0)
      = max (v50 (ix2 p 0)) (Finset.univ.sup fun q : Fin 1024 =>
          if v35 (ix2 p 0) = v36 (ix2 0 q) then v33 (ix2 p q) else ⊥) := by
  unfold k1_pay2
  rw [shapeCast_self]
  refine congrArg (max (v50 (ix2 p 0))) ?_
  rw [RowsCols.shapeCast_a_a1_apply]
  refine (RowsCols.laneMax_apply _ _ _ _ _ p).trans ?_
  rw [ofBits_negInf]
  refine congrArg (fun g => (Finset.univ : Finset (Fin 1024)).fold max ⊥ g) (funext fun q => ?_)
  show Scalar.select (k1_pay1 v35 v36 (ix2 p q)) (v33 (ix2 p q)) (Ideal.ofBits .f32 0xFF800000#32) = _
  rw [pay1_apply, ofBits_negInf]
  by_cases h : v35 (ix2 p 0) = v36 (ix2 0 q)
  · rw [if_pos h, if_pos h]; exact select_one _ _
  · rw [if_neg h, if_neg h]; exact select_zero _ _

/-- Exclusive-or with the one-bit word 1 exchanges the two one-bit words. -/
theorem xori_one_ite (c : Prop) [Decidable c] :
    IntOp.xori (if c then 1#1 else 0#1) 1#1 = if c then 0#1 else 1#1 := by
  by_cases h : c
  · rw [if_pos h, if_pos h]; decide
  · rw [if_neg h, if_neg h]; decide

theorem pay3_apply (v33 : FVec Ideal S1024x1024 .f32) (v35 : IVec S1024x1 32) (v36 : Vec Ideal S1x1024 .i32)
    (v55 : Vec Ideal S1024x1 .f32) (p : Fin 1024) :
    k1_pay3 (F := Ideal) v33 v35 v36 v55 (ix2 p 0)
      = min (v55 (ix2 p 0)) (Finset.univ.inf fun q : Fin 1024 =>
          if v35 (ix2 p 0) = v36 (ix2 0 q) then ⊤ else v33 (ix2 p q)) := by
  unfold k1_pay3
  rw [shapeCast_self]
  refine congrArg (min (v55 (ix2 p 0))) ?_
  rw [RowsCols.shapeCast_a_a1_apply]
  refine (laneMin_apply _ _ _ _ _ p).trans ?_
  rw [ofBits_posInf]
  refine congrArg (fun g => (Finset.univ : Finset (Fin 1024)).fold min ⊤ g) (funext fun q => ?_)
  show Scalar.select (IntOp.xori (k1_pay1 v35 v36 (ix2 p q)) 1#1) (v33 (ix2 p q)) (Ideal.ofBits .f32 0x7F800000#32) = _
  rw [pay1_apply, ofBits_posInf, xori_one_ite]
  by_cases h : v35 (ix2 p 0) = v36 (ix2 0 q)
  · rw [if_pos h, if_pos h]; exact select_zero _ _
  · rw [if_neg h, if_neg h]; exact select_one _ _

/-! ## The hinge term of a row -/

/-- The ordered comparison "less than" of two extended reals, as a one-bit word. -/
theorem cmp_olt_ite (x y : EReal) : Ideal.cmp .olt x y = if x < y then 1#1 else 0#1 := by
  unfold Ideal.cmp
  by_cases h : x < y
  · rw [if_pos h]; simp [h]
  · rw [if_neg h]; simp [h]

/-- The ordered comparison "greater than" of two extended reals, as a one-bit word. -/
theorem cmp_ogt_ite (x y : EReal) : Ideal.cmp .ogt x y = if y < x then 1#1 else 0#1 := by
  unfold Ideal.cmp
  by_cases h : y < x
  · rw [if_pos h]; simp [h]
  · rw [if_neg h]; simp [h]

/-- A choice on the conjunction of two one-bit conditions. -/
theorem select_andi_ite {α : Type} (A B : Prop) [Decidable A] [Decidable B] (x y : α) :
    Scalar.select (IntOp.andi (if A then 1#1 else 0#1) (if B then 1#1 else 0#1)) x y = if A ∧ B then x else y := by
  have e11 : IntOp.andi 1#1 1#1 = 1#1 := by decide
  have e10 : IntOp.andi 1#1 0#1 = 0#1 := by decide
  have e0 : ∀ b : BitVec 1, IntOp.andi 0#1 b = 0#1 := by decide
  by_cases hA : A
  · by_cases hB : B
    · rw [if_pos hA, if_pos hB, if_pos ⟨hA, hB⟩, e11]; exact select_one x y
    · rw [if_pos hA, if_neg hB, if_neg (fun h : A ∧ B => hB h.2), e10]; exact select_zero x y
  · rw [if_neg hA, if_neg (fun h : A ∧ B => hA h.1), e0]; exact select_zero x y

theorem pay4_apply (v63 v66 v70 v74 : Vec Ideal S1024x1 .f32) (p : Fin 1024) :
    k1_pay4 (F := Ideal) v63 v66 v70 v74 (ix2 p 0)
      = if v63 (ix2 p 0) < ⊤ ∧ ⊥ < v66 (ix2 p 0) then
          max (Ideal.sqrt (max (v70 (ix2 p 0)) Spec.c0) - Ideal.sqrt (max (v74 (ix2 p 0)) Spec.c0) + Spec.cMargin) Spec.c0
        else Spec.c0 := by
  unfold k1_pay4
  show Scalar.select (IntOp.andi (Ideal.cmp .olt (v63 (ix2 p 0)) (Ideal.ofBits .f32 0x7F800000#32))
        (Ideal.cmp .ogt (v66 (ix2 p 0)) (Ideal.ofBits .f32 0xFF800000#32)))
      (max (Ideal.sqrt (max (v70 (ix2 p 0)) Spec.c0) - Ideal.sqrt (max (v74 (ix2 p 0)) Spec.c0) + Spec.cMargin) Spec.c0)
      Spec.c0 = _
  rw [ofBits_posInf, ofBits_negInf, cmp_olt_ite, cmp_ogt_ite]
  exact select_andi_ite _ _ _ _

/-! ## The clamped squared distances of a block -/

/-- The transpose of an `[a, b]` vector reads, at `(k, q)`, the vector at `(q, k)`. -/
theorem transpose_ab_ba_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) := by
  refine transpose_apply [1, 0] x h (ix2 k q) (ix2 q k) fun bx => ?_
  match bx with
  | ⟨0, _⟩ => rfl
  | ⟨1, _⟩ => rfl

/-- A block's number times 1024 plus a position inside the block, computed on 32-bit words, is that natural number:
    with fewer than 8 blocks nothing wraps. -/
theorem word_toNat (c : ℕ) (r : Fin 1024) (hc : c < 8) :
    (IntOp.addi (Scalar.muli (BitVec.ofNat 32 c) 1024#32) (BitVec.ofNat 32 r.val)).toNat = c * 1024 + r.val := by
  show (BitVec.ofNat 32 c * 1024#32 + BitVec.ofNat 32 r.val).toNat = _
  have := r.isLt
  simp only [BitVec.toNat_add, BitVec.toNat_mul, BitVec.toNat_ofNat]
  omega

/-- Two such words are equal exactly when the two naturals are. -/
theorem rowcol_eq (a b : ℕ) (ha : a < 8) (hb : b < 8) (p q : Fin 1024) :
    IntOp.cmpi .eq (IntOp.addi (Scalar.muli (BitVec.ofNat 32 a) 1024#32) (BitVec.ofNat 32 p.val))
        (IntOp.addi (Scalar.muli (BitVec.ofNat 32 b) 1024#32) (BitVec.ofNat 32 q.val))
      = if a * 1024 + p.val = b * 1024 + q.val then 1#1 else 0#1 := by
  rw [cmpi_eq_ite]
  by_cases h : a * 1024 + p.val = b * 1024 + q.val
  · rw [if_pos h, if_pos]
    apply BitVec.eq_of_toNat_eq
    rw [word_toNat _ _ ha, word_toNat _ _ hb, h]
  · rw [if_neg h, if_neg]
    intro e
    apply h
    have := congrArg BitVec.toNat e
    rwa [word_toNat _ _ ha, word_toNat _ _ hb] at this

theorem cmpi_apply {s : Shape} {w : ℕ} (pr : CmpIPredicate) (x y : IVec s w) (j : s.Idx) :
    cmpi pr x y j = IntOp.cmpi pr (x j) (y j) := rfl

theorem addi_apply {s : Shape} {w : ℕ} (x y : IVec s w) (j : s.Idx) : addi x y j = IntOp.addi (x j) (y j) := rfl

theorem pay7_apply (i : grid1.Coords) (xr xc : Vec Ideal S1024x256 .bf16) (sr : Vec Ideal S1024x1 .f32)
    (sc : Vec Ideal S1x1024 .f32) (p q : Fin 1024) :
    k1_pay7 (F := Ideal) i xr xc sr sc (ix2 p q)
      = if (i 0).val * 1024 + p.val = (i 1).val * 1024 + q.val then Spec.c0
        else max (sr (ix2 p 0) + sc (ix2 0 q) - Spec.c2 * ∑ k : Fin 256, xr (ix2 p k) * xc (ix2 q k)) Spec.c0 := by
  unfold k1_pay7
  simp only [shapeCast_self, select_apply, cmpi_apply, maximumf_apply, subf_apply, addf_apply, mulf_apply, broadcast_apply,
    RowsCols.broadcastTo_a1_ab_apply, broadcastTo_1b_ab_apply, addi_apply]
  have e0 : iota Kind.tc S1024x1 32 [0] iota_S1024x1_d0_w32 (ix2 p 0) = BitVec.ofNat 32 p.val :=
    iota_single_apply .tc S1024x1 32 0 iota_S1024x1_d0_w32 (ix2 p 0)
  have e1 : iota Kind.tc S1x1024 32 [1] iota_S1x1024_d1_w32 (ix2 0 q) = BitVec.ofNat 32 q.val :=
    iota_single_apply .tc S1x1024 32 1 iota_S1x1024_d1_w32 (ix2 0 q)
  rw [e0, e1, rowcol_eq _ _ (i 0).isLt (i 1).isLt p q, Cert.Lib.Dot.matmul0_rc _ ⟨rfl, rfl, rfl, rfl, rfl, rfl⟩]
  have et : ∀ k : Fin 256,
      transpose S256x1024 [1, 0] xc transposes_S1024x256_p1_0_S256x1024 (ix2 k q) = xc (ix2 q k) :=
    fun k => transpose_ab_ba_apply xc transposes_S1024x256_p1_0_S256x1024 k q
  simp only [et, Ideal.ofBits_def]
  by_cases h : (i 0).val * 1024 + p.val = (i 1).val * 1024 + q.val
  · rw [if_pos h, if_pos h]; exact select_one _ _
  · rw [if_neg h, if_neg h]; exact select_zero _ _

end Cert.KernelIdeal.KIV

end
-- ==== Proof.MathTri.lean ====
/-
  The batch-hard triplet term and the total.

  For real features the clamped squared distance of two rows is a real number that is not negative, and on the
  diagonal it is zero (q + q − 2·q = 0), so setting the diagonal to an exact zero changes nothing. The square root of the
  extended reals (⊥ below zero, √ on [0, ∞), ⊤ at ⊤) is monotone and keeps ⊥ and ⊤, so it commutes with the largest and
  the smallest of finitely many values: the square root of the extreme squared distance is the extreme distance. A row
  always shares its own label, so the test "some column carries another label" decides both programs' branches.
-/
import proofs.«427963_j9938554323333_3_alg».proof.Proof.Spec
import Idealize.ShloMosaic.PureOps.Ideal.Laws
import Mathlib.Data.Finset.Lattice.Fold
import Mathlib.Data.EReal.Basic
import Mathlib.Analysis.SpecialFunctions.Sqrt

noncomputable section

namespace Cert.Spec

open Idealize.ShloMosaic Idealize.ShloMosaic.ValueIdx

variable (x : SX.Idx → EReal) (f : SF.Idx → EReal) (t : ST.Idx → BitVec 32)

/-! ## The literals -/

theorem c0_eq : c0 = 0 := Ideal.ofBits_zero_f32

theorem c2_eq : c2 = ((2 : ℝ) : EReal) := by
  simp [Ideal.ofBits, Ideal.ieee, -EReal.coe_mul]; norm_num

/-! ## The square root on the extended reals -/

theorem sqrt_zero : Ideal.sqrt 0 = 0 := by
  rw [← EReal.coe_zero, Ideal.sqrt_coe]; simp

/-- The square root is monotone on all of the extended reals. -/
theorem sqrt_mono : Monotone Ideal.sqrt := by
  intro a b hab
  induction a with
  | bot => exact bot_le
  | top => rw [top_le_iff.mp hab]
  | coe a =>
    induction b with
    | bot => exact absurd (le_bot_iff.mp hab) (EReal.coe_ne_bot a)
    | top => exact le_top
    | coe b =>
      have hab' : a ≤ b := EReal.coe_le_coe_iff.mp hab
      rw [Ideal.sqrt_coe, Ideal.sqrt_coe]
      split_ifs with ha hb hb
      · exact le_rfl
      · exact bot_le
      · exact absurd (lt_of_le_of_lt hab' hb) ha
      · exact EReal.coe_le_coe_iff.mpr (Real.sqrt_le_sqrt hab')

/-! ## Finite sums of reals -/

/-- A finite sum of real numbers, taken in the extended reals, is the real sum. -/
theorem sum_coe {ι : Type} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The inner product of rows r and c as a real number. -/
def gramR (r c : Fin 8192) : ℝ := ∑ k : Fin 256, (f (ix2 r k)).toReal * (f (ix2 c k)).toReal

theorem gram_real (hf : ∀ i, f i ≠ ⊥ ∧ f i ≠ ⊤) (r c : Fin 8192) : gram f r c = (gramR f r c : EReal) := by
  unfold gram gramR
  rw [← sum_coe]
  refine Finset.sum_congr rfl fun k _ => ?_
  rw [EReal.coe_mul, EReal.coe_toReal (hf _).2 (hf _).1, EReal.coe_toReal (hf _).2 (hf _).1]

/-! ## The squared distance -/

theorem d2_real (hf : ∀ i, f i ≠ ⊥ ∧ f i ≠ ⊤) (r c : Fin 8192) :
    d2 f r c = max ((gramR f r r + gramR f c c - 2 * gramR f r c : ℝ) : EReal) 0 := by
  show max (gram f r r + gram f c c - c2 * gram f r c) c0 = _
  rw [gram_real f hf, gram_real f hf, gram_real f hf, c2_eq, c0_eq, EReal.coe_sub, EReal.coe_add, EReal.coe_mul]

theorem d2_nonneg (r c : Fin 8192) : c0 ≤ d2 f r c := le_max_right _ _

theorem d2_ne_top (hf : ∀ i, f i ≠ ⊥ ∧ f i ≠ ⊤) (r c : Fin 8192) : d2 f r c ≠ ⊤ := by
  rw [d2_real f hf]
  rcases max_choice ((gramR f r r + gramR f c c - 2 * gramR f r c : ℝ) : EReal) 0 with h | h <;> rw [h]
  · exact EReal.coe_ne_top _
  · exact EReal.zero_ne_top

/-- A row is at distance zero from itself. -/
theorem d2_diag (hf : ∀ i, f i ≠ ⊥ ∧ f i ≠ ⊤) (r : Fin 8192) : d2 f r r = c0 := by
  rw [d2_real f hf, c0_eq]
  have h : gramR f r r + gramR f r r - 2 * gramR f r r = 0 := by ring
  rw [h, EReal.coe_zero, max_self]

/-- Setting the diagonal to zero changes nothing. -/
theorem d2K_eq (hf : ∀ i, f i ≠ ⊥ ∧ f i ≠ ⊤) (r c : Fin 8192) : d2K f r c = d2 f r c := by
  unfold d2K
  split_ifs with h
  · subst h; exact (d2_diag f hf r).symm
  · rfl

/-- The reference's distance is the square root of the squared distance, at zero too. -/
theorem distR_eq (r c : Fin 8192) : distR f r c = Ideal.sqrt (d2 f r c) := by
  unfold distR
  by_cases h : c0 < d2 f r c
  · simp only [if_pos h]
  · have h0 : d2 f r c = c0 := le_antisymm (not_lt.mp h) (d2_nonneg f r c)
    rw [if_neg h, h0, c0_eq, sqrt_zero]

/-! ## The extremes -/

theorem posK_nonneg (r : Fin 8192) : c0 ≤ posK f t r := by
  unfold posK
  refine le_trans ?_ (Finset.le_sup (f := fun c => if same t r c then d2K f r c else ⊥) (Finset.mem_univ r))
  show c0 ≤ if same t r r then d2K f r r else ⊥
  have hs : same t r r := rfl
  rw [if_pos hs]
  unfold d2K
  rw [if_pos rfl]

theorem bot_lt_posK (r : Fin 8192) : ⊥ < posK f t r :=
  lt_of_lt_of_le (by rw [c0_eq]; exact EReal.bot_lt_zero) (posK_nonneg f t r)

theorem negK_nonneg (hf : ∀ i, f i ≠ ⊥ ∧ f i ≠ ⊤) (r : Fin 8192) : c0 ≤ negK f t r := by
  unfold negK
  refine Finset.le_inf fun c _ => ?_
  split_ifs
  · exact le_top
  · rw [d2K_eq f hf]; exact d2_nonneg f r c

/-- The smallest squared distance to another label is finite exactly when another label occurs. -/
theorem negK_lt_top_iff (hf : ∀ i, f i ≠ ⊥ ∧ f i ≠ ⊤) (r : Fin 8192) :
    negK f t r < ⊤ ↔ ∃ c, ¬ same t r c := by
  constructor
  · intro hlt
    by_contra hno
    have hall : ∀ c, same t r c := fun c => by_contra fun hc => hno ⟨c, hc⟩
    have htop : negK f t r = ⊤ := by
      unfold negK
      refine top_le_iff.mp (Finset.le_inf fun c _ => ?_)
      rw [if_pos (hall c)]
    rw [htop] at hlt
    exact lt_irrefl _ hlt
  · rintro ⟨c, hc⟩
    unfold negK
    refine lt_of_le_of_lt (Finset.inf_le (f := fun c => if same t r c then ⊤ else d2K f r c) (Finset.mem_univ c)) ?_
    show (if same t r c then ⊤ else d2K f r c) < ⊤
    rw [if_neg hc, d2K_eq f hf]
    exact lt_top_iff_ne_top.mpr (d2_ne_top f hf r c)

theorem validR_iff (r : Fin 8192) : validR t r ↔ ∃ c, ¬ same t r c :=
  ⟨fun h => h.2, fun h => ⟨⟨r, rfl⟩, h⟩⟩

/-- The largest distance to the same label is the square root of the largest squared distance. -/
theorem posR_eq (hf : ∀ i, f i ≠ ⊥ ∧ f i ≠ ⊤) (r : Fin 8192) : posR f t r = Ideal.sqrt (posK f t r) := by
  unfold posR posK
  rw [Finset.apply_sup_eq_sup_comp_of_linearOrder Ideal.sqrt sqrt_mono Ideal.sqrt_bot]
  refine Finset.sup_congr rfl fun c _ => ?_
  simp only [Function.comp]
  split_ifs
  · rw [distR_eq, d2K_eq f hf]
  · exact Ideal.sqrt_bot.symm

/-- The smallest distance to another label is the square root of the smallest squared distance. -/
theorem negR_eq (hf : ∀ i, f i ≠ ⊥ ∧ f i ≠ ⊤) (r : Fin 8192) : negR f t r = Ideal.sqrt (negK f t r) := by
  unfold negR negK
  rw [Finset.apply_inf_eq_inf_comp_of_linearOrder Ideal.sqrt sqrt_mono Ideal.sqrt_top]
  refine Finset.inf_congr rfl fun c _ => ?_
  simp only [Function.comp]
  split_ifs
  · exact Ideal.sqrt_top.symm
  · rw [distR_eq, d2K_eq f hf]

/-! ## The row terms, the triplet term, the total -/

theorem perRow_eq (hf : ∀ i, f i ≠ ⊥ ∧ f i ≠ ⊤) (r : Fin 8192) : perRowK f t r = perRowR f t r := by
  classical
  unfold perRowK perRowR
  by_cases h : ∃ c, ¬ same t r c
  · have hK : negK f t r < ⊤ ∧ ⊥ < posK f t r := ⟨(negK_lt_top_iff f t hf r).mpr h, bot_lt_posK f t r⟩
    have hR : validR t r := (validR_iff t r).mpr h
    rw [if_pos hK, if_pos hR, max_eq_left (posK_nonneg f t r), max_eq_left (negK_nonneg f t hf r),
      posR_eq f t hf, negR_eq f t hf]
  · have hK : ¬ (negK f t r < ⊤ ∧ ⊥ < posK f t r) := fun hk => h ((negK_lt_top_iff f t hf r).mp hk.1)
    have hR : ¬ validR t r := fun hv => h hv.2
    rw [if_neg hK, if_neg hR]

theorem tri_eq (hf : ∀ i, f i ≠ ⊥ ∧ f i ≠ ⊤) : triK f t = triR f t := by
  unfold triK triR
  rw [Finset.sum_congr rfl fun r _ => perRow_eq f t hf r]

theorem tot_eq (hce : ceK x t = ceR x t) (htri : triK f t = triR f t) : totK x f t = totR x f t := by
  unfold totK totR
  rw [hce, htri]

end Cert.Spec

end
-- ==== Proof.KI.Val1Inv.lean ====
/-
  The second launch's output, row by row: after the last column tile of a row tile, the output block holds the
  batch-hard triplet term of each of its rows.

  Point t = 8·i + j of the grid reads row tile i and column tile j. Its tile of squared distances at (p, q) is the
  kernel's squared distance of rows R = 1024·i + p and C = 1024·j + q. Along a row tile the first carried buffer holds,
  after column tile j, the largest squared distance of R to the same-label columns C < 1024·(j + 1), the second the
  smallest to the other-label columns below that bound: at j = 0 they start from −∞ and +∞, and a tile's 1024 columns
  join the columns before them. After j = 7 the bound is 8192, every column, and the stored value is the row's term.
-/
import proofs.«427963_j9938554323333_3_alg».proof.Proof.KI.Pieces1
import proofs.«427963_j9938554323333_3_alg».proof.Proof.KI.Pay1
import proofs.«427963_j9938554323333_3_alg».proof.Proof.Spec
import proofs.«427963_j9938554323333_3_alg».proof.Proof.MathTri
import Idealize.ShloMosaic.Lib.Pipeline.Value
import Idealize.ShloMosaic.Lib.ValueIdx

set_option maxRecDepth 16384

noncomputable section

namespace Cert.KernelIdeal.KIV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KI Idealize.ShloMosaic.ValueIdx

/-! ## The grid and the windows' block indices, decided over the 64 points -/

theorem coords1 : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

theorem idx1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0
    ∧ win1_5.index t (0 : Fin 2) = 0 ∧ win1_5.index t (1 : Fin 2) = t.val % 8 :=
  (by decide +kernel : ∀ t : Fin grid1.N, _)

/-! ## Extremes over the columns below a bound -/

/-- Joining the largest value over the columns below 1024·j with the largest over the next 1024 columns gives the
    largest over the columns below 1024·(j + 1). -/
theorem sup_lt_step (h : Fin 8192 → EReal) (j : ℕ) (hj : 1024 * (j + 1) ≤ 8192) (g : Fin 1024 → EReal)
    (hg : ∀ (q : Fin 1024) (C : Fin 8192), C.val = 1024 * j + q.val → g q = h C) :
    max ((Finset.univ.filter fun C : Fin 8192 => C.val < 1024 * j).sup h) (Finset.univ.sup g)
      = (Finset.univ.filter fun C : Fin 8192 => C.val < 1024 * (j + 1)).sup h := by
  apply le_antisymm
  · apply max_le
    · apply Finset.sup_mono
      intro C hC
      rw [Finset.mem_filter] at hC ⊢
      exact ⟨hC.1, by have := hC.2; omega⟩
    · apply Finset.sup_le
      intro q _
      have hq := q.isLt
      rw [hg q ⟨1024 * j + q.val, by omega⟩ rfl]
      apply Finset.le_sup (f := h)
      rw [Finset.mem_filter]
      exact ⟨Finset.mem_univ _, by show 1024 * j + q.val < 1024 * (j + 1); omega⟩
  · apply Finset.sup_le
    intro C hC
    rw [Finset.mem_filter] at hC
    by_cases hlt : C.val < 1024 * j
    · exact le_trans (Finset.le_sup (f := h) (by rw [Finset.mem_filter]; exact ⟨Finset.mem_univ _, hlt⟩)) (le_max_left _ _)
    · have hC2 := hC.2
      rw [← hg ⟨C.val - 1024 * j, by omega⟩ C (by show C.val = 1024 * j + (C.val - 1024 * j); omega)]
      exact le_trans (Finset.le_sup (f := g) (Finset.mem_univ _)) (le_max_right _ _)

/-- The same for the smallest value. -/
theorem inf_lt_step (h : Fin 8192 → EReal) (j : ℕ) (hj : 1024 * (j + 1) ≤ 8192) (g : Fin 1024 → EReal)
    (hg : ∀ (q : Fin 1024) (C : Fin 8192), C.val = 1024 * j + q.val → g q = h C) :
    min ((Finset.univ.filter fun C : Fin 8192 => C.val < 1024 * j).inf h) (Finset.univ.inf g)
      = (Finset.univ.filter fun C : Fin 8192 => C.val < 1024 * (j + 1)).inf h := by
  apply le_antisymm
  · apply Finset.le_inf
    intro C hC
    rw [Finset.mem_filter] at hC
    by_cases hlt : C.val < 1024 * j
    · exact le_trans (min_le_left _ _) (Finset.inf_le (f := h) (by rw [Finset.mem_filter]; exact ⟨Finset.mem_univ _, hlt⟩))
    · have hC2 := hC.2
      rw [← hg ⟨C.val - 1024 * j, by omega⟩ C (by show C.val = 1024 * j + (C.val - 1024 * j); omega)]
      exact le_trans (min_le_right _ _) (Finset.inf_le (f := g) (Finset.mem_univ _))
  · apply le_min
    · apply Finset.inf_mono
      intro C hC
      rw [Finset.mem_filter] at hC ⊢
      exact ⟨hC.1, by have := hC.2; omega⟩
    · apply Finset.le_inf
      intro q _
      have hq := q.isLt
      rw [hg q ⟨1024 * j + q.val, by omega⟩ rfl]
      apply Finset.inf_le (f := h)
      rw [Finset.mem_filter]
      exact ⟨Finset.mem_univ _, by show 1024 * j + q.val < 1024 * (j + 1); omega⟩

section Upto

variable (f : Cert.Spec.SF.Idx → EReal) (t : Cert.Spec.ST.Idx → BitVec 32)

/-- The largest squared distance of row R to the same-label columns below n. -/
def posUpTo (R : Fin 8192) (n : ℕ) : EReal :=
  (Finset.univ.filter fun C : Fin 8192 => C.val < n).sup fun C => if Spec.same t R C then Spec.d2K f R C else ⊥

/-- The smallest squared distance of row R to the other-label columns below n. -/
def negUpTo (R : Fin 8192) (n : ℕ) : EReal :=
  (Finset.univ.filter fun C : Fin 8192 => C.val < n).inf fun C => if Spec.same t R C then ⊤ else Spec.d2K f R C

theorem posUpTo_zero (R : Fin 8192) : posUpTo f t R (1024 * 0) = ⊥ := by
  unfold posUpTo
  rw [Finset.filter_false_of_mem (fun C _ => by omega), Finset.sup_empty]

theorem negUpTo_zero (R : Fin 8192) : negUpTo f t R (1024 * 0) = ⊤ := by
  unfold negUpTo
  rw [Finset.filter_false_of_mem (fun C _ => by omega), Finset.inf_empty]

theorem posUpTo_full (R : Fin 8192) : posUpTo f t R (1024 * (7 + 1)) = Spec.posK f t R := by
  unfold posUpTo Spec.posK
  rw [Finset.filter_true_of_mem (fun C _ => by have := C.isLt; omega)]

theorem negUpTo_full (R : Fin 8192) : negUpTo f t R (1024 * (7 + 1)) = Spec.negK f t R := by
  unfold negUpTo Spec.negK
  rw [Finset.filter_true_of_mem (fun C _ => by have := C.isLt; omega)]

end Upto

section Blocks

variable (V : (c : Dev nD) → (b : Ref sig .tc) → Buf (Elt Ideal) ((c : Thread nD τ).loc b))

/-! ## The blocks, read at an index of the arrays -/

/-- Row p of the row-side block of features is row 1024·i + p of the array. -/
theorem iblk1_0_apply (c : Dev nD) (tt : Fin cfg1.N) (p : Fin 1024) (k : Fin 256) (R : Fin 8192)
    (hR : R.val = 1024 * (tt.val / 8) + p.val) :
    iblk1 (F := Ideal) V c 0 tt (ix2 p k) = (V c main_v4 : S8192x256.Idx → EReal) (ix2 R k) := by
  show (V c main_v4 : S8192x256.Idx → EReal) (((cfg1.win 0).blk tt).view.emb (ix2 p k)) = _
  congr 1
  obtain ⟨e0, e1, -⟩ := idx1_facts tt
  funext a; apply Fin.ext
  match a with
  | ⟨0, _⟩ => show win1_0.index tt (0 : Fin 2) * 1024 + 1 * p.val = R.val; omega
  | ⟨1, _⟩ => show win1_0.index tt (1 : Fin 2) * 256 + 1 * k.val = k.val; omega

/-- Row q of the column-side block of features is row 1024·j + q of the array. -/
theorem iblk1_1_apply (c : Dev nD) (tt : Fin cfg1.N) (q : Fin 1024) (k : Fin 256) (C : Fin 8192)
    (hC : C.val = 1024 * (tt.val % 8) + q.val) :
    iblk1 (F := Ideal) V c 1 tt (ix2 q k) = (V c main_v4 : S8192x256.Idx → EReal) (ix2 C k) := by
  show (V c main_v4 : S8192x256.Idx → EReal) (((cfg1.win 1).blk tt).view.emb (ix2 q k)) = _
  congr 1
  obtain ⟨-, -, e0, e1, -⟩ := idx1_facts tt
  funext a; apply Fin.ext
  match a with
  | ⟨0, _⟩ => show win1_1.index tt (0 : Fin 2) * 1024 + 1 * q.val = C.val; omega
  | ⟨1, _⟩ => show win1_1.index tt (1 : Fin 2) * 256 + 1 * k.val = k.val; omega

/-- Entry p of the row-side block of squared norms. -/
theorem iblk1_2_apply (c : Dev nD) (tt : Fin cfg1.N) (p : Fin 1024) (R : Fin 8192)
    (hR : R.val = 1024 * (tt.val / 8) + p.val) :
    iblk1 (F := Ideal) V c 2 tt (ix2 p (0 : Fin 1)) = (V c main_v7 : S8192x1.Idx → EReal) (ix2 R (0 : Fin 1)) := by
  show (V c main_v7 : S8192x1.Idx → EReal) (((cfg1.win 2).blk tt).view.emb (ix2 p (0 : Fin 1))) = _
  congr 1
  obtain ⟨-, -, -, -, e0, e1, -⟩ := idx1_facts tt
  funext a; apply Fin.ext
  match a with
  | ⟨0, _⟩ => show win1_2.index tt (0 : Fin 2) * 1024 + 1 * p.val = R.val; omega
  | ⟨1, _⟩ => show win1_2.index tt (1 : Fin 2) * 1 + 1 * 0 = 0; omega

/-- Entry q of the column-side block of squared norms. -/
theorem iblk1_3_apply (c : Dev nD) (tt : Fin cfg1.N) (q : Fin 1024) (C : Fin 8192)
    (hC : C.val = 1024 * (tt.val % 8) + q.val) :
    iblk1 (F := Ideal) V c 3 tt (ix2 (0 : Fin 1) q) = (V c main_v8 : S1x8192.Idx → EReal) (ix2 (0 : Fin 1) C) := by
  show (V c main_v8 : S1x8192.Idx → EReal) (((cfg1.win 3).blk tt).view.emb (ix2 (0 : Fin 1) q)) = _
  congr 1
  obtain ⟨-, -, -, -, -, -, e0, e1, -⟩ := idx1_facts tt
  funext a; apply Fin.ext
  match a with
  | ⟨0, _⟩ => show win1_3.index tt (0 : Fin 2) * 1 + 1 * 0 = 0; omega
  | ⟨1, _⟩ => show win1_3.index tt (1 : Fin 2) * 1024 + 1 * q.val = C.val; omega

/-- Entry p of the row-side block of labels. -/
theorem iblk1_4_apply (c : Dev nD) (tt : Fin cfg1.N) (p : Fin 1024) (R : Fin 8192)
    (hR : R.val = 1024 * (tt.val / 8) + p.val) :
    iblk1 (F := Ideal) V c 4 tt (ix2 p (0 : Fin 1)) = (V c main_v9 : S8192x1.Idx → BitVec 32) (ix2 R (0 : Fin 1)) := by
  show (V c main_v9 : S8192x1.Idx → BitVec 32) (((cfg1.win 4).blk tt).view.emb (ix2 p (0 : Fin 1))) = _
  congr 1
  obtain ⟨-, -, -, -, -, -, -, -, e0, e1, -⟩ := idx1_facts tt
  funext a; apply Fin.ext
  match a with
  | ⟨0, _⟩ => show win1_4.index tt (0 : Fin 2) * 1024 + 1 * p.val = R.val; omega
  | ⟨1, _⟩ => show win1_4.index tt (1 : Fin 2) * 1 + 1 * 0 = 0; omega

/-- Entry q of the column-side block of labels. -/
theorem iblk1_5_apply (c : Dev nD) (tt : Fin cfg1.N) (q : Fin 1024) (C : Fin 8192)
    (hC : C.val = 1024 * (tt.val % 8) + q.val) :
    iblk1 (F := Ideal) V c 5 tt (ix2 (0 : Fin 1) q) = (V c main_v10 : S1x8192.Idx → BitVec 32) (ix2 (0 : Fin 1) C) := by
  show (V c main_v10 : S1x8192.Idx → BitVec 32) (((cfg1.win 5).blk tt).view.emb (ix2 (0 : Fin 1) q)) = _
  congr 1
  obtain ⟨-, -, -, -, -, -, -, -, -, -, e0, e1⟩ := idx1_facts tt
  funext a; apply Fin.ext
  match a with
  | ⟨0, _⟩ => show win1_5.index tt (0 : Fin 2) * 1 + 1 * 0 = 0; omega
  | ⟨1, _⟩ => show win1_5.index tt (1 : Fin 2) * 1024 + 1 * q.val = C.val; omega

/-! ## What the launch finds in its arrays -/

/-- The features, their squared norms as a column and as a row, and the labels as a column and as a row. -/
structure Entry1 (c : Dev nD) (f : Cert.Spec.SF.Idx → EReal) (t : Cert.Spec.ST.Idx → BitVec 32) : Prop where
  h4 : (V c main_v4 : S8192x256.Idx → EReal) = f
  h7 : ∀ r : Fin 8192, (V c main_v7 : S8192x1.Idx → EReal) (ix2 r (0 : Fin 1)) = Cert.Spec.sq f r
  h8 : ∀ r : Fin 8192, (V c main_v8 : S1x8192.Idx → EReal) (ix2 (0 : Fin 1) r) = Cert.Spec.sq f r
  h9 : ∀ r : Fin 8192, (V c main_v9 : S8192x1.Idx → BitVec 32) (ix2 r (0 : Fin 1)) = t (ix1 r)
  h10 : ∀ r : Fin 8192, (V c main_v10 : S1x8192.Idx → BitVec 32) (ix2 (0 : Fin 1) r) = t (ix1 r)

variable {V} {c : Dev nD} {f : Cert.Spec.SF.Idx → EReal} {t : Cert.Spec.ST.Idx → BitVec 32}

/-! ## The tile of squared distances -/

/-- Position (p, q) of point (i, j)'s tile is the kernel's squared distance of rows 1024·i + p and 1024·j + q. -/
theorem tile1_apply (hE : Entry1 V c f t) (tt : Fin cfg1.N) (p q : Fin 1024) (R C : Fin 8192)
    (hR : R.val = 1024 * (tt.val / 8) + p.val) (hC : C.val = 1024 * (tt.val % 8) + q.val) :
    tile1 (F := Ideal) V c tt (ix2 p q) = Spec.d2K f R C := by
  unfold tile1
  rw [pay7_apply]
  obtain ⟨g0, g1⟩ := coords1 tt
  unfold Spec.d2K Spec.d2 Spec.gram
  refine if_congr ?_ rfl ?_
  · rw [g0, g1, Fin.ext_iff]; omega
  · rw [iblk1_2_apply V c tt p R hR, iblk1_3_apply V c tt q C hC, hE.h7, hE.h8]
    congr 3
    refine Finset.sum_congr rfl (fun k _ => ?_)
    rw [iblk1_0_apply V c tt p k R hR, iblk1_1_apply V c tt q k C hC, hE.h4]

/-! ## One point's step of the two running extremes -/

theorem posStep_apply (hE : Entry1 V c f t) (tt : Fin cfg1.N) (prev : Vec Ideal S1024x1 .f32) (p : Fin 1024) (R : Fin 8192)
    (hR : R.val = 1024 * (tt.val / 8) + p.val)
    (hprev : prev (ix2 p (0 : Fin 1)) = posUpTo f t R (1024 * (tt.val % 8))) :
    posStep (F := Ideal) V c tt prev (ix2 p (0 : Fin 1)) = posUpTo f t R (1024 * (tt.val % 8 + 1)) := by
  unfold posStep
  rw [pay2_apply, hprev]
  unfold posUpTo
  have htt : tt.val % 8 < 8 := Nat.mod_lt _ (by norm_num)
  refine sup_lt_step _ (tt.val % 8) (by omega) _ (fun q C hC => ?_)
  rw [pay8_apply, iblk1_4_apply V c tt p R hR, iblk1_5_apply V c tt q C hC, hE.h9, hE.h10,
    tile1_apply hE tt p q R C hR hC]
  exact if_congr Iff.rfl rfl rfl

theorem negStep_apply (hE : Entry1 V c f t) (tt : Fin cfg1.N) (prev : Vec Ideal S1024x1 .f32) (p : Fin 1024) (R : Fin 8192)
    (hR : R.val = 1024 * (tt.val / 8) + p.val)
    (hprev : prev (ix2 p (0 : Fin 1)) = negUpTo f t R (1024 * (tt.val % 8))) :
    negStep (F := Ideal) V c tt prev (ix2 p (0 : Fin 1)) = negUpTo f t R (1024 * (tt.val % 8 + 1)) := by
  unfold negStep
  rw [pay3_apply, hprev]
  unfold negUpTo
  have htt : tt.val % 8 < 8 := Nat.mod_lt _ (by norm_num)
  refine inf_lt_step _ (tt.val % 8) (by omega) _ (fun q C hC => ?_)
  rw [pay8_apply, iblk1_4_apply V c tt p R hR, iblk1_5_apply V c tt q C hC, hE.h9, hE.h10,
    tile1_apply hE tt p q R C hR hC]
  exact if_congr Iff.rfl rfl rfl

/-! ## The invariant along a row tile -/

/-- After point n = 8·i + j the carried buffers hold, at row p, the two extremes of row 1024·i + p over the columns
    below 1024·(j + 1). -/
theorem inv1 (hE : Entry1 V c f t) : ∀ (n : ℕ) (hn : n < cfg1.N) (p : Fin 1024) (R : Fin 8192),
    R.val = 1024 * (n / 8) + p.val →
    (outsAt1 (F := Ideal) V c n hn).2.1 (ix2 p (0 : Fin 1)) = posUpTo f t R (1024 * (n % 8 + 1))
    ∧ (outsAt1 (F := Ideal) V c n hn).2.2 (ix2 p (0 : Fin 1)) = negUpTo f t R (1024 * (n % 8 + 1)) := by
  intro n
  induction n using Nat.strong_induction_on with
  | _ n ih =>
    intro hn p R hR
    by_cases h0 : n % 8 = 0
    · have h1 : ¬n % 8 = 7 := by omega
      rw [outsAt1_A V c ⟨n, hn⟩ h0 h1, pt1_A_pos, pt1_A_neg]
      refine ⟨posStep_apply hE ⟨n, hn⟩ _ p R hR ?_, negStep_apply hE ⟨n, hn⟩ _ p R hR ?_⟩
      · rw [pay5_apply]; show ⊥ = posUpTo f t R (1024 * (n % 8)); rw [h0, posUpTo_zero]
      · rw [pay6_apply]; show ⊤ = negUpTo f t R (1024 * (n % 8)); rw [h0, negUpTo_zero]
    · have hlt : n - 1 < n := by omega
      have hR' : R.val = 1024 * ((n - 1) / 8) + p.val := by omega
      have hm : (n - 1) % 8 + 1 = n % 8 := by omega
      obtain ⟨ip, ineg⟩ := ih (n - 1) hlt (Nat.lt_of_le_of_lt (Nat.sub_le _ _) hn) p R hR'
      rw [hm] at ip ineg
      by_cases h1 : n % 8 = 7
      · rw [outsAt1_C V c ⟨n, hn⟩ h0 h1, pt1_C_pos, pt1_C_neg]
        exact ⟨posStep_apply hE ⟨n, hn⟩ _ p R hR ip, negStep_apply hE ⟨n, hn⟩ _ p R hR ineg⟩
      · rw [outsAt1_B V c ⟨n, hn⟩ h0 h1, pt1_B_pos, pt1_B_neg]
        exact ⟨posStep_apply hE ⟨n, hn⟩ _ p R hR ip, negStep_apply hE ⟨n, hn⟩ _ p R hR ineg⟩

/-! ## The output block after the last column tile -/

theorem out1_at (hE : Entry1 V c f t) (tt : Fin cfg1.N) (h7 : tt.val % 8 = 7) (p : Fin 1024) :
    (outsAt1 (F := Ideal) V c tt.val tt.isLt).1 (ix2 p (0 : Fin 1))
      = Cert.Spec.perRowK f t ⟨1024 * (tt.val / 8) + p.val, by have := tt.isLt; have : cfg1.N = 64 := N_1; omega⟩ := by
  have hN : cfg1.N = 64 := N_1
  have htt := tt.isLt
  have h0 : ¬tt.val % 8 = 0 := by omega
  have hlt : tt.val - 1 < cfg1.N := Nat.lt_of_le_of_lt (Nat.sub_le _ _) tt.isLt
  generalize hRd : (⟨1024 * (tt.val / 8) + p.val, by omega⟩ : Fin 8192) = R
  have hR : R.val = 1024 * (tt.val / 8) + p.val := by rw [← hRd]
  have hR' : R.val = 1024 * ((tt.val - 1) / 8) + p.val := by omega
  have hm : (tt.val - 1) % 8 + 1 = tt.val % 8 := by omega
  obtain ⟨ip, ineg⟩ := inv1 hE (tt.val - 1) hlt p R hR'
  rw [hm] at ip ineg
  have ePos := posStep_apply hE tt _ p R hR ip
  have eNeg := negStep_apply hE tt _ p R hR ineg
  rw [h7, posUpTo_full] at ePos
  rw [h7, negUpTo_full] at eNeg
  rw [outsAt1_C V c tt h0 h7, pt1_C_out, pay4_apply, ePos, eNeg]
  rfl

end Blocks

end Cert.KernelIdeal.KIV

end
-- ==== Proof.KI.Val1Arr.lean ====
/-
  What the second launch leaves in its output array, on the extended reals.

  The grid's 64 points are 8·i + j. The output's block at a point is the 1024 rows of row tile i, whatever j; it is
  written back only at j = 7, where the body stores the rows' losses. So the write-back of point 8·i + 7 puts, at row p
  of its block, the loss of row 1024·i + p, and the eight points that write back tile the 8192 rows: after the launch
  entry r of the output is the loss of row r.
-/
import proofs.«427963_j9938554323333_3_alg».proof.Proof.KI.Val1Inv
import proofs.«427963_j9938554323333_3_alg».proof.Proof.KI.Reg1
import proofs.«427963_j9938554323333_3_alg».proof.Proof.Spec
import Idealize.ShloMosaic.Lib.Pipeline.Value
import Idealize.ShloMosaic.Lib.ValueIdx

set_option maxRecDepth 16384

noncomputable section

namespace Cert.KernelIdeal.KIV

open Cert.KernelIdeal Cert.KernelIdeal.Gen Cert.KernelIdeal.KI
open Idealize.ShloMosaic Idealize.ShloMosaic.TcCoe Idealize.ShloMosaic.ValueIdx
open Idealize.SL.Sem
open Idealize.ShloMosaic.Pipeline (Dat Cfg Window)

/-! ## From blocks to the array -/

/-- The output's index map over the grid: at point n its block index is (n / 8, 0). -/
theorem idx_facts1_6 : ∀ n : Fin cfg1.N, win1_6.index n (0 : Fin 2) = n.val / 8 ∧ win1_6.index n (1 : Fin 2) = 0 :=
  (by decide +kernel : ∀ n : Fin grid1.N, _)

/-- The array the launch ends at: entry r the loss of row r. -/
def G1 (f : Cert.Spec.SF.Idx → EReal) (t : Cert.Spec.ST.Idx → BitVec 32) : S8192x1.Idx → EReal :=
  fun i => Cert.Spec.perRowK f t ⟨(i 0).val, (i 0).isLt⟩

section Blocks

variable (V : (c : Dev nD) → (b : Ref sig .tc) → Buf (Elt Ideal) ((c : Thread nD τ).loc b)) (c : Dev nD)
  (f : Cert.Spec.SF.Idx → EReal) (t : Cert.Spec.ST.Idx → BitVec 32)

/-- What a point with j = 7 writes back is its block of that array. -/
theorem flushed1_6_eq (hE : Entry1 V c f t) (n : Fin cfg1.N) (h7 : n.val % 8 = 7) :
    (dat1 (F := Ideal) V c).flushed 6 n = ((cfg1.win 6).blk n).view.read (Elt Ideal) (G1 f t) := by
  show (cfg1.win 6).cut (grid1.coords n) ((dat1 (F := Ideal) V c).after 6 n) = _
  rw [after1_6]
  obtain ⟨e0, e1⟩ := idx_facts1_6 n
  refine funext fun (j : S1024x1.Idx) => ?_
  obtain ⟨p, rfl⟩ : ∃ p : Fin 1024, j = ix2 p (0 : Fin 1) :=
    ⟨j 0, funext fun a => Fin.ext (by
      match a with
      | ⟨0, _⟩ => rfl
      | ⟨1, _⟩ => show (j 1).val = 0; have := idx2_lt1 j; omega)⟩
  show ((outsAt1 (F := Ideal) V c n.val n.isLt).1 (ix2 p (0 : Fin 1)) : EReal)
    = G1 f t (((cfg1.win 6).blk n).view.emb (ix2 p (0 : Fin 1)))
  rw [out1_at (V := V) (c := c) (f := f) (t := t) hE n h7 p]
  refine congrArg (Cert.Spec.perRowK f t) (Fin.ext ?_)
  show 1024 * (n.val / 8) + p.val = win1_6.index n (0 : Fin 2) * 1024 + 1 * p.val
  rw [e0]; omega

/-- An index of the output array is in point n's block iff each coordinate is in the block's range on its axis. -/
theorem mem_blk1_6 (n : Fin cfg1.N) (i : S8192x1.Idx) :
    i ∈ ((cfg1.win 6).blk n).view.set ↔ ∀ a : Fin 2, win1_6.index n a * S1024x1.size a ≤ (i a).val
      ∧ (i a).val < win1_6.index n a * S1024x1.size a + S1024x1.size a := by
  show i ∈ ((View.whole main_v11).slice (win1_6.rect n)).set ↔ _
  rw [View.set_slice_whole, Rect.mem_set_unit]
  exact Iff.rfl

/-- The eight blocks written back tile the array: row r is in the block of point 8·(r / 1024) + 7. -/
theorem covered1_6 (i : S8192x1.Idx) :
    ∃ n : Fin cfg1.N, (cfg1.win 6).flush n = true ∧ i ∈ ((cfg1.win 6).blk n).view.set := by
  have hi0 : (i 0).val < 8192 := idx2_lt0 i
  have hi1 : (i 1).val < 1 := idx2_lt1 i
  obtain ⟨n, hn⟩ : ∃ n : Fin cfg1.N, n.val = 8 * ((i 0).val / 1024) + 7 :=
    ⟨⟨8 * ((i 0).val / 1024) + 7, lt_of_lt_of_eq (by omega : 8 * ((i 0).val / 1024) + 7 < 64) N_1.symm⟩, rfl⟩
  obtain ⟨e0, e1⟩ := idx_facts1_6 n
  refine ⟨n, (flush1_6 n).mpr (by rw [hn]; omega), (mem_blk1_6 n i).mpr fun a => ?_⟩
  match a with
  | ⟨0, _⟩ =>
    show win1_6.index n (0 : Fin 2) * 1024 ≤ (i 0).val ∧ (i 0).val < win1_6.index n (0 : Fin 2) * 1024 + 1024
    rw [e0, hn]; omega
  | ⟨1, _⟩ =>
    show win1_6.index n (1 : Fin 2) * 1 ≤ (i 1).val ∧ (i 1).val < win1_6.index n (1 : Fin 2) * 1 + 1
    rw [e1]; omega

/-- After the launch the output array holds, at row r, the loss of row r. -/
theorem arr1_6 (hE : Entry1 V c f t) :
    ((dat1 (F := Ideal) V c).arrAt 6 cfg1.N : S8192x1.Idx → EReal) = fun i => Cert.Spec.perRowK f t ⟨(i 0).val, (i 0).isLt⟩ :=
  (dat1 (F := Ideal) V c).arrAt_eq_of_cover 6 (G1 f t)
    (fun n hfl => flushed1_6_eq V c f t hE n ((flush1_6 n).mp hfl)) covered1_6

end Blocks

end Cert.KernelIdeal.KIV

end
-- ==== Proof.KI.ValRun.lean ====
/-
  The values the run leaves in the three result buffers, at the ideal values: the mean of the rows' negative
  log-likelihoods, the mean of the rows' batch-hard triplet terms, and their sum, as functions of the argument arrays.
  Each host stretch is read operation by operation from the contents its launch left.
-/
import proofs.«427963_j9938554323333_3_alg».proof.Proof.KI.Run
import proofs.«427963_j9938554323333_3_alg».proof.Proof.KI.Val0
import proofs.«427963_j9938554323333_3_alg».proof.Proof.KI.Val1Inv
import proofs.«427963_j9938554323333_3_alg».proof.Proof.KI.Val1Arr
import proofs.«427963_j9938554323333_3_alg».proof.Proof.Spec
import proofs.«427963_j9938554323333_3_alg».proof.Proof.LibRowsCols
import Idealize.ShloMosaic.Lib.StableHlo.Run
import Idealize.ShloMosaic.Lib.ValueIdx
import Idealize.ShloMosaic.PureOps.Ideal.Laws

set_option maxRecDepth 16384

noncomputable section

namespace Cert.KernelIdeal.KIV

open Cert.KernelIdeal Cert.KernelIdeal.Gen Cert.KernelIdeal.KI
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

local notation "𝕄" => MT nD τ sig Unit (Elt Ideal) ℕ (UR sig nD τ) ℕ

/-! ## The host operations read at an index -/

section Reads

variable {α : Type}

/-- A vector as a column: entry `r` at `(r, 0)`. -/
theorem cast_col (x : S8192.Idx → α) (h : S8192.ShapeCasts S8192x1) (r : Fin 8192) :
    shapeCast S8192x1 x h (ix2 r (0 : Fin 1)) = x (ix1 r) :=
  RowsCols.shapeCast_a_a1_apply x h r 0

/-- A vector as a row: entry `r` at `(0, r)`. -/
theorem cast_row (x : S8192.Idx → α) (h : S8192.ShapeCasts S1x8192) (r : Fin 8192) :
    shapeCast S1x8192 x h (ix2 (0 : Fin 1) r) = x (ix1 r) :=
  shapeCast_apply x h _ _ (by
    rw [Shape.rowMajor_val_two, Shape.rowMajor_val_one]
    show r.val = 0 * 8192 + r.val
    omega)

/-- A column as a row: the column's `(r, 0)` at `(0, r)`. -/
theorem cast_col_row (x : S8192x1.Idx → α) (h : S8192x1.ShapeCasts S1x8192) (r : Fin 8192) :
    shapeCast S1x8192 x h (ix2 (0 : Fin 1) r) = x (ix2 r (0 : Fin 1)) :=
  shapeCast_apply x h _ _ (by
    rw [Shape.rowMajor_val_two, Shape.rowMajor_val_two]
    show r.val * 1 + 0 = 0 * 8192 + r.val
    omega)

/-- A vector broadcast along a new unit axis: entry `r` at `(r, 0)`. -/
theorem bcast_col (x : S8192.Idx → α) (h : S8192.BroadcastsInDim S8192x1 (![0] : Fin 1 → Fin S8192x1.rank)) (r : Fin 8192) :
    broadcastInDim S8192x1 ![0] h x (ix2 r (0 : Fin 1)) = x (ix1 r) :=
  broadcastInDim_apply _ h x _ _ (fun a => match a with
    | ⟨0, _⟩ => by show r.val = if (8192 : Nat) = 1 then 0 else r.val; rw [if_neg (by decide)])

/-- The host's sum along the rows of an 8192 × 256 array, at row `r`: the initial value plus the row's sum. -/
theorem rowSum (x : S8192x256.Idx → EReal) (init : S_.Idx → EReal) (h' : S8192x256.ReducesTo [1] S8192) (hu : 0 < S_.numel)
    (r : Fin 8192) :
    Host.reduceAdd (F := Ideal) (φ := .f32) x init h' hu (ix1 r) = init (Shape.Idx.first hu) + ∑ k : Fin 256, x (ix2 r k) := by
  simp only [Host.reduceAdd, Ideal.hostReduceAdd_def]
  rw [Ideal.hostReduceAdd_single h' (by decide)]
  refine congrArg (_ + ·) (Finset.sum_congr rfl fun k _ => ?_)
  exact congrArg x (funext fun a => Fin.ext (by match a with | ⟨0, _⟩ => rfl | ⟨1, _⟩ => rfl))

/-- The host's sum of a whole 8192 × 1 column: the initial value plus the sum of its entries. -/
theorem totalSum (x : S8192x1.Idx → EReal) (init : S_.Idx → EReal) (h' : S8192x1.ReducesTo [0, 1] S_) (hu : 0 < S_.numel)
    (i : S_.Idx) :
    Host.reduceAdd (F := Ideal) (φ := .f32) x init h' hu i = init (Shape.Idx.first hu) + ∑ r : Fin 8192, x (ix2 r (0 : Fin 1)) := by
  simp only [Host.reduceAdd, Ideal.hostReduceAdd_def]
  rw [Ideal.hostReduceAdd_total h' (fun b => b.elim0) x _ i, sum_idx2]
  exact congrArg (_ + ·) (Finset.sum_congr rfl fun r _ => Fin.sum_univ_one _)

end Reads

variable (m : (ℓ : Loc nD τ sig) → Buf (Elt Ideal) ℓ) (ρ : Dev nD → PrngReg)

/-- The three argument arrays of core `c` at launch: the logits, the features, the labels. -/
abbrev X (c : Dev nD) : Cert.Spec.SX.Idx → EReal := m ((c : Thread nD τ).loc main_arg0)
abbrev Fe (c : Dev nD) : Cert.Spec.SF.Idx → EReal := m ((c : Thread nD τ).loc main_arg1)
abbrev T (c : Dev nD) : Cert.Spec.ST.Idx → BitVec 32 := m ((c : Thread nD τ).loc main_arg2)

/-! ## What the first launch is entered from -/

theorem entry0_x (c : Dev nD) : (V1 m ρ c main_arg0 : S8192x1000.Idx → EReal) = X m c := by
  show StableHlo.after hostOps0 (W0 m ρ c) (Proc.devRef .tc main_arg0) = _
  after_results
  try rfl

theorem entry0_t (c : Dev nD) (r : Fin 8192) : (V1 m ρ c main_v0 : S8192x1.Idx → BitVec 32) (ix2 r (0 : Fin 1)) = T m c (ix1 r) := by
  show StableHlo.after hostOps0 (W0 m ρ c) (Proc.devRef .tc main_v0) (ix2 r (0 : Fin 1)) = _
  after_results
  exact cast_col _ _ r

/-! ## What the second launch is entered from -/

/-- The features and the labels are as launched when the second stretch begins. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results
    try rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results
    try rfl)

/-- The row sums of the squared features, from the zero literal. -/
theorem sqSum (f : S8192x256.Idx → EReal) (h' : S8192x256.ReducesTo [1] S8192) (hu : 0 < S_.numel) (r : Fin 8192) :
    Host.reduceAdd (F := Ideal) (φ := .f32) (mulf f f) (constant S_ .f32 0x00000000#32) h' hu (ix1 r) = Cert.Spec.sq f r := by
  rw [rowSum, constant_apply, Ideal.ofBits_zero_f32, zero_add]
  rfl

theorem entry1 (c : Dev nD) : Entry1 (V3 m ρ) c (Fe m c) (T m c) where
  h4 := by
    show StableHlo.after hostOps1 (W2 m ρ c) (Proc.devRef .tc main_v4) = _
    after_results
    rw [W2_arg1]
    rfl
  h7 r := by
    show StableHlo.after hostOps1 (W2 m ρ c) (Proc.devRef .tc main_v7) (ix2 r (0 : Fin 1)) = _
    after_results
    rw [W2_arg1, bcast_col]
    exact sqSum _ _ _ r
  h8 r := by
    show StableHlo.after hostOps1 (W2 m ρ c) (Proc.devRef .tc main_v8) (ix2 (0 : Fin 1) r) = _
    after_results
    rw [W2_arg1]
    refine (cast_col_row _ _ r).trans ?_
    rw [bcast_col]
    exact sqSum _ _ _ r
  h9 r := by
    show StableHlo.after hostOps1 (W2 m ρ c) (Proc.devRef .tc main_v9) (ix2 r (0 : Fin 1)) = _
    after_results
    rw [W2_arg2]
    exact cast_col _ _ r
  h10 r := by
    show StableHlo.after hostOps1 (W2 m ρ c) (Proc.devRef .tc main_v10) (ix2 (0 : Fin 1) r) = _
    after_results
    rw [W2_arg2]
    exact cast_row _ _ r

/-! ## The three results -/

/-- The host's mean of an 8192 × 1 column whose entry at row `r` is `g r`: the sum from the zero literal, divided by
    the literal 8192. -/
theorem meanRead (g : Fin 8192 → EReal) (h' : S8192x1.ReducesTo [0, 1] S_) (hu : 0 < S_.numel) (i : S_.Idx) :
    Host.divf (F := Ideal) (φ := .f32)
        (Host.reduceAdd (F := Ideal) (φ := .f32) (fun j : S8192x1.Idx => g ⟨(j 0).val, (j 0).isLt⟩) (constant S_ .f32 0x00000000#32) h' hu)
        (constant S_ .f32 0x46000000#32) i
      = Ideal.div (∑ r : Fin 8192, g r) Cert.Spec.cN := by
  simp only [Host.divf, Ideal.hostDivf_def]
  rw [totalSum, constant_apply, constant_apply, Ideal.ofBits_zero_f32, zero_add]

/-- The first launch leaves the rows' negative log-likelihoods in its output array. -/
theorem W2_v1 (c : Dev nD) : (W2 m ρ c (Proc.devRef .tc main_v1) : S8192x1.Idx → EReal)
    = fun i => Cert.Spec.nllK (X m c) (T m c) ⟨(i 0).val, (i 0).isLt⟩ :=
  (W2_arr m ρ c 2).trans (arr0_2 (V1 m ρ) c (X m c) (T m c) (entry0_x m ρ c) (entry0_t m ρ c))

/-- The second launch leaves the rows' triplet terms in its output array. -/
theorem W4_v11 (c : Dev nD) : (W4 m ρ c (Proc.devRef .tc main_v11) : S8192x1.Idx → EReal)
    = fun i => Cert.Spec.perRowK (Fe m c) (T m c) ⟨(i 0).val, (i 0).isLt⟩ :=
  (W4_arr m ρ c 6).trans (arr1_6 (V3 m ρ) c (Fe m c) (T m c) (entry1 m ρ c))

/-- The cross-entropy mean is computed by the second stretch and not touched by the second launch. -/
theorem W4_v3 (c : Dev nD) : (W4 m ρ c (Proc.devRef .tc main_v3) : S_.Idx → EReal) = fun _ => Cert.Spec.ceK (X m c) (T m c) := by
  refine (W4_of_ne m ρ c main_v3 (by decide)).trans ?_
  funext i
  show StableHlo.after hostOps1 (W2 m ρ c) (Proc.devRef .tc main_v3) i = _
  after_results
  rw [W2_v1]
  exact meanRead _ _ _ i

theorem W5_v3 (c : Dev nD) : (W5 m ρ c (Proc.devRef .tc main_v3) : S_.Idx → EReal) = fun _ => Cert.Spec.ceK (X m c) (T m c) := by
  refine Eq.trans ?_ (W4_v3 m ρ c)
  show StableHlo.after hostOps2 (W4 m ρ c) (Proc.devRef .tc main_v3) = _
  after_results
  try rfl

theorem W5_v13 (c : Dev nD) : (W5 m ρ c (Proc.devRef .tc main_v13) : S_.Idx → EReal) = fun _ => Cert.Spec.triK (Fe m c) (T m c) := by
  funext i
  show StableHlo.after hostOps2 (W4 m ρ c) (Proc.devRef .tc main_v13) i = _
  after_results
  rw [W4_v11]
  exact meanRead _ _ _ i

theorem W5_v16 (c : Dev nD) : (W5 m ρ c (Proc.devRef .tc main_v16) : S_.Idx → EReal) = fun _ => Cert.Spec.totK (X m c) (Fe m c) (T m c) := by
  funext i
  show StableHlo.after hostOps2 (W4 m ρ c) (Proc.devRef .tc main_v16) i = _
  after_results
  rw [W4_v11, W4_v3]
  rw [addf_apply, mulf_apply, mulf_apply, constant_apply]
  exact congrArg (fun z => Cert.Spec.c1 * Cert.Spec.ceK (X m c) (T m c) + Cert.Spec.c1 * z)
    (meanRead (fun r => Cert.Spec.perRowK (Fe m c) (T m c) r) _ _ i)

/-- Every execution terminates, nothing faulting, with the three results at the functions of the arguments and the
    arguments as launched. -/
theorem run_vals : θ_run defs (onTc (τ := τ) (main (F := Ideal))) ⟨m, fun _ => 0, ρ⟩ (fun r => ∀ c : Dev nD,
      r.2.mem ((c.tc : Thread nD τ).loc main_v16) = (fun _ => Cert.Spec.totK (X m c) (Fe m c) (T m c))
      ∧ r.2.mem ((c.tc : Thread nD τ).loc main_v3) = (fun _ => Cert.Spec.ceK (X m c) (T m c))
      ∧ r.2.mem ((c.tc : Thread nD τ).loc main_v13) = (fun _ => Cert.Spec.triK (Fe m c) (T m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v16 (by decide))).trans (W5_v16 m ρ c),
     (h c _ (mem_uc main_v3 (by decide))).trans (W5_v3 m ρ c),
     (h c _ (mem_uc main_v13 (by decide))).trans (W5_v13 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.KIV

end
-- ==== Proof.RefCE.lean ====
/-
  The reference's cross-entropy, read back entry by entry.

  For a row r of the logits x the reference computes M r = max_k x r k, the shifted row x r k − M r, its exponentials,
  their sum S r, and the log-probabilities (x r k − M r) − log (S r). It then reads, per row, the log-probability at
  the row's label t r: the label is first normalised (a negative label has the class count added; a label in [0, 1000)
  is unchanged), tested to lie in [0, 999] (true for a class index), and used as the column of a row-wise gather, which
  clamps it into [0, 999] (no change for a class index). The mean of those entries, negated, is the result.
-/
import proofs.«427963_j9938554323333_3_alg».proof.Proof.RefRead
import proofs.«427963_j9938554323333_3_alg».proof.Proof.Spec
import Idealize.ShloMosaic.Lib.ValueIdx
import Idealize.ShloMosaic.Lib.Pipeline.Value
import Idealize.ShloMosaic.PureOps.Ideal.Laws
import Idealize.ShloMosaic.Lib.ReduceAll
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx

/-! ## Reductions and the gather at a row -/

/-- The pattern of −∞ denotes the least extended real. -/
theorem negInf : Ideal.ofBits .f32 0xFF800000#32 = ⊥ := by simp [Ideal.ofBits, Ideal.ieee]

/-- A row's maximum. -/
theorem reduce_max_row (x : S8192x1000.Idx → EReal) (init : S_.Idx → EReal) (r : Fin 8192) :
    Host.reduce (FloatOps.maximumf (F := Ideal) (φ := .f32)) x init Facts₀.reducesTo_S8192x1000_S8192_d1 Facts₀.h_S_ (ix1 r)
      = Finset.univ.fold max (init (Shape.Idx.first Facts₀.h_S_)) fun k : Fin 1000 => x (ix2 r k) := by
  rw [Host.reduce_eq_fold_single (FloatOps.maximumf (F := Ideal) (φ := .f32)) x init Facts₀.reducesTo_S8192x1000_S8192_d1 (by decide) Facts₀.h_S_ (ix1 r)]
  have e : (x ∘ Shape.Reduces.lift (s := S8192x1000) (a := 1) (t := S8192) (by decide) (ix1 r)) = fun k : Fin 1000 => x (ix2 r k) := by
    funext k
    exact congrArg x (funext fun a => Fin.ext (by match a with | ⟨0, _⟩ => rfl | ⟨1, _⟩ => rfl))
  rw [e]
  rfl

theorem reduce_and_one (p : S8192x1x1.Idx → BitVec 1) (init : S_.Idx → BitVec 1) (r : Fin 8192) :
    Host.reduce IntOp.andi p init Facts₀.reducesTo_S8192x1x1_S8192x1_d2 Facts₀.h_S_ (ix2 r 0)
      = IntOp.andi (p (ix3 r 0 0)) (init (Shape.Idx.first Facts₀.h_S_)) := by
  rw [Host.reduce_eq_fold_single IntOp.andi p init Facts₀.reducesTo_S8192x1x1_S8192x1_d2 (by decide) Facts₀.h_S_ (ix2 r 0)]
  have e : (p ∘ Shape.Reduces.lift (s := S8192x1x1) (a := 2) (t := S8192x1) (by decide) (ix2 r 0)) = fun k : Fin 1 => p (ix3 r 0 k) := by
    funext k
    exact congrArg p (funext fun a => Fin.ext (by match a with | ⟨0, _⟩ => rfl | ⟨1, _⟩ => rfl | ⟨2, _⟩ => rfl))
  rw [e]
  rfl

theorem gather_row {α : Type} (x : S8192x1000.Idx → α) (idx : IVec S8192x1x1 32) (r : Fin 8192) :
    Host.gather gather_S8192x1000_S8192x1x1_S8192x1_n_1_0_0_1_2_11 x idx (ix2 r 0)
      = x (ix2 r ⟨min (idx (ix3 r 0 0)).toInt.toNat 999, by omega⟩) := by
  unfold Host.gather
  congr 1
  funext a
  refine Fin.ext ?_
  match a with
  | ⟨0, _⟩ =>
    show GatherDims.start _ _ idx 0 + GatherDims.batchCoord _ _ 0 + GatherDims.offCoord _ _ 0 = r.val
    rw [GatherDims.start_batching _ _ _ _ (show (0 : Fin 2) ∈ gather_S8192x1000_S8192x1x1_S8192x1_n_1_0_0_1_2_11.operandBatchingDims from List.mem_singleton.mpr rfl),
      GatherDims.offCoord_eq_zero _ _ _ (by decide), Nat.zero_add, Nat.add_zero]
    rfl
  | ⟨1, _⟩ =>
    show GatherDims.start _ _ idx 1 + GatherDims.batchCoord _ _ 1 + GatherDims.offCoord _ _ 1 = _
    rw [GatherDims.batchCoord_eq_zero _ _ _ (by decide), GatherDims.offCoord_eq_zero _ _ _ (by decide)]
    simp only [Nat.add_zero]
    unfold GatherDims.start
    rw [dif_pos (show (1 : Fin 2) ∈ gather_S8192x1000_S8192x1x1_S8192x1_n_1_0_0_1_2_11.startIndexMap from List.mem_singleton.mpr rfl)]
    have hsi : gather_S8192x1000_S8192x1x1_S8192x1_n_1_0_0_1_2_11.siIdx (ix2 r 0)
        ⟨List.idxOf (1 : Fin 2) gather_S8192x1000_S8192x1x1_S8192x1_n_1_0_0_1_2_11.startIndexMap,
          List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl

/-! ## Index equations -/

theorem idx_v3 (r : Fin 8192) (c : Fin 1) : idx_main_call0_v3 (ix2 r c) = ix1 r :=
  funext fun a => Fin.ext (by match a with | ⟨0, _⟩ => rfl)
theorem idx_v4 (r : Fin 8192) (k : Fin 1000) : idx_main_call0_v4 (ix2 r k) = ix2 r 0 :=
  funext fun a => Fin.ext (by match a with | ⟨0, _⟩ => rfl | ⟨1, _⟩ => rfl)
theorem idx_v7 (r : Fin 8192) (k : Fin 1000) : idx_main_call0_v7 (ix1 r) k = ix2 r k :=
  funext fun a => Fin.ext (by match a with | ⟨0, _⟩ => rfl | ⟨1, _⟩ => rfl)
theorem idx_v8 (r : Fin 8192) (c : Fin 1) : idx_main_call0_v8 (ix2 r c) = ix1 r :=
  funext fun a => Fin.ext (by match a with | ⟨0, _⟩ => rfl)
theorem idx_v10 (r : Fin 8192) (k : Fin 1000) : idx_main_call0_v10 (ix2 r k) = ix2 r 0 :=
  funext fun a => Fin.ext (by match a with | ⟨0, _⟩ => rfl | ⟨1, _⟩ => rfl)
theorem idx_t1 (r : Fin 8192) (c : Fin 1) : idx_main_v1 (ix2 r c) = ix1 r :=
  funext fun a => Fin.ext (by match a with | ⟨0, _⟩ => rfl)
theorem idx_c5 (r : Fin 8192) : idx_main_call1_v5 (ix3 r 0 0) = ix2 r 0 :=
  funext fun a => Fin.ext (by
    match a with
    | ⟨0, _⟩ => show ((r.val * 1 + 0) * 1 + 0) / 1 = r.val; omega
    | ⟨1, _⟩ => rfl)

/-! ## The log-probabilities -/

section Rows

variable (x0 : Spec.SX.Idx → EReal) (x2 : Spec.ST.Idx → BitVec 32)

/-- The row maximum. -/
theorem rowMax_apply (r : Fin 8192) : val_main_call0_v0 (F := Ideal) x0 (ix1 r) = Spec.rowMax x0 r := by
  unfold val_main_call0_v0
  rw [reduce_max_row, val_main_call0_cst_apply, Ideal.ofBits_def, negInf]
  rfl

/-- The maximum against −∞ changes nothing. -/
theorem rowMax_bcast (r : Fin 8192) (k : Fin 1000) : val_main_call0_v4 (F := Ideal) x0 (ix2 r k) = Spec.rowMax x0 r := by
  rw [val_main_call0_v4_apply, idx_v4, val_main_call0_v3_apply, idx_v3, val_main_call0_v2_apply, val_main_call0_v1_apply,
    val_main_call0_cst_0_apply, rowMax_apply, Ideal.ofBits_def, negInf, Ideal.maximumf_def]
  exact max_bot_left _

/-- The shifted logit. -/
theorem shifted_apply (r : Fin 8192) (k : Fin 1000) :
    val_main_call0_v5 (F := Ideal) x0 (ix2 r k) = x0 (ix2 r k) - Spec.rowMax x0 r := by
  rw [val_main_call0_v5_apply, rowMax_bcast, Ideal.subf_def]

/-- The row's sum of exponentials. -/
theorem sumExp_apply (r : Fin 8192) : val_main_call0_v7 (F := Ideal) x0 (ix1 r) = Spec.sumExp x0 r := by
  rw [val_main_call0_v7_apply, val_main_call0_cst_1_apply, Ideal.ofBits_def, Ideal.ofBits_zero_f32, zero_add]
  unfold Spec.sumExp
  refine Finset.sum_congr rfl fun k _ => ?_
  rw [idx_v7, val_main_call0_v6_apply, shifted_apply, Ideal.hostUnary_exp_def]

/-- The log-probability of row r at column k. -/
theorem logp_apply (r : Fin 8192) (k : Fin 1000) :
    val_main_v0 (F := Ideal) x0 (ix2 r k) = (x0 (ix2 r k) - Spec.rowMax x0 r) - Ideal.log (Spec.sumExp x0 r) := by
  rw [val_main_v0_apply, shifted_apply, val_main_call0_v10_apply, idx_v10, val_main_call0_v9_apply, val_main_call0_v8_apply,
    idx_v8, sumExp_apply, Ideal.hostUnary_log_def, Ideal.subf_def]

/-! ## The label -/

/-- A label that is a class index reads the same signed and unsigned. -/
theorem label_toNat (t : BitVec 32) (h0 : 0 ≤ t.toInt) (h1 : t.toInt < 1000) : t.toInt.toNat = t.toNat ∧ t.toNat < 1000 := by
  have h := BitVec.toInt_eq_toNat_cond t
  have hl := t.isLt
  split at h <;> omega

/-- A nonnegative label is left as it is by the normalisation. -/
theorem norm_label (t : BitVec 32) (h0 : 0 ≤ t.toInt) :
    Scalar.select (IntOp.cmpi .slt t 0#32) (IntOp.addi t 1000#32) t = t := by
  have hz : IntOp.cmpi .slt t 0#32 = 0#1 := eq_zero_of_ne_one fun h1 => by
    rw [IntOp.cmpi_slt, show (0#32 : BitVec 32).toInt = 0 from by decide] at h1
    omega
  rw [hz, select_zero]

variable (ht : ∀ i, 0 ≤ (x2 i).toInt ∧ (x2 i).toInt < 1000)
include ht

/-- The start index of row r is its label. -/
theorem start_apply (r : Fin 8192) : val_main_call1_v5 (F := Ideal) x2 (ix3 r 0 0) = x2 (ix1 r) := by
  rw [val_main_call1_v5_apply, idx_c5, val_main_call1_v4_apply, val_main_call1_v1_apply, val_main_call1_v3_apply,
    val_main_v1_apply, idx_t1, val_main_call1_v0_apply, val_main_call1_c_apply, val_main_call1_v2_apply,
    val_main_call1_c_0_apply]
  exact norm_label _ (ht (ix1 r)).1

/-- The in-range test holds at every row. -/
theorem inRange_apply (r : Fin 8192) : val_main_call1_v12 (F := Ideal) x2 (ix2 r 0) = 1#1 := by
  unfold val_main_call1_v12
  rw [reduce_and_one, val_main_call1_c_3_apply, val_main_call1_v11_apply, val_main_call1_v7_apply, val_main_call1_v10_apply,
    start_apply x2 ht, val_main_call1_v6_apply, val_main_call1_c_2_apply, val_main_call1_v9_apply, val_main_call1_v8_apply,
    val_main_call1_c_1_apply]
  have h7 : IntOp.cmpi .sge (x2 (ix1 r)) 0#32 = 1#1 := by
    rw [IntOp.cmpi_sge, show (0#32 : BitVec 32).toInt = 0 from by decide]; exact (ht (ix1 r)).1
  have h10 : IntOp.cmpi .sle (x2 (ix1 r)) 999#32 = 1#1 := by
    rw [IntOp.cmpi_sle, show (999#32 : BitVec 32).toInt = 999 from by decide]; have := (ht (ix1 r)).2; omega
  rw [h7, h10]
  decide

/-- The gathered entry of row r is the log-probability at the row's label. -/
theorem gathered_apply (r : Fin 8192) :
    val_main_call1_v13 (F := Ideal) x0 x2 (ix2 r 0)
      = val_main_v0 (F := Ideal) x0 (ix2 r ⟨(x2 (ix1 r)).toNat, (label_toNat _ (ht (ix1 r)).1 (ht (ix1 r)).2).2⟩) := by
  unfold val_main_call1_v13
  rw [gather_row]
  refine congrArg (val_main_v0 (F := Ideal) x0) (congrArg (ix2 r) (Fin.ext ?_))
  show min (val_main_call1_v5 (F := Ideal) x2 (ix3 r 0 0)).toInt.toNat 999 = (x2 (ix1 r)).toNat
  rw [start_apply x2 ht]
  have := label_toNat _ (ht (ix1 r)).1 (ht (ix1 r)).2
  omega

/-- Row r's entry of the gathered column is the row's log-probability at its label. -/
theorem lp_apply (r : Fin 8192) : val_main_v2 (F := Ideal) x0 x2 (ix2 r 0) = Spec.lpR x0 x2 r := by
  rw [val_main_v2_apply, inRange_apply x2 ht, select_one, gathered_apply x0 x2 ht, logp_apply]
  unfold Spec.lpR Spec.atLabel Spec.entryAt
  rw [dif_pos (label_toNat _ (ht (ix1 r)).1 (ht (ix1 r)).2).2]

/-! ## The mean -/

/-- The sum over the gathered column is the sum over the rows. -/
theorem sum_lp : ∑ j : S8192x1.Idx, val_main_v2 (F := Ideal) x0 x2 j = ∑ r : Fin 8192, Spec.lpR x0 x2 r := by
  rw [sum_idx2]
  refine Finset.sum_congr rfl fun r _ => ?_
  rw [Fin.sum_univ_one, lp_apply x0 x2 ht]

end Rows

/-- The reference's cross-entropy is the specification's. -/
theorem ref_ce (x0 : Spec.SX.Idx → EReal) (x2 : Spec.ST.Idx → BitVec 32) (ht : ∀ i, 0 ≤ (x2 i).toInt ∧ (x2 i).toInt < 1000) (i : S_.Idx) :
    val_main_v5 (F := Ideal) x0 x2 i = Spec.ceR x0 x2 := by
  rw [val_main_v5_apply, val_main_v4_apply, val_main_v3_apply, val_main_cst_apply, val_main_cst_0_apply, sum_lp x0 x2 ht,
    Ideal.ofBits_def, Ideal.ofBits_def, Ideal.ofBits_zero_f32, zero_add, Ideal.hostNegf_def, Ideal.negf_def, Ideal.hostDivf_def]
  rfl

end Cert.ReferenceIdeal.RefValue

end
-- ==== Proof.RefTri.lean ====
/-
  The reference's triplet term, read back entry by entry as the specification's triR, and the total as totR.

  At entry (r, c) the reference forms q r + q c − 2·Σ_k f r k · f c k clamped at zero, takes the square root where that
  is positive (zero elsewhere), and over row r takes the largest such distance among the columns carrying r's label
  (from −∞) and the smallest among the others (from +∞). A row counts when it has a column of each kind; its term is
  max (largest − smallest + margin, 0), the rows' terms are summed and divided by the row count.
-/
import proofs.«427963_j9938554323333_3_alg».proof.Proof.RefRead
import proofs.«427963_j9938554323333_3_alg».proof.Proof.Spec
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.ReduceAll
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx

/-! ## Words and folds -/

/-- A select on a bit that is one exactly when p holds is the if on p. -/
theorem tri_select_of_iff {α : Type} {b : BitVec 1} {p : Prop} [Decidable p] (h : b = 1#1 ↔ p) (x y : α) :
    Scalar.select b x y = if p then x else y := by
  by_cases hp : p
  · rw [if_pos hp, h.2 hp]; exact select_one x y
  · rw [if_neg hp, eq_zero_of_ne_one (fun e => hp (h.1 e))]; exact select_zero x y

/-- The ordered greater-than comparison's bit is one exactly when the order relation holds. -/
theorem tri_cmp_ogt_iff (x y : EReal) : Ideal.cmp .ogt x y = 1#1 ↔ y < x := by
  unfold Ideal.cmp
  by_cases h : y < x
  · simp [h]
  · simp [h]

/-- A fold of or from the zero bit is one exactly when some element is one. -/
theorem tri_fold_ori_eq_one {ι : Type} [DecidableEq ι] (s : Finset ι) (g : ι → BitVec 1) :
    s.fold IntOp.ori 0#1 g = 1#1 ↔ ∃ c ∈ s, g c = 1#1 := by
  induction s using Finset.induction_on with
  | empty => simp
  | insert a s ha ih =>
    rw [Finset.fold_insert ha, IntOp.ori_eq_one, ih]
    constructor
    · rintro (h | ⟨c, hc, h⟩)
      · exact ⟨a, Finset.mem_insert_self a s, h⟩
      · exact ⟨c, Finset.mem_insert_of_mem hc, h⟩
    · rintro ⟨c, hc, h⟩
      rcases Finset.mem_insert.1 hc with rfl | hc
      · exact Or.inl h
      · exact Or.inr ⟨c, hc, h⟩

/-- The pattern of −∞. -/
theorem tri_neg_inf : Ideal.ofBits .f32 0xFF800000#32 = ⊥ := by simp [Ideal.ofBits, Ideal.ieee]
/-- The pattern of +∞. -/
theorem tri_pos_inf : Ideal.ofBits .f32 0x7F800000#32 = ⊤ := by simp [Ideal.ofBits, Ideal.ieee]

/-- The row index r with column k put back on axis 1 is (r, k). -/
theorem tri_lift_ix2 (h : (⟨2, ![8192, 8192]⟩ : Shape).Reduces [1] (⟨1, ![8192]⟩ : Shape)) (r : Fin 8192)
    (k : Fin ((⟨2, ![8192, 8192]⟩ : Shape).size 1)) : h.lift (ix1 r) k = ix2 r (⟨k.val, k.isLt⟩ : Fin 8192) := by
  funext c; apply Fin.ext
  match c with
  | ⟨0, _⟩ => rfl
  | ⟨1, _⟩ => rfl

variable (f : Spec.SF.Idx → EReal) (t : Spec.ST.Idx → BitVec 32)

/-! ## The squared distance -/

/-- The row sum of squares is q r. -/
theorem tri_sq (r : Fin 8192) : val_main_v7 (F := Ideal) f (ix1 r) = Spec.sq f r := by
  rw [val_main_v7_apply]
  simp only [val_main_cst_1_apply, val_main_v6_apply, Ideal.ofBits_def, Ideal.mulf_def, Ideal.ofBits_zero_f32, zero_add]
  unfold Spec.sq
  refine Finset.sum_congr rfl fun k _ => ?_
  have e : idx_main_v7 (ix1 r) k = ix2 r k := funext fun a => Fin.ext (by match a with | ⟨0, _⟩ => rfl | ⟨1, _⟩ => rfl)
  rw [e]

/-- The two broadcasts added: q r + q c. -/
theorem tri_v12 (r c : Fin 8192) : val_main_v12 (F := Ideal) f (ix2 r c) = Spec.sq f r + Spec.sq f c := by
  have e1 : idx_main_v8 (idx_main_v10 (ix2 r c)) = ix1 r := funext fun a => Fin.ext (by match a with | ⟨0, _⟩ => rfl)
  have e2 : idx_main_v9 (idx_main_v11 (ix2 r c)) = ix1 c := funext fun a => Fin.ext (by match a with | ⟨0, _⟩ => rfl)
  rw [val_main_v12_apply, Ideal.addf_def, val_main_v10_apply, val_main_v8_apply, val_main_v11_apply, val_main_v9_apply,
    e1, e2, tri_sq, tri_sq]

/-- The product with the transpose: Σ_k f r k · f c k. -/
theorem tri_gram (r c : Fin 8192) : val_main_v14 (F := Ideal) f (ix2 r c) = Spec.gram f r c := by
  rw [val_main_v14_apply]
  unfold Spec.gram
  refine Finset.sum_congr rfl fun k _ => ?_
  have e1 : lidx_main_v14 (ix2 r c) k = ix2 r k := funext fun a => Fin.ext (by match a with | ⟨0, _⟩ => rfl | ⟨1, _⟩ => rfl)
  have e2 : idx_main_v13 (ridx_main_v14 (ix2 r c) k) = ix2 c k :=
    funext fun a => Fin.ext (by match a with | ⟨0, _⟩ => rfl | ⟨1, _⟩ => rfl)
  rw [val_main_v13_apply, e1, e2]

/-- The clamped squared distance. -/
theorem tri_d2 (r c : Fin 8192) : val_main_v19 (F := Ideal) f (ix2 r c) = Spec.d2 f r c := by
  unfold Spec.d2
  rw [val_main_v19_apply, Ideal.maximumf_def, val_main_v17_apply, Ideal.subf_def, val_main_v16_apply, Ideal.mulf_def,
    val_main_v15_apply, val_main_cst_2_apply, Ideal.ofBits_def, val_main_v18_apply, val_main_cst_3_apply, Ideal.ofBits_def,
    tri_v12, tri_gram]

/-! ## The distance -/

/-- The square root where the squared distance is positive, zero elsewhere. -/
theorem tri_dist (r c : Fin 8192) : val_main_v26 (F := Ideal) f (ix2 r c) = Spec.distR f r c := by
  have hsel : ∀ x y : EReal, Scalar.select (FloatOps.cmpf (F := Ideal) (φ := .f32) .ogt (Spec.d2 f r c) Spec.c0) x y
      = if Spec.c0 < Spec.d2 f r c then x else y := fun x y => tri_select_of_iff (tri_cmp_ogt_iff _ _) x y
  unfold Spec.distR
  rw [val_main_v26_apply, val_main_v21_apply, val_main_v25_apply, val_main_v24_apply, val_main_v23_apply, tri_d2,
    val_main_v20_apply, val_main_cst_4_apply, val_main_v22_apply, val_main_cst_5_apply,
    val_main_call3_v1_apply, val_main_call3_v0_apply, val_main_cst_7_apply,
    val_main_call2_v1_apply, val_main_call2_v0_apply, val_main_cst_6_apply, Ideal.ofBits_def, Ideal.ofBits_def,
    Ideal.hostUnary_sqrt_def, hsel, hsel]

/-! ## The label masks -/

/-- The equality mask at (r, c) is one exactly when the two rows carry the same label. -/
theorem tri_same (r c : Fin 8192) : val_main_v31 (F := Ideal) t (ix2 r c) = 1#1 ↔ Spec.same t r c := by
  have e1 : idx_main_v27 (idx_main_v29 (ix2 r c)) = ix1 r := funext fun a => Fin.ext (by match a with | ⟨0, _⟩ => rfl)
  have e2 : idx_main_v28 (idx_main_v30 (ix2 r c)) = ix1 c := funext fun a => Fin.ext (by match a with | ⟨0, _⟩ => rfl)
  rw [val_main_v31_apply, val_main_v29_apply, val_main_v27_apply, val_main_v30_apply, val_main_v28_apply, e1, e2]
  exact IntOp.cmpi_eq

/-- The negated mask is one exactly when the labels differ. -/
theorem tri_nsame (r c : Fin 8192) : val_main_v32 (F := Ideal) t (ix2 r c) = 1#1 ↔ ¬ Spec.same t r c := by
  rw [val_main_v32_apply, IntOp.not_eq_one, tri_same]

/-! ## The extremes over a row -/

/-- Row r of the masked distances for the maximum: the distance on the row's label, −∞ elsewhere. -/
theorem tri_pos_fun (h : S8192x8192.Reduces [1] S8192) (r : Fin 8192) :
    (val_main_v33 (F := Ideal) f t ∘ h.lift (ix1 r))
      = fun c : Fin 8192 => if Spec.same t r c then Spec.distR f r c else ⊥ := by
  funext k
  rw [Function.comp_apply, tri_lift_ix2 h r k, val_main_v33_apply, tri_select_of_iff (tri_same t r ⟨k.val, k.isLt⟩), tri_dist,
    val_main_call4_v1_apply, val_main_call4_v0_apply, val_main_cst_8_apply, Ideal.ofBits_def, tri_neg_inf]
  rfl

/-- The largest distance on the row's label. -/
theorem tri_pos (r : Fin 8192) : val_main_v34 (F := Ideal) f t (ix1 r) = Spec.posR f t r := by
  unfold val_main_v34
  rw [Host.reduce_eq_fold_single FloatOps.maximumf _ _ reducesTo_S8192x8192_S8192_d1 (by decide) h_S_,
    tri_pos_fun, val_main_cst_9_apply, Ideal.ofBits_def, tri_neg_inf]
  rfl

/-- Row r of the masked distances for the minimum: +∞ on the row's label, the distance elsewhere. -/
theorem tri_neg_fun (h : S8192x8192.Reduces [1] S8192) (r : Fin 8192) :
    (val_main_v35 (F := Ideal) f t ∘ h.lift (ix1 r))
      = fun c : Fin 8192 => if Spec.same t r c then ⊤ else Spec.distR f r c := by
  funext k
  rw [Function.comp_apply, tri_lift_ix2 h r k, val_main_v35_apply, tri_select_of_iff (tri_nsame t r ⟨k.val, k.isLt⟩), tri_dist,
    val_main_call5_v1_apply, val_main_call5_v0_apply, val_main_cst_10_apply, Ideal.ofBits_def, tri_pos_inf, ite_not]
  rfl

/-- The smallest distance off the row's label. -/
theorem tri_neg (r : Fin 8192) : val_main_v36 (F := Ideal) f t (ix1 r) = Spec.negR f t r := by
  unfold val_main_v36
  rw [Host.reduce_eq_fold_single FloatOps.minimumf _ _ reducesTo_S8192x8192_S8192_d1 (by decide) h_S_,
    tri_neg_fun, val_main_cst_11_apply, Ideal.ofBits_def, tri_pos_inf]
  rfl

/-! ## The rows that count -/

/-- Some column carries the row's label. -/
theorem tri_any_same (r : Fin 8192) : val_main_v37 (F := Ideal) t (ix1 r) = 1#1 ↔ ∃ c, Spec.same t r c := by
  have h : S8192x8192.Reduces [1] S8192 := by decide
  unfold val_main_v37
  rw [Host.reduce_eq_fold_single IntOp.ori _ _ reducesTo_S8192x8192_S8192_d1 h h_S_, val_main_c_apply,
    tri_fold_ori_eq_one]
  constructor
  · rintro ⟨k, _, hk⟩
    rw [Function.comp_apply, tri_lift_ix2, tri_same] at hk
    exact ⟨_, hk⟩
  · rintro ⟨c, hc⟩
    refine ⟨c, Finset.mem_univ _, ?_⟩
    exact (congrArg (val_main_v31 (F := Ideal) t) (tri_lift_ix2 h r c)).trans ((tri_same t r _).2 hc)

/-- Some column carries another label. -/
theorem tri_any_nsame (r : Fin 8192) : val_main_v38 (F := Ideal) t (ix1 r) = 1#1 ↔ ∃ c, ¬ Spec.same t r c := by
  have h : S8192x8192.Reduces [1] S8192 := by decide
  unfold val_main_v38
  rw [Host.reduce_eq_fold_single IntOp.ori _ _ reducesTo_S8192x8192_S8192_d1 h h_S_, val_main_c_12_apply,
    tri_fold_ori_eq_one]
  constructor
  · rintro ⟨k, _, hk⟩
    rw [Function.comp_apply, tri_lift_ix2, tri_nsame] at hk
    exact ⟨_, hk⟩
  · rintro ⟨c, hc⟩
    refine ⟨c, Finset.mem_univ _, ?_⟩
    exact (congrArg (val_main_v32 (F := Ideal) t) (tri_lift_ix2 h r c)).trans ((tri_nsame t r _).2 hc)

/-- The row has a column of each kind. -/
theorem tri_valid (r : Fin 8192) : val_main_v39 (F := Ideal) t (ix1 r) = 1#1 ↔ Spec.validR t r := by
  rw [val_main_v39_apply, IntOp.andi_eq_one, tri_any_same, tri_any_nsame]
  exact Iff.rfl

/-! ## The row's term, the mean, the total -/

/-- max (largest − smallest + margin, 0) on a row that counts, zero on the others. -/
theorem tri_perRow (r : Fin 8192) : val_main_v44 (F := Ideal) f t (ix1 r) = Spec.perRowR f t r := by
  unfold Spec.perRowR
  rw [val_main_v44_apply, val_main_v43_apply, Ideal.maximumf_def, val_main_v42_apply, Ideal.addf_def, val_main_v40_apply,
    Ideal.subf_def, tri_pos, tri_neg, val_main_v41_apply, val_main_cst_13_apply, val_main_call6_v0_apply,
    val_main_call6_cst_apply, val_main_call7_v1_apply, val_main_call7_v0_apply, val_main_cst_14_apply,
    Ideal.ofBits_def, Ideal.ofBits_def, @tri_select_of_iff _ _ _ (Classical.propDecidable _) (tri_valid t r)]

theorem ref_tri (x1 : Spec.SF.Idx → EReal) (x2 : Spec.ST.Idx → BitVec 32) (i : S_.Idx) :
    val_main_v46 (F := Ideal) x1 x2 i = Spec.triR x1 x2 := by
  have hs : ∑ j : S8192.Idx, val_main_v44 (F := Ideal) x1 x2 j = ∑ r : Fin 8192, Spec.perRowR x1 x2 r := by
    rw [← Equiv.sum_comp (idxEquiv1 (n := 8192)).symm]
    exact Finset.sum_congr rfl fun r _ => tri_perRow x1 x2 r
  unfold Spec.triR
  rw [val_main_v46_apply, Ideal.hostDivf_def, val_main_v45_apply, val_main_cst_15_apply, Ideal.ofBits_def,
    Ideal.ofBits_zero_f32, zero_add, val_main_cst_16_apply, Ideal.ofBits_def, hs]

theorem ref_tot (x0 : Spec.SX.Idx → EReal) (x1 : Spec.SF.Idx → EReal) (x2 : Spec.ST.Idx → BitVec 32) (i : S_.Idx)
    (hce : val_main_v5 (F := Ideal) x0 x2 i = Spec.ceR x0 x2) : val_main_v49 (F := Ideal) x0 x1 x2 i = Spec.totR x0 x1 x2 := by
  unfold Spec.totR
  rw [val_main_v49_apply, Ideal.addf_def, val_main_v47_apply, val_main_v48_apply, Ideal.mulf_def, Ideal.mulf_def, hce, ref_tri,
    val_main_cst_17_apply, val_main_cst_18_apply, Ideal.ofBits_def]

end Cert.ReferenceIdeal.RefValue

end
-- ==== Proof.MathCE.lean ====
/-
  The cross-entropy halves of the two programs agree on real logits.

  For a row of real logits the maximum M is a real (it is attained), every x − M is a real, so every exponential
  is a positive real and their sum S is a positive real; log S is then a real, and the logit g at the label is a
  real (an entry of the row, or zero). On reals (log S + M) − g = −((g − M) − log S). Summing over the rows and
  dividing by the non-zero real 8192 commutes with the negation.
-/
import proofs.«427963_j9938554323333_3_alg».proof.Proof.Spec
import Mathlib.Data.EReal.Basic
import Mathlib.Data.EReal.Operations
import Mathlib.Data.Finset.Lattice.Fold
import Mathlib.Algebra.Order.BigOperators.Group.Finset
import Mathlib.Analysis.SpecialFunctions.Exp

noncomputable section

namespace Cert.Spec

open Idealize.ShloMosaic Idealize.ShloMosaic.ValueIdx

/-- The pattern 0x46000000 denotes 2^13 = 8192. -/
theorem cN_eq : cN = ((8192 : ℝ) : EReal) := by
  simp [cN, Ideal.ofBits, Ideal.ieee, -EReal.coe_mul]; norm_num

/-- A sum of coerced reals is the coercion of the sum. -/
theorem coe_finsum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, ← EReal.coe_add]

/-- An extended real that is neither infinity is a real. -/
theorem eq_coe_of_fin {a : EReal} (h : a ≠ ⊥ ∧ a ≠ ⊤) : a = ((a.toReal : ℝ) : EReal) :=
  (EReal.coe_toReal h.2 h.1).symm

variable (x : SX.Idx → EReal) (t : ST.Idx → BitVec 32)

/-- The maximum of a row of reals is attained, so it is a real. -/
theorem rowMax_real (hx : ∀ i, x i ≠ ⊥ ∧ x i ≠ ⊤) (r : Fin 8192) : ∃ m : ℝ, rowMax x r = (m : EReal) := by
  obtain ⟨k, -, hk⟩ := Finset.exists_mem_eq_sup (Finset.univ : Finset (Fin 1000)) Finset.univ_nonempty
    (fun k : Fin 1000 => x (ix2 r k))
  exact ⟨(x (ix2 r k)).toReal, by unfold rowMax; rw [hk]; exact eq_coe_of_fin (hx _)⟩

/-- The sum of the exponentials is a positive real. -/
theorem sumExp_real (hx : ∀ i, x i ≠ ⊥ ∧ x i ≠ ⊤) (r : Fin 8192) :
    ∃ s : ℝ, 0 < s ∧ sumExp x r = (s : EReal) := by
  obtain ⟨m, hm⟩ := rowMax_real x hx r
  refine ⟨∑ k : Fin 1000, Real.exp ((x (ix2 r k)).toReal - m), ?_, ?_⟩
  · exact Finset.sum_pos (fun k _ => Real.exp_pos _) Finset.univ_nonempty
  · unfold sumExp
    rw [← coe_finsum]
    refine Finset.sum_congr rfl (fun k _ => ?_)
    rw [hm, eq_coe_of_fin (hx (ix2 r k)), ← EReal.coe_sub, Ideal.exp_coe, EReal.toReal_coe]

/-- The logit at the label is a real: an entry of the row, or zero. -/
theorem atLabel_real (hx : ∀ i, x i ≠ ⊥ ∧ x i ≠ ⊤) (r : Fin 8192) : ∃ g : ℝ, atLabel x t r = (g : EReal) := by
  unfold atLabel entryAt
  split_ifs with h
  · exact ⟨_, eq_coe_of_fin (hx _)⟩
  · exact ⟨0, rfl⟩

theorem nllK_eq_neg_lpR (hx : ∀ i, x i ≠ ⊥ ∧ x i ≠ ⊤) (r : Fin 8192) :
    nllK x t r = -(lpR x t r) ∧ ∃ a : ℝ, lpR x t r = (a : EReal) := by
  obtain ⟨m, hm⟩ := rowMax_real x hx r
  obtain ⟨s, hs, hS⟩ := sumExp_real x hx r
  obtain ⟨g, hg⟩ := atLabel_real x t hx r
  have hL : Ideal.log (sumExp x r) = ((Real.log s : ℝ) : EReal) := by
    rw [hS, Ideal.log_coe, if_neg (not_le.mpr hs)]
  have h2 : lpR x t r = ((g - m - Real.log s : ℝ) : EReal) := by
    unfold lpR; rw [hL, hm, hg, ← EReal.coe_sub, ← EReal.coe_sub]
  refine ⟨?_, _, h2⟩
  rw [h2]; unfold nllK
  rw [hL, hm, hg, ← EReal.coe_add, ← EReal.coe_sub, ← EReal.coe_neg]
  congr 1; ring

theorem ce_eq (hx : ∀ i, x i ≠ ⊥ ∧ x i ≠ ⊤) : ceK x t = ceR x t := by
  have hl : ∀ r : Fin 8192, lpR x t r = (((lpR x t r).toReal : ℝ) : EReal) := by
    intro r
    obtain ⟨a, ha⟩ := (nllK_eq_neg_lpR x t hx r).2
    rw [ha, EReal.toReal_coe]
  have hn : ∀ r : Fin 8192, nllK x t r = ((-(lpR x t r).toReal : ℝ) : EReal) := by
    intro r
    rw [(nllK_eq_neg_lpR x t hx r).1, EReal.coe_neg, ← hl r]
  have h8 : (8192 : ℝ) ≠ 0 := by norm_num
  unfold ceK ceR
  rw [Finset.sum_congr rfl (fun r _ => hn r), Finset.sum_congr rfl (fun r _ => hl r),
    coe_finsum, coe_finsum, cN_eq, Ideal.div_coe h8, Ideal.div_coe h8, ← EReal.coe_mul, ← EReal.coe_mul,
    ← EReal.coe_neg, Finset.sum_neg_distrib, neg_mul]

end Cert.Spec

end
-- ==== Proof.RefFinal.lean ====
/-
  The reference's run, its results read as the kernel-side values of the specification.

  The run leaves the total, the cross-entropy and the triplet term at the reference-side values totR, ceR, triR of the
  argument arrays. On the domain — finite logits and features, labels that are class indices — these are the
  kernel-side values: (log S + M) − g and (g − M) − log S are one real number up to sign, and the square root, being
  monotone, commutes with the largest and the smallest over a row.
-/
import proofs.«427963_j9938554323333_3_alg».proof.Proof.RefReadEq
import proofs.«427963_j9938554323333_3_alg».proof.Proof.RefCE
import proofs.«427963_j9938554323333_3_alg».proof.Proof.RefTri
import proofs.«427963_j9938554323333_3_alg».proof.Proof.MathCE
import proofs.«427963_j9938554323333_3_alg».proof.Proof.MathTri
import proofs.«427963_j9938554323333_3_alg».proof.Proof.Spec

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- On the domain, every weakly fair execution of the reference terminates with its three results at the
    kernel-side values — the total, the cross-entropy, the triplet term — and its arguments unchanged. -/
theorem ref_run_vals (m' : (ℓ : Loc nD τ sig) → Buf (Elt Ideal) ℓ) (ρ' : Dev nD → PrngReg)
    (hdom : ∀ c : Dev nD, Cert.Spec.Dom (m' ((c.tc : Thread nD τ).loc main_arg0)) (m' ((c.tc : Thread nD τ).loc main_arg1)) (m' ((c.tc : Thread nD τ).loc main_arg2))) :
    θ_run defs (onTc (τ := τ) (main (F := Ideal))) ⟨m', fun _ => 0, ρ'⟩ (fun r => ∀ c : Dev nD,
      r.2.mem ((c.tc : Thread nD τ).loc main_v49) = (fun _ => Cert.Spec.totK (m' ((c.tc : Thread nD τ).loc main_arg0)) (m' ((c.tc : Thread nD τ).loc main_arg1)) (m' ((c.tc : Thread nD τ).loc main_arg2)))
      ∧ r.2.mem ((c.tc : Thread nD τ).loc main_v5) = (fun _ => Cert.Spec.ceK (m' ((c.tc : Thread nD τ).loc main_arg0)) (m' ((c.tc : Thread nD τ).loc main_arg2)))
      ∧ r.2.mem ((c.tc : Thread nD τ).loc main_v46) = (fun _ => Cert.Spec.triK (m' ((c.tc : Thread nD τ).loc main_arg1)) (m' ((c.tc : Thread nD τ).loc main_arg2)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run defs _ _).mono (fun r h c => by
    obtain ⟨h49, h5, h46, ha0, ha1, ha2⟩ := h c
    have hd := hdom c
    have hce := Cert.Spec.ce_eq (m' ((c.tc : Thread nD τ).loc main_arg0)) (m' ((c.tc : Thread nD τ).loc main_arg2)) hd.x_fin
    have htri := Cert.Spec.tri_eq (m' ((c.tc : Thread nD τ).loc main_arg1)) (m' ((c.tc : Thread nD τ).loc main_arg2)) hd.f_fin
    refine ⟨?_, ?_, ?_, ha0, ha1, ha2⟩
    · refine h49.trans ((val_main_v49_eq m' c).trans (funext fun i => ?_))
      exact (ref_tot _ _ _ i (ref_ce _ _ hd.t_rng i)).trans (Cert.Spec.tot_eq _ _ _ hce htri).symm
    · refine h5.trans ((val_main_v5_eq _ _).trans (funext fun i => ?_))
      exact (ref_ce _ _ hd.t_rng i).trans hce.symm
    · refine h46.trans ((val_main_v46_eq m' c).trans (funext fun i => ?_))
      exact (ref_tri _ _ i).trans htri.symm)
    (Cert.ReferenceIdeal.ValueP.run (F := Ideal) m' ρ')

end Cert.ReferenceIdeal.RefValue

end
-- ==== Proof.lean ====
/-
  The claims, assembled.

  The kernel and the reference both compute, from logits x, features f and labels t, a cross-entropy, a batch-hard
  triplet term and their sum. For a row of x with maximum M, S = Σ_k exp (x k − M) and label logit g, one program forms
  (log S + M) − g and the other (g − M) − log S, negated after the mean: for finite logits the same real number. For
  the triplet term one program takes, over the columns with the row's label, the largest squared distance and, over
  the others, the smallest, and applies the square root to the two extremes; the other takes the extremes of the
  distances themselves: the square root is monotone, so they agree. Both runs therefore end with their three results
  at one triple of extended reals, the specification's kernel-side values of the argument arrays, and with the
  arguments unchanged. The precondition read entry by entry is the domain on which this holds: every logit and
  feature a real number, every label a class index.
-/
import proofs.«427963_j9938554323333_3_alg».proof.Defs
import proofs.«427963_j9938554323333_3_alg».proof.Proof.Gen.Kernel
import proofs.«427963_j9938554323333_3_alg».proof.Proof.Gen.KernelIdeal
import proofs.«427963_j9938554323333_3_alg».proof.Proof.Gen.ReferenceIdeal
import proofs.«427963_j9938554323333_3_alg».proof.Proof.Gen.Pre_finite_inputs
import proofs.«427963_j9938554323333_3_alg».proof.Proof.Spec
import proofs.«427963_j9938554323333_3_alg».proof.Proof.PreDom
import proofs.«427963_j9938554323333_3_alg».proof.Proof.K.Run
import proofs.«427963_j9938554323333_3_alg».proof.Proof.KI.Run
import proofs.«427963_j9938554323333_3_alg».proof.Proof.KI.ValRun
import proofs.«427963_j9938554323333_3_alg».proof.Proof.RefFinal

noncomputable section

namespace Cert.Proof

open Idealize.ShloMosaic Idealize.SL.Sem

/-- From argument arrays on the domain, the kernel and the reference end with equal results: the specification's
    kernel-side total, cross-entropy and triplet term of the arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdom : ∀ c : Dev Cert.KernelIdeal.nD, Cert.Spec.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    fun c => PreDom.dom_of_pre (hF := Cert.Pre_finite_inputs.Gen.facts) _ _ _ (hpre c)
  have hdom' : ∀ c : Dev Cert.ReferenceIdeal.nD, Cert.Spec.Dom (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) := fun c => by
    rw [(hagree c).1, (hagree c).2.1, (hagree c).2.2]
    exact hdom c
  refine ⟨fun c => fun _ => Cert.Spec.totK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => fun _ => Cert.Spec.ceK (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => fun _ => Cert.Spec.triK (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KIV.run_vals m ρ, ?_⟩
  refine (θ_run Cert.ReferenceIdeal.defs _ _).mono (fun r h c => ?_) (Cert.ReferenceIdeal.RefValue.ref_run_vals m' ρ' hdom')
  obtain ⟨h0, h1, h2, ha⟩ := h c
  rw [(hagree c).1, (hagree c).2.1, (hagree c).2.2] at h0
  rw [(hagree c).1, (hagree c).2.2] at h1
  rw [(hagree c).2.1, (hagree c).2.2] at h2
  exact ⟨h0, h1, h2, ha⟩

theorem claim : Cert.Claim :=
  ⟨Cert.Kernel.Gen.facts, Cert.KernelIdeal.Gen.facts, Cert.ReferenceIdeal.Gen.facts, Cert.Pre_finite_inputs.Gen.facts,
    fun m ρ _ => Cert.Kernel.KI.frame m ρ,
    fun m ρ _ => Cert.KernelIdeal.KI.frame m ρ,
    fun m ρ _ => (θ_run Cert.ReferenceIdeal.defs _ _).mono (fun _ h c => (h c).2.2.2) (Cert.ReferenceIdeal.ValueP.run (F := Ideal) m ρ),
    trivial,
    algebraic⟩

end Cert.Proof

end
